-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S50000x32 : Shape := ⟨2, ![50000, 32]⟩
abbrev S2x800000 : Shape := ⟨2, ![2, 800000]⟩
abbrev S50000 : Shape := ⟨1, ![50000]⟩
abbrev S32x64 : Shape := ⟨2, ![32, 64]⟩
abbrev S64 : Shape := ⟨1, ![64]⟩
abbrev S64x64 : Shape := ⟨2, ![64, 64]⟩
abbrev S129x64 : Shape := ⟨2, ![129, 64]⟩
abbrev S128x64 : Shape := ⟨2, ![128, 64]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S50000x32 : S_.BroadcastsInDim S50000x32 (![] : Fin 0 → Fin S50000x32.rank)
  reducesTo_S50000x32_S_d0_1 : S50000x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S129x64 : S_.BroadcastsInDim S129x64 (![] : Fin 0 → Fin S129x64.rank)
  reducesTo_S129x64_S_d0_1 : S129x64.ReducesTo [0, 1] S_
  bcast_S_S128x64 : S_.BroadcastsInDim S128x64 (![] : Fin 0 → Fin S128x64.rank)
  reducesTo_S128x64_S_d0_1 : S128x64.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_arg2 : IVec S2x800000 32) (main_v63 : IVec S_ 1) (main_v67 : IVec S_ 1) : IVec S_ 1 :=
  let main_v68 : IVec S_ 1 := andi main_v63 main_v67
  let main_c_26 : IVec S_ 32 := constantI S_ 32 4294917296#32
  let main_v69 : IVec S2x800000 32 := broadcastInDim S2x800000 ![] bcast_S_S2x800000 main_c_26
  let main_v70 : IVec S2x800000 1 := cmpi .sge main_arg2 main_v69
  let main_c_27 : IVec S_ 32 := constantI S_ 32 50000#32
  let main_v71 : IVec S2x800000 32 := broadcastInDim S2x800000 ![] bcast_S_S2x800000 main_c_27
  let main_v72 : IVec S2x800000 1 := cmpi .slt main_arg2 main_v71
  let main_v73 : IVec S2x800000 1 := andi main_v70 main_v72
  let main_c_28 : IVec S_ 1 := constantI S_ 1 1#1
  let main_v74 : IVec S_ 1 := (fun x v => Host.reduce IntOp.andi x v reducesTo_S2x800000_S_d0_1 h_S_) main_v73 main_c_28
  let main_v75 : IVec S_ 1 := andi main_v68 main_v74
  main_v75

def fn_part3 {F : FTy → Type} [FloatOps F] (main_arg2 : IVec S2x800000 32) (main_arg13 : FVec F S64 .f32) (main_arg14 : FVec F S128x64 .f32) (main_arg15 : FVec F S64 .f32) (main_v48 : IVec S_ 1) (main_v49 : FVec F S129x64 .f32) (main_v50 : FVec F S129x64 .f32) : IVec S_ 1 :=
  let main_v51 : IVec S129x64 1 := cmpf .olt main_v49 main_v50
  let main_c_19 : IVec S_ 1 := constantI S_ 1 1#1
  let main_v52 : IVec S_ 1 := (fun x v => Host.reduce IntOp.andi x v reducesTo_S129x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg2 main_v63 main_v67

def fn_part2 {F : FTy → Type} [FloatOps F] (main_arg2 : IVec S2x800000 32) (main_arg9 : FVec F S128x64 .f32) (main_arg10 : FVec F S64 .f32) (main_arg11 : FVec F S64x64 .f32) (main_arg12 : FVec F S129x64 .f32) (main_arg13 : FVec F S64 .f32) (main_arg14 : FVec F S128x64 .f32) (main_arg15 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S129x64 .f32 := Host.absf main_arg12
  let main_cst_18 : FVec F S_ .f32 := constant S_ .f32 0x7F800000#32
  let main_v50 : FVec F S129x64 .f32 := broadcastInDim S129x64 ![] bcast_S_S129x64 main_cst_18
  fn_part3 (F := F) main_arg2 main_arg13 main_arg14 main_arg15 main_v48 main_v49 main_v50

def fn_part1 {F : FTy → Type} [FloatOps F] (main_arg2 : IVec S2x800000 32) (main_arg6 : FVec F S64x64 .f32) (main_arg7 : FVec F S129x64 .f32) (main_arg8 : FVec F S64 .f32) (main_arg9 : FVec F S128x64 .f32) (main_arg10 : FVec F S64 .f32) (main_arg11 : FVec F S64x64 .f32) (main_arg12 : FVec F S129x64 .f32) (main_arg13 : FVec F S64 .f32) (main_arg14 : FVec F S128x64 .f32) (main_arg15 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S129x64 .f32 := Host.absf main_arg7
  let main_cst_8 : FVec F S_ .f32 := constant S_ .f32 0x7F800000#32
  let main_v25 : FVec F S129x64 .f32 := broadcastInDim S129x64 ![] bcast_S_S129x64 main_cst_8
  let main_v26 : IVec S129x64 1 := cmpf .olt main_v24 main_v25
  let main_c_9 : IVec S_ 1 := constantI S_ 1 1#1
  let main_v27 : IVec S_ 1 := (fun x v => Host.reduce IntOp.andi x v reducesTo_S129x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg2 main_arg9 main_arg10 main_arg11 main_arg12 main_arg13 main_arg14 main_arg15 main_v33

def fn {F : FTy → Type} [FloatOps F] (main_arg0 : FVec F S50000x3 .f32) (main_arg1 : FVec F S50000x32 .f32) (main_arg2 : IVec S2x800000 32) (main_arg3 : IVec S50000 32) (main_arg4 : FVec F S32x64 .f32) (main_arg5 : FVec F S64 .f32) (main_arg6 : FVec F S64x64 .f32) (main_arg7 : FVec F S129x64 .f32) (main_arg8 : FVec F S64 .f32) (main_arg9 : FVec F S128x64 .f32) (main_arg10 : FVec F S64 .f32) (main_arg11 : FVec F S64x64 .f32) (main_arg12 : FVec F S129x64 .f32) (main_arg13 : FVec F S64 .f32) (main_arg14 : FVec F S128x64 .f32) (main_arg15 : FVec F S64 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S50000x32 .f32 := Host.absf main_arg1
  let main_cst_0 : FVec F S_ .f32 := constant S_ .f32 0x7F800000#32
  let main_v5 : FVec F S50000x32 .f32 := broadcastInDim S50000x32 ![] bcast_S_S50000x32 main_cst_0
  let main_v6 : IVec S50000x32 1 := cmpf .olt main_v4 main_v5
  let main_c_1 : IVec S_ 1 := constantI S_ 1 1#1
  let main_v7 : IVec S_ 1 := (fun x v => Host.reduce IntOp.andi x v reducesTo_S50000x32_S_d0_1 h_S_) main_v6 main_c_1
  let main_v8 : IVec S_ 1 := andi main_v3 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg6 main_arg7 main_arg8 main_arg9 main_arg10 main_arg11 main_arg12 main_arg13 main_arg14 main_arg15 main_v13 main_v16
-- ==== Kernel.lean ====
abbrev S50000x3 : Shape := ⟨2, ![50000, 3]⟩
abbrev S50000x32 : Shape := ⟨2, ![50000, 32]⟩
abbrev S2x800000 : Shape := ⟨2, ![2, 800000]⟩
abbrev S50000 : Shape := ⟨1, ![50000]⟩
abbrev S32x64 : Shape := ⟨2, ![32, 64]⟩
abbrev S64 : Shape := ⟨1, ![64]⟩
abbrev S64x64 : Shape := ⟨2, ![64, 64]⟩
abbrev S129x64 : Shape := ⟨2, ![129, 64]⟩
abbrev S128x64 : Shape := ⟨2, ![128, 64]⟩
abbrev S1x800000 : Shape := ⟨2, ![1, 800000]⟩
abbrev S800000 : Shape := ⟨1, ![800000]⟩
abbrev S1x64 : Shape := ⟨2, ![1, 64]⟩
abbrev S50000x64 : Shape := ⟨2, ![50000, 64]⟩
abbrev S5000x32 : Shape := ⟨2, ![5000, 32]⟩
abbrev S5000x64 : Shape := ⟨2, ![5000, 64]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x3 : Shape := ⟨2, ![800000, 3]⟩
abbrev S800000x64 : Shape := ⟨2, ![800000, 64]⟩
abbrev S4000x64 : Shape := ⟨2, ![4000, 64]⟩
abbrev S4000x1 : Shape := ⟨2, ![4000, 1]⟩

abbrev nBuf : Space → Nat
  | .hbm => 242
  | .vmem => 50
  | .smem => 0
  | _ => 0

abbrev hbmTy0_0 (i : Nat) : BufTy := match i % 128 with
  | 0 => ⟨S50000x3, .f32⟩
  | 1 => ⟨S50000x32, .f32⟩
  | 2 => ⟨S2x800000, .i32⟩
  | 3 => ⟨S50000, .i32⟩
  | 4 => ⟨S32x64, .f32⟩
  | 5 => ⟨S64, .f32⟩
  | 6 => ⟨S64x64, .f32⟩
  | 7 => ⟨S129x64, .f32⟩
  | 8 => ⟨S64, .f32⟩
  | 9 => ⟨S128x64, .f32⟩
  | 10 => ⟨S64, .f32⟩
  | 11 => ⟨S64x64, .f32⟩
  | 12 => ⟨S129x64, .f32⟩
  | 13 => ⟨S64, .f32⟩
  | 14 => ⟨S128x64, .f32⟩
  | 15 => ⟨S64, .f32⟩
  | 16 => ⟨S1x800000, .i32⟩
  | 17 => ⟨S800000, .i32⟩
  | 18 => ⟨S1x800000, .i32⟩
  | 19 => ⟨S800000, .i32⟩
  | 20 => ⟨S1x64, .f32⟩
  | 21 => ⟨S50000x64, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S1, .i32⟩
  | 31 => ⟨S_, .i32⟩
  | 32 => ⟨S800000x1, .i32⟩
  | 33 => ⟨S800000x1, .i1⟩
  | 34 => ⟨S1x1, .i32⟩
  | 35 => ⟨S800000x1, .i32⟩
  | 36 => ⟨S800000x1, .i1⟩
  | 37 => ⟨S800000x1, .i1⟩
  | 38 => ⟨S_, .i1⟩
  | 39 => ⟨S800000, .i1⟩
  | 40 => ⟨S800000x3, .f32⟩
  | 41 => ⟨S800000x3, .i1⟩
  | 42 => ⟨S_, .f32⟩
  | 43 => ⟨S800000x3, .f32⟩
  | 44 => ⟨S800000x3, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S1, .i32⟩
  | 54 => ⟨S_, .i32⟩
  | 55 => ⟨S800000x1, .i32⟩
  | 56 => ⟨S800000x1, .i1⟩
  | 57 => ⟨S1x1, .i32⟩
  | 58 => ⟨S800000x1, .i32⟩
  | 59 => ⟨S800000x1, .i1⟩
  | 60 => ⟨S800000x1, .i1⟩
  | 61 => ⟨S_, .i1⟩
  | 62 => ⟨S800000, .i1⟩
  | 63 => ⟨S800000x3, .f32⟩
  | 64 => ⟨S800000x3, .i1⟩
  | 65 => ⟨S_, .f32⟩
  | 66 => ⟨S800000x3, .f32⟩
  | 67 => ⟨S800000x3, .f32⟩
  | 68 => ⟨S800000x3, .f32⟩
  | 69 => ⟨S800000x3, .f32⟩
  | 70 => ⟨S_, .f32⟩
  | 71 => ⟨S800000, .f32⟩
  | 72 => ⟨S800000x1, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S1, .i32⟩
  | 82 => ⟨S_, .i32⟩
  | 83 => ⟨S800000x1, .i32⟩
  | 84 => ⟨S800000x1, .i1⟩
  | 85 => ⟨S1x1, .i32⟩
  | 86 => ⟨S800000x1, .i32⟩
  | 87 => ⟨S800000x1, .i1⟩
  | 88 => ⟨S800000x1, .i1⟩
  | 89 => ⟨S_, .i1⟩
  | 90 => ⟨S800000, .i1⟩
  | 91 => ⟨S800000x64, .f32⟩
  | 92 => ⟨S800000x64, .i1⟩
  | 93 => ⟨S_, .f32⟩
  | 94 => ⟨S800000x64, .f32⟩
  | 95 => ⟨S800000x64, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S1, .i32⟩
  | 105 => ⟨S_, .i32⟩
  | 106 => ⟨S800000x1, .i32⟩
  | 107 => ⟨S800000x1, .i1⟩
  | 108 => ⟨S1x1, .i32⟩
  | 109 => ⟨S800000x1, .i32⟩
  | 110 => ⟨S800000x1, .i1⟩
  | 111 => ⟨S800000x1, .i1⟩
  | 112 => ⟨S_, .i1⟩
  | 113 => ⟨S800000, .i1⟩
  | 114 => ⟨S800000x64, .f32⟩
  | 115 => ⟨S800000x64, .i1⟩
  | 116 => ⟨S_, .f32⟩
  | 117 => ⟨S800000x64, .f32⟩
  | 118 => ⟨S800000x64, .f32⟩
  | 119 => ⟨S64x64, .f32⟩
  | 120 => ⟨S64x64, .f32⟩
  | 121 => ⟨S1x64, .f32⟩
  | 122 => ⟨S1x64, .f32⟩
  | 123 => ⟨S800000x64, .f32⟩
  | 124 => ⟨S_, .f32⟩
  | 125 => ⟨S50000x64, .f32⟩
  | 126 => ⟨S800000x1, .i32⟩
  | 127 => ⟨S50000x64, .f32⟩
  | _ => ⟨S50000x3, .f32⟩

abbrev hbmTy0_1 (i : Nat) : BufTy := match i % 128 with
  | 0 => ⟨S64x64, .f32⟩
  | 1 => ⟨S64x64, .f32⟩
  | 2 => ⟨S1x64, .f32⟩
  | 3 => ⟨S50000x64, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S1, .i32⟩
  | 13 => ⟨S_, .i32⟩
  | 14 => ⟨S800000x1, .i32⟩
  | 15 => ⟨S800000x1, .i1⟩
  | 16 => ⟨S1x1, .i32⟩
  | 17 => ⟨S800000x1, .i32⟩
  | 18 => ⟨S800000x1, .i1⟩
  | 19 => ⟨S800000x1, .i1⟩
  | 20 => ⟨S_, .i1⟩
  | 21 => ⟨S800000, .i1⟩
  | 22 => ⟨S800000x3, .f32⟩
  | 23 => ⟨S800000x3, .i1⟩
  | 24 => ⟨S_, .f32⟩
  | 25 => ⟨S800000x3, .f32⟩
  | 26 => ⟨S800000x3, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S1, .i32⟩
  | 36 => ⟨S_, .i32⟩
  | 37 => ⟨S800000x1, .i32⟩
  | 38 => ⟨S800000x1, .i1⟩
  | 39 => ⟨S1x1, .i32⟩
  | 40 => ⟨S800000x1, .i32⟩
  | 41 => ⟨S800000x1, .i1⟩
  | 42 => ⟨S800000x1, .i1⟩
  | 43 => ⟨S_, .i1⟩
  | 44 => ⟨S800000, .i1⟩
  | 45 => ⟨S800000x3, .f32⟩
  | 46 => ⟨S800000x3, .i1⟩
  | 47 => ⟨S_, .f32⟩
  | 48 => ⟨S800000x3, .f32⟩
  | 49 => ⟨S800000x3, .f32⟩
  | 50 => ⟨S800000x3, .f32⟩
  | 51 => ⟨S800000x3, .f32⟩
  | 52 => ⟨S_, .f32⟩
  | 53 => ⟨S800000, .f32⟩
  | 54 => ⟨S800000x1, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S1, .i32⟩
  | 64 => ⟨S_, .i32⟩
  | 65 => ⟨S800000x1, .i32⟩
  | 66 => ⟨S800000x1, .i1⟩
  | 67 => ⟨S1x1, .i32⟩
  | 68 => ⟨S800000x1, .i32⟩
  | 69 => ⟨S800000x1, .i1⟩
  | 70 => ⟨S800000x1, .i1⟩
  | 71 => ⟨S_, .i1⟩
  | 72 => ⟨S800000, .i1⟩
  | 73 => ⟨S800000x64, .f32⟩
  | 74 => ⟨S800000x64, .i1⟩
  | 75 => ⟨S_, .f32⟩
  | 76 => ⟨S800000x64, .f32⟩
  | 77 => ⟨S800000x64, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S1, .i32⟩
  | 87 => ⟨S_, .i32⟩
  | 88 => ⟨S800000x1, .i32⟩
  | 89 => ⟨S800000x1, .i1⟩
  | 90 => ⟨S1x1, .i32⟩
  | 91 => ⟨S800000x1, .i32⟩
  | 92 => ⟨S800000x1, .i1⟩
  | 93 => ⟨S800000x1, .i1⟩
  | 94 => ⟨S_, .i1⟩
  | 95 => ⟨S800000, .i1⟩
  | 96 => ⟨S800000x64, .f32⟩
  | 97 => ⟨S800000x64, .i1⟩
  | 98 => ⟨S_, .f32⟩
  | 99 => ⟨S800000x64, .f32⟩
  | 100 => ⟨S800000x64, .f32⟩
  | 101 => ⟨S64x64, .f32⟩
  | 102 => ⟨S64x64, .f32⟩
  | 103 => ⟨S1x64, .f32⟩
  | 104 => ⟨S1x64, .f32⟩
  | 105 => ⟨S800000x64, .f32⟩
  | 106 => ⟨S_, .f32⟩
  | 107 => ⟨S50000x64, .f32⟩
  | 108 => ⟨S800000x1, .i32⟩
  | 109 => ⟨S50000x64, .f32⟩
  | 110 => ⟨S64x64, .f32⟩
  | 111 => ⟨S64x64, .f32⟩
  | 112 => ⟨S1x64, .f32⟩
  | 113 => ⟨S50000x64, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x1, .f32⟩
  | .local _ .vmem, ⟨11, _⟩ => ⟨S4000x1, .f32⟩
  | .local _ .vmem, ⟨12, _⟩ => ⟨S64x64, .f32⟩
  | .local _ .vmem, ⟨13, _⟩ => ⟨S64x64, .f32⟩
  | .local _ .vmem, ⟨14, _⟩ => ⟨S1x64, .f32⟩
  | .local _ .vmem, ⟨15, _⟩ => ⟨S1x64, .f32⟩
  | .local _ .vmem, ⟨16, _⟩ => ⟨S4000x64, .f32⟩
  | .local _ .vmem, ⟨17, _⟩ => ⟨S4000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S64x64, .f32⟩
  | .local _ .vmem, ⟨24, _⟩ => ⟨S64x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S4000x64, .f32⟩
  | .local _ .vmem, ⟨29, _⟩ => ⟨S4000x64, .f32⟩
  | .local _ .vmem, ⟨30, _⟩ => ⟨S4000x64, .f32⟩
  | .local _ .vmem, ⟨31, _⟩ => ⟨S4000x64, .f32⟩
  | .local _ .vmem, ⟨32, _⟩ => ⟨S4000x1, .f32⟩
  | .local _ .vmem, ⟨33, _⟩ => ⟨S4000x1, .f32⟩
  | .local _ .vmem, ⟨34, _⟩ => ⟨S64x64, .f32⟩
  | .local _ .vmem, ⟨35, _⟩ => ⟨S64x64, .f32⟩
  | .local _ .vmem, ⟨36, _⟩ => ⟨S1x64, .f32⟩
  | .local _ .vmem, ⟨37, _⟩ => ⟨S1x64, .f32⟩
  | .local _ .vmem, ⟨38, _⟩ => ⟨S4000x64, .f32⟩
  | .local _ .vmem, ⟨39, _⟩ => ⟨S4000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64x64, .f32⟩
  | .local _ .vmem, ⟨45, _⟩ => ⟨S64x64, .f32⟩
  | .local _ .vmem, ⟨46, _⟩ => ⟨S64x64, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v6 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_cst : Ref sig .tc := ⟨.hbm, 70, rfl⟩
abbrev main_v10 : Ref sig .tc := ⟨.hbm, 71, rfl⟩
abbrev main_v11 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_call2_cst : Ref sig .tc := ⟨.hbm, 93, rfl⟩
abbrev main_call2_v15 : Ref sig .tc := ⟨.hbm, 94, rfl⟩
abbrev main_v12 : Ref sig .tc := ⟨.hbm, 95, rfl⟩
abbrev main_call3_c : Ref sig .tc := ⟨.hbm, 96, rfl⟩
abbrev main_call3_v0 : Ref sig .tc := ⟨.hbm, 97, rfl⟩
abbrev main_call3_v1 : Ref sig .tc := ⟨.hbm, 98, rfl⟩
abbrev main_call3_c_0 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_c_1 : Ref sig .tc := ⟨.hbm, 104, rfl⟩
abbrev main_call3_c_2 : Ref sig .tc := ⟨.hbm, 105, rfl⟩
abbrev main_call3_v6 : Ref sig .tc := ⟨.hbm, 106, rfl⟩
abbrev main_call3_v7 : Ref sig .tc := ⟨.hbm, 107, rfl⟩
abbrev main_call3_v8 : Ref sig .tc := ⟨.hbm, 108, rfl⟩
abbrev main_call3_v9 : Ref sig .tc := ⟨.hbm, 109, rfl⟩
abbrev main_call3_v10 : Ref sig .tc := ⟨.hbm, 110, rfl⟩
abbrev main_call3_v11 : Ref sig .tc := ⟨.hbm, 111, rfl⟩
abbrev main_call3_c_3 : Ref sig .tc := ⟨.hbm, 112, rfl⟩
abbrev main_call3_v12 : Ref sig .tc := ⟨.hbm, 113, rfl⟩
abbrev main_call3_v13 : Ref sig .tc := ⟨.hbm, 114, rfl⟩
abbrev main_call3_v14 : Ref sig .tc := ⟨.hbm, 115, rfl⟩
abbrev main_call3_cst : Ref sig .tc := ⟨.hbm, 116, rfl⟩
abbrev main_call3_v15 : Ref sig .tc := ⟨.hbm, 117, rfl⟩
abbrev main_v13 : Ref sig .tc := ⟨.hbm, 118, rfl⟩
abbrev main_v14 : Ref sig .tc := ⟨.hbm, 119, rfl⟩
abbrev main_v15 : Ref sig .tc := ⟨.hbm, 120, rfl⟩
abbrev main_v16 : Ref sig .tc := ⟨.hbm, 121, rfl⟩
abbrev main_v17 : Ref sig .tc := ⟨.hbm, 122, rfl⟩
abbrev main_v18 : Ref sig .tc := ⟨.hbm, 123, rfl⟩
abbrev main_cst_0 : Ref sig .tc := ⟨.hbm, 124, rfl⟩
abbrev main_v19 : Ref sig .tc := ⟨.hbm, 125, rfl⟩
abbrev main_v20 : Ref sig .tc := ⟨.hbm, 126, rfl⟩
abbrev main_v21 : Ref sig .tc := ⟨.hbm, 127, rfl⟩
abbrev main_v22 : Ref sig .tc := ⟨.hbm, 128, rfl⟩
abbrev main_v23 : Ref sig .tc := ⟨.hbm, 129, rfl⟩
abbrev main_v24 : Ref sig .tc := ⟨.hbm, 130, rfl⟩
abbrev main_v25 : Ref sig .tc := ⟨.hbm, 131, rfl⟩
abbrev main_call4_c : Ref sig .tc := ⟨.hbm, 132, rfl⟩
abbrev main_call4_v0 : Ref sig .tc := ⟨.hbm, 133, rfl⟩
abbrev main_call4_v1 : Ref sig .tc := ⟨.hbm, 134, rfl⟩
abbrev main_call4_c_0 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_call4_v5 : Ref sig .tc := ⟨.hbm, 139, rfl⟩
abbrev main_call4_c_1 : Ref sig .tc := ⟨.hbm, 140, rfl⟩
abbrev main_call4_c_2 : Ref sig .tc := ⟨.hbm, 141, rfl⟩
abbrev main_call4_v6 : Ref sig .tc := ⟨.hbm, 142, rfl⟩
abbrev main_call4_v7 : Ref sig .tc := ⟨.hbm, 143, rfl⟩
abbrev main_call4_v8 : Ref sig .tc := ⟨.hbm, 144, rfl⟩
abbrev main_call4_v9 : Ref sig .tc := ⟨.hbm, 145, rfl⟩
abbrev main_call4_v10 : Ref sig .tc := ⟨.hbm, 146, rfl⟩
abbrev main_call4_v11 : Ref sig .tc := ⟨.hbm, 147, rfl⟩
abbrev main_call4_c_3 : Ref sig .tc := ⟨.hbm, 148, rfl⟩
abbrev main_call4_v12 : Ref sig .tc := ⟨.hbm, 149, rfl⟩
abbrev main_call4_v13 : Ref sig .tc := ⟨.hbm, 150, rfl⟩
abbrev main_call4_v14 : Ref sig .tc := ⟨.hbm, 151, rfl⟩
abbrev main_call4_cst : Ref sig .tc := ⟨.hbm, 152, rfl⟩
abbrev main_call4_v15 : Ref sig .tc := ⟨.hbm, 153, rfl⟩
abbrev main_v26 : Ref sig .tc := ⟨.hbm, 154, rfl⟩
abbrev main_call5_c : Ref sig .tc := ⟨.hbm, 155, rfl⟩
abbrev main_call5_v0 : Ref sig .tc := ⟨.hbm, 156, rfl⟩
abbrev main_call5_v1 : Ref sig .tc := ⟨.hbm, 157, rfl⟩
abbrev main_call5_c_0 : Ref sig .tc := ⟨.hbm, 158, rfl⟩
abbrev main_call5_v2 : Ref sig .tc := ⟨.hbm, 159, rfl⟩
abbrev main_call5_v3 : Ref sig .tc := ⟨.hbm, 160, rfl⟩
abbrev main_call5_v4 : Ref sig .tc := ⟨.hbm, 161, rfl⟩
abbrev main_call5_v5 : Ref sig .tc := ⟨.hbm, 162, rfl⟩
abbrev main_call5_c_1 : Ref sig .tc := ⟨.hbm, 163, rfl⟩
abbrev main_call5_c_2 : Ref sig .tc := ⟨.hbm, 164, rfl⟩
abbrev main_call5_v6 : Ref sig .tc := ⟨.hbm, 165, rfl⟩
abbrev main_call5_v7 : Ref sig .tc := ⟨.hbm, 166, rfl⟩
abbrev main_call5_v8 : Ref sig .tc := ⟨.hbm, 167, rfl⟩
abbrev main_call5_v9 : Ref sig .tc := ⟨.hbm, 168, rfl⟩
abbrev main_call5_v10 : Ref sig .tc := ⟨.hbm, 169, rfl⟩
abbrev main_call5_v11 : Ref sig .tc := ⟨.hbm, 170, rfl⟩
abbrev main_call5_c_3 : Ref sig .tc := ⟨.hbm, 171, rfl⟩
abbrev main_call5_v12 : Ref sig .tc := ⟨.hbm, 172, rfl⟩
abbrev main_call5_v13 : Ref sig .tc := ⟨.hbm, 173, rfl⟩
abbrev main_call5_v14 : Ref sig .tc := ⟨.hbm, 174, rfl⟩
abbrev main_call5_cst : Ref sig .tc := ⟨.hbm, 175, rfl⟩
abbrev main_call5_v15 : Ref sig .tc := ⟨.hbm, 176, rfl⟩
abbrev main_v27 : Ref sig .tc := ⟨.hbm, 177, rfl⟩
abbrev main_v28 : Ref sig .tc := ⟨.hbm, 178, rfl⟩
abbrev main_v29 : Ref sig .tc := ⟨.hbm, 179, rfl⟩
abbrev main_cst_1 : Ref sig .tc := ⟨.hbm, 180, rfl⟩
abbrev main_v30 : Ref sig .tc := ⟨.hbm, 181, rfl⟩
abbrev main_v31 : Ref sig .tc := ⟨.hbm, 182, rfl⟩
abbrev main_call6_c : Ref sig .tc := ⟨.hbm, 183, rfl⟩
abbrev main_call6_v0 : Ref sig .tc := ⟨.hbm, 184, rfl⟩
abbrev main_call6_v1 : Ref sig .tc := ⟨.hbm, 185, rfl⟩
abbrev main_call6_c_0 : Ref sig .tc := ⟨.hbm, 186, rfl⟩
abbrev main_call6_v2 : Ref sig .tc := ⟨.hbm, 187, rfl⟩
abbrev main_call6_v3 : Ref sig .tc := ⟨.hbm, 188, rfl⟩
abbrev main_call6_v4 : Ref sig .tc := ⟨.hbm, 189, rfl⟩
abbrev main_call6_v5 : Ref sig .tc := ⟨.hbm, 190, rfl⟩
abbrev main_call6_c_1 : Ref sig .tc := ⟨.hbm, 191, rfl⟩
abbrev main_call6_c_2 : Ref sig .tc := ⟨.hbm, 192, rfl⟩
abbrev main_call6_v6 : Ref sig .tc := ⟨.hbm, 193, rfl⟩
abbrev main_call6_v7 : Ref sig .tc := ⟨.hbm, 194, rfl⟩
abbrev main_call6_v8 : Ref sig .tc := ⟨.hbm, 195, rfl⟩
abbrev main_call6_v9 : Ref sig .tc := ⟨.hbm, 196, rfl⟩
abbrev main_call6_v10 : Ref sig .tc := ⟨.hbm, 197, rfl⟩
abbrev main_call6_v11 : Ref sig .tc := ⟨.hbm, 198, rfl⟩
abbrev main_call6_c_3 : Ref sig .tc := ⟨.hbm, 199, rfl⟩
abbrev main_call6_v12 : Ref sig .tc := ⟨.hbm, 200, rfl⟩
abbrev main_call6_v13 : Ref sig .tc := ⟨.hbm, 201, rfl⟩
abbrev main_call6_v14 : Ref sig .tc := ⟨.hbm, 202, rfl⟩
abbrev main_call6_cst : Ref sig .tc := ⟨.hbm, 203, rfl⟩
abbrev main_call6_v15 : Ref sig .tc := ⟨.hbm, 204, rfl⟩
abbrev main_v32 : Ref sig .tc := ⟨.hbm, 205, rfl⟩
abbrev main_call7_c : Ref sig .tc := ⟨.hbm, 206, rfl⟩
abbrev main_call7_v0 : Ref sig .tc := ⟨.hbm, 207, rfl⟩
abbrev main_call7_v1 : Ref sig .tc := ⟨.hbm, 208, rfl⟩
abbrev main_call7_c_0 : Ref sig .tc := ⟨.hbm, 209, rfl⟩
abbrev main_call7_v2 : Ref sig .tc := ⟨.hbm, 210, rfl⟩
abbrev main_call7_v3 : Ref sig .tc := ⟨.hbm, 211, rfl⟩
abbrev main_call7_v4 : Ref sig .tc := ⟨.hbm, 212, rfl⟩
abbrev main_call7_v5 : Ref sig .tc := ⟨.hbm, 213, rfl⟩
abbrev main_call7_c_1 : Ref sig .tc := ⟨.hbm, 214, rfl⟩
abbrev main_call7_c_2 : Ref sig .tc := ⟨.hbm, 215, rfl⟩
abbrev main_call7_v6 : Ref sig .tc := ⟨.hbm, 216, rfl⟩
abbrev main_call7_v7 : Ref sig .tc := ⟨.hbm, 217, rfl⟩
abbrev main_call7_v8 : Ref sig .tc := ⟨.hbm, 218, rfl⟩
abbrev main_call7_v9 : Ref sig .tc := ⟨.hbm, 219, rfl⟩
abbrev main_call7_v10 : Ref sig .tc := ⟨.hbm, 220, rfl⟩
abbrev main_call7_v11 : Ref sig .tc := ⟨.hbm, 221, rfl⟩
abbrev main_call7_c_3 : Ref sig .tc := ⟨.hbm, 222, rfl⟩
abbrev main_call7_v12 : Ref sig .tc := ⟨.hbm, 223, rfl⟩
abbrev main_call7_v13 : Ref sig .tc := ⟨.hbm, 224, rfl⟩
abbrev main_call7_v14 : Ref sig .tc := ⟨.hbm, 225, rfl⟩
abbrev main_call7_cst : Ref sig .tc := ⟨.hbm, 226, rfl⟩
abbrev main_call7_v15 : Ref sig .tc := ⟨.hbm, 227, rfl⟩
abbrev main_v33 : Ref sig .tc := ⟨.hbm, 228, rfl⟩
abbrev main_v34 : Ref sig .tc := ⟨.hbm, 229, rfl⟩
abbrev main_v35 : Ref sig .tc := ⟨.hbm, 230, rfl⟩
abbrev main_v36 : Ref sig .tc := ⟨.hbm, 231, rfl⟩
abbrev main_v37 : Ref sig .tc := ⟨.hbm, 232, rfl⟩
abbrev main_v38 : Ref sig .tc := ⟨.hbm, 233, rfl⟩
abbrev main_cst_2 : Ref sig .tc := ⟨.hbm, 234, rfl⟩
abbrev main_v39 : Ref sig .tc := ⟨.hbm, 235, rfl⟩
abbrev main_v40 : Ref sig .tc := ⟨.hbm, 236, rfl⟩
abbrev main_v41 : Ref sig .tc := ⟨.hbm, 237, rfl⟩
abbrev main_v42 : Ref sig .tc := ⟨.hbm, 238, rfl⟩
abbrev main_v43 : Ref sig .tc := ⟨.hbm, 239, rfl⟩
abbrev main_v44 : Ref sig .tc := ⟨.hbm, 240, rfl⟩
abbrev main_v45 : Ref sig .tc := ⟨.hbm, 241, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x3_0 : S800000.BroadcastsInDim S800000x3 (![0] : Fin 1 → Fin S800000x3.rank)
  bcast_S_S800000x3 : S_.BroadcastsInDim S800000x3 (![] : Fin 0 → Fin S800000x3.rank)
  reducesTo_S800000x3_S800000_d1 : S800000x3.ReducesTo [1] S800000
  bcast_S800000_S800000x64_0 : S800000.BroadcastsInDim S800000x64 (![0] : Fin 1 → Fin S800000x64.rank)
  bcast_S_S800000x64 : S_.BroadcastsInDim S800000x64 (![] : Fin 0 → Fin S800000x64.rank)
  slices_S129x64_S64x64_0_0 : S129x64.Slices ![0, 0] S64x64
  slices_S129x64_S64x64_64_0 : S129x64.Slices ![64, 0] S64x64
  slices_S129x64_S1x64_128_0 : S129x64.Slices ![128, 0] S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  broadcasts_S1x64_S4000x64 : S1x64.Broadcasts S4000x64
  bcast_S_S50000x64 : S_.BroadcastsInDim S50000x64 (![] : Fin 0 → Fin S50000x64.rank)
  slices_S128x64_S64x64_0_0 : S128x64.Slices ![0, 0] S64x64
  slices_S128x64_S64x64_64_0 : S128x64.Slices ![64, 0] S64x64
  shapeCasts_S5000x64_S5000x64 : S5000x64.ShapeCasts S5000x64
  dot_S5000x32_S32x64_S5000x64_1_0_0_1_n_n_wf : DotDims.WF S5000x32 S32x64 S5000x64 [1] [0] [0] [1] [] []
  gather_S50000x3_S800000x1_S800000x3_1_0_n_n_0_1_13_wf : GatherDims.WF S50000x3 S800000x1 S800000x3 [1] [0] [] [0] [] 1 ![1, 3]
  gather_S50000x64_S800000x1_S800000x64_1_0_n_n_0_1_164_wf : GatherDims.WF S50000x64 S800000x1 S800000x64 [1] [0] [] [0] [] 1 ![1, 64]
  dot_S4000x64_S64x64_S4000x64_1_0_0_1_n_n_wf : DotDims.WF S4000x64 S64x64 S4000x64 [1] [0] [0] [1] [] []
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S50000x32.size a
  hwx0_0 : ∀ i : grid0.Coords, EltTy.bits .f32 = 32 ∨ (Rect.block (s := S50000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S800000x64.size a
  hwx1_0 : ∀ i : grid1.Coords, EltTy.bits .f32 = 32 ∨ (Rect.block (s := S800000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S800000x64.size a
  hwx1_1 : ∀ i : grid1.Coords, EltTy.bits .f32 = 32 ∨ (Rect.block (s := S800000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S800000x1.size a
  hwx1_2 : ∀ i : grid1.Coords, EltTy.bits .f32 = 32 ∨ (Rect.block (s := S800000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x64.size a ≤ S800000x64.size a
  hwx1_7 : ∀ i : grid1.Coords, EltTy.bits .f32 = 32 ∨ (Rect.block (s := S800000x64) S4000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S800000x64.size a
  hwx3_0 : ∀ i : grid3.Coords, EltTy.bits .f32 = 32 ∨ (Rect.block (s := S800000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S800000x64.size a
  hwx3_1 : ∀ i : grid3.Coords, EltTy.bits .f32 = 32 ∨ (Rect.block (s := S800000x64) S4000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S800000x1.size a
  hwx3_2 : ∀ i : grid3.Coords, EltTy.bits .f32 = 32 ∨ (Rect.block (s := S800000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x64.size a ≤ S800000x64.size a
  hwx3_7 : ∀ i : grid3.Coords, EltTy.bits .f32 = 32 ∨ (Rect.block (s := S800000x64) S4000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S50000x64.size a
  hwx4_6 : ∀ i : grid4.Coords, EltTy.bits .f32 = 32 ∨ (Rect.block (s := S50000x64) S5000x64.size (cc4_transform_6 i) (hinb4_6 i)).WholeWords (EltTy.packing .f32)

variable [Facts₀]

def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg1) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S4000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v5) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v23) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v24) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v25) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v32) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v34) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v35) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v36) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v37) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v38) S4000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v25) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v42) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v43) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v44) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v45) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x3 : Shape := ⟨2, ![50000, 3]⟩
abbrev S50000x32 : Shape := ⟨2, ![50000, 32]⟩
abbrev S2x800000 : Shape := ⟨2, ![2, 800000]⟩
abbrev S50000 : Shape := ⟨1, ![50000]⟩
abbrev S32x64 : Shape := ⟨2, ![32, 64]⟩
abbrev S64 : Shape := ⟨1, ![64]⟩
abbrev S64x64 : Shape := ⟨2, ![64, 64]⟩
abbrev S129x64 : Shape := ⟨2, ![129, 64]⟩
abbrev S128x64 : Shape := ⟨2, ![128, 64]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S800000x1 : Shape := ⟨2, ![800000, 1]⟩
abbrev S800000x3 : Shape := ⟨2, ![800000, 3]⟩
abbrev S800000x64 : Shape := ⟨2, ![800000, 64]⟩
abbrev S800000x129 : Shape := ⟨2, ![800000, 129]⟩
abbrev S50000x128 : Shape := ⟨2, ![50000, 128]⟩

abbrev nBuf : Space → Nat
  | .hbm => 150
  | .vmem => 0
  | .smem => 0
  | _ => 0

abbrev hbmTy0_0 (i : Nat) : BufTy := match i % 128 with
  | 0 => ⟨S50000x3, .f32⟩
  | 1 => ⟨S50000x32, .f32⟩
  | 2 => ⟨S2x800000, .i32⟩
  | 3 => ⟨S50000, .i32⟩
  | 4 => ⟨S32x64, .f32⟩
  | 5 => ⟨S64, .f32⟩
  | 6 => ⟨S64x64, .f32⟩
  | 7 => ⟨S129x64, .f32⟩
  | 8 => ⟨S64, .f32⟩
  | 9 => ⟨S128x64, .f32⟩
  | 10 => ⟨S64, .f32⟩
  | 11 => ⟨S64x64, .f32⟩
  | 12 => ⟨S129x64, .f32⟩
  | 13 => ⟨S64, .f32⟩
  | 14 => ⟨S128x64, .f32⟩
  | 15 => ⟨S64, .f32⟩
  | 16 => ⟨S1x800000, .i32⟩
  | 17 => ⟨S800000, .i32⟩
  | 18 => ⟨S1x800000, .i32⟩
  | 19 => ⟨S800000, .i32⟩
  | 20 => ⟨S50000x64, .f32⟩
  | 21 => ⟨S1x64, .f32⟩
  | 22 => ⟨S50000x64, .f32⟩
  | 23 => ⟨S50000x64, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x3, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x3, .f32⟩
  | 42 => ⟨S800000x3, .f32⟩
  | 43 => ⟨S800000x3, .f32⟩
  | 44 => ⟨S_, .f32⟩
  | 45 => ⟨S800000, .f32⟩
  | 46 => ⟨S800000x1, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x64, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x64, .f32⟩
  | 65 => ⟨S800000x129, .f32⟩
  | 66 => ⟨S800000x64, .f32⟩
  | 67 => ⟨S1x64, .f32⟩
  | 68 => ⟨S800000x64, .f32⟩
  | 69 => ⟨S800000x64, .f32⟩
  | 70 => ⟨S_, .f32⟩
  | 71 => ⟨S800000x64, .f32⟩
  | 72 => ⟨S800000x64, .f32⟩
  | 73 => ⟨S_, .f32⟩
  | 74 => ⟨S50000x64, .f32⟩
  | 75 => ⟨S800000x1, .i32⟩
  | 76 => ⟨S50000x64, .f32⟩
  | 77 => ⟨S50000x128, .f32⟩
  | 78 => ⟨S50000x64, .f32⟩
  | 79 => ⟨S50000x64, .f32⟩
  | 80 => ⟨S1x64, .f32⟩
  | 81 => ⟨S50000x64, .f32⟩
  | 82 => ⟨S50000x64, .f32⟩
  | 83 => ⟨S_, .f32⟩
  | 84 => ⟨S50000x64, .f32⟩
  | 85 => ⟨S50000x64, .f32⟩
  | 86 => ⟨S50000x64, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x3, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x3, .f32⟩
  | 105 => ⟨S800000x3, .f32⟩
  | 106 => ⟨S800000x3, .f32⟩
  | 107 => ⟨S_, .f32⟩
  | 108 => ⟨S800000, .f32⟩
  | 109 => ⟨S800000x1, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x64, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x64, .f32⟩
  | _ => ⟨S50000x3, .f32⟩

abbrev hbmTy0_1 (i : Nat) : BufTy := match i % 128 with
  | 0 => ⟨S800000x129, .f32⟩
  | 1 => ⟨S800000x64, .f32⟩
  | 2 => ⟨S1x64, .f32⟩
  | 3 => ⟨S800000x64, .f32⟩
  | 4 => ⟨S800000x64, .f32⟩
  | 5 => ⟨S_, .f32⟩
  | 6 => ⟨S800000x64, .f32⟩
  | 7 => ⟨S800000x64, .f32⟩
  | 8 => ⟨S_, .f32⟩
  | 9 => ⟨S50000x64, .f32⟩
  | 10 => ⟨S800000x1, .i32⟩
  | 11 => ⟨S50000x64, .f32⟩
  | 12 => ⟨S50000x128, .f32⟩
  | 13 => ⟨S50000x64, .f32⟩
  | 14 => ⟨S50000x64, .f32⟩
  | 15 => ⟨S1x64, .f32⟩
  | 16 => ⟨S50000x64, .f32⟩
  | 17 => ⟨S50000x64, .f32⟩
  | 18 => ⟨S_, .f32⟩
  | 19 => ⟨S50000x64, .f32⟩
  | 20 => ⟨S50000x64, .f32⟩
  | 21 => ⟨S50000x64, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_1 : Ref sig .tc := ⟨.hbm, 33, rfl⟩
abbrev main_v15 : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst : Ref sig .tc := ⟨.hbm, 44, rfl⟩
abbrev main_v24 : Ref sig .tc := ⟨.hbm, 45, rfl⟩
abbrev main_v25 : Ref sig .tc := ⟨.hbm, 46, rfl⟩
abbrev main_c_3 : Ref sig .tc := ⟨.hbm, 47, rfl⟩
abbrev main_v26 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_5 : Ref sig .tc := ⟨.hbm, 56, rfl⟩
abbrev main_v33 : Ref sig .tc := ⟨.hbm, 57, rfl⟩
abbrev main_v34 : Ref sig .tc := ⟨.hbm, 58, rfl⟩
abbrev main_c_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call0_cst : Ref sig .tc := ⟨.hbm, 70, rfl⟩
abbrev main_call0_v0 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call1_cst : Ref sig .tc := ⟨.hbm, 83, rfl⟩
abbrev main_call1_v0 : Ref sig .tc := ⟨.hbm, 84, rfl⟩
abbrev main_v55 : Ref sig .tc := ⟨.hbm, 85, rfl⟩
abbrev main_v56 : Ref sig .tc := ⟨.hbm, 86, rfl⟩
abbrev main_c_8 : Ref sig .tc := ⟨.hbm, 87, rfl⟩
abbrev main_v57 : Ref sig .tc := ⟨.hbm, 88, rfl⟩
abbrev main_v58 : Ref sig .tc := ⟨.hbm, 89, rfl⟩
abbrev main_c_9 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_10 : Ref sig .tc := ⟨.hbm, 96, rfl⟩
abbrev main_v64 : Ref sig .tc := ⟨.hbm, 97, rfl⟩
abbrev main_v65 : Ref sig .tc := ⟨.hbm, 98, rfl⟩
abbrev main_c_11 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_12 : Ref sig .tc := ⟨.hbm, 107, rfl⟩
abbrev main_v73 : Ref sig .tc := ⟨.hbm, 108, rfl⟩
abbrev main_v74 : Ref sig .tc := ⟨.hbm, 109, rfl⟩
abbrev main_c_13 : Ref sig .tc := ⟨.hbm, 110, rfl⟩
abbrev main_v75 : Ref sig .tc := ⟨.hbm, 111, rfl⟩
abbrev main_v76 : Ref sig .tc := ⟨.hbm, 112, rfl⟩
abbrev main_c_14 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_15 : Ref sig .tc := ⟨.hbm, 119, rfl⟩
abbrev main_v82 : Ref sig .tc := ⟨.hbm, 120, rfl⟩
abbrev main_v83 : Ref sig .tc := ⟨.hbm, 121, rfl⟩
abbrev main_c_16 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_call2_cst : Ref sig .tc := ⟨.hbm, 133, rfl⟩
abbrev main_call2_v0 : Ref sig .tc := ⟨.hbm, 134, rfl⟩
abbrev main_v94 : Ref sig .tc := ⟨.hbm, 135, rfl⟩
abbrev main_cst_17 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_call3_cst : Ref sig .tc := ⟨.hbm, 146, rfl⟩
abbrev main_call3_v0 : Ref sig .tc := ⟨.hbm, 147, rfl⟩
abbrev main_v104 : Ref sig .tc := ⟨.hbm, 148, rfl⟩
abbrev main_v105 : Ref sig .tc := ⟨.hbm, 149, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x64_S800000x64_S800000x1_S800000x129_d1 : Shape.Concatenates [S800000x64, S800000x64, S800000x1] S800000x129 1
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  dot_S50000x32_S32x64_S50000x64_1_0_0_1_n_n_wf : DotDims.WF S50000x32 S32x64 S50000x64 [1] [0] [0] [1] [] []
  gather_S50000x3_S800000x1_S800000x3_1_0_n_n_0_1_13_wf : GatherDims.WF S50000x3 S800000x1 S800000x3 [1] [0] [] [0] [] 1 ![1, 3]
  gather_S50000x64_S800000x1_S800000x64_1_0_n_n_0_1_164_wf : GatherDims.WF S50000x64 S800000x1 S800000x64 [1] [0] [] [0] [] 1 ![1, 64]
  dot_S800000x129_S129x64_S800000x64_1_0_0_1_n_n_wf : DotDims.WF S800000x129 S129x64 S800000x64 [1] [0] [0] [1] [] []
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x128_S128x64_S50000x64_1_0_0_1_n_n_wf : DotDims.WF S50000x128 S128x64 S50000x64 [1] [0] [0] [1] [] []

variable [Facts₀]

def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x129_S129x64_S800000x64_1_0_0_1_n_n : DotDims S800000x129 S129x64 S800000x64 where
  lhsContracting := [1]
  rhsContracting := [0]
  lhsNonContracting := [0]
  rhsNonContracting := [1]
  lhsBatch := []
  rhsBatch := []
  wf := dot_S800000x129_S129x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The graph network as pure functions of its arrays, over the extended reals.

  A node embedding is a row of 64 numbers. The network is an affine map of the node features followed by
  two message-passing layers. In a layer every edge (r, c) carries the message
      relu (e[r] · W_s + e[c] · W_d + |x[r] - x[c]|² · w_t + b)
  where W_s, W_d, w_t are rows 0–63, 64–127 and 128 of one 129-row weight matrix; the messages are summed
  into their target nodes, and a node's new embedding is
      e · R + relu (e · U_s + a · U_a + b')
  with a its summed messages and U_s, U_a rows 0–63 and 64–127 of one 128-row matrix.

  The three dense maps are stated for any number of rows, so that the same definition reads a block of
  rows and the whole array. The row selections, the squared distance and the scatter-sum enter as
  parameters: both programs apply the same host operations there.
-/
import Idealize.ShloMosaic.PureOps.Ideal
import Idealize.ShloMosaic.Lib.ValueIdx
import Mathlib.Algebra.BigOperators.Fin

noncomputable section

open scoped BigOperators

namespace Cert.Net

open Idealize.ShloMosaic Idealize.ShloMosaic.ValueIdx

/-- An n × m array of extended reals. -/
abbrev Mat (n m : Nat) : Type := FVec Ideal (⟨2, ![n, m]⟩ : Shape) .f32
/-- A vector of n extended reals. -/
abbrev Row (n : Nat) : Type := FVec Ideal (⟨1, ![n]⟩ : Shape) .f32
/-- A vector of n 32-bit indices. -/
abbrev Ids (n : Nat) : Type := IVec (⟨1, ![n]⟩ : Shape) 32

/-- h · W + b, row by row. -/
def initEmbed {n : Nat} (h : Mat n 32) (w : Mat 32 64) (b : Mat 1 64) : Mat n 64 := fun i =>
  let r : Fin n := i 0
  let c : Fin 64 := i 1
  (∑ k : Fin 32, h (ix2 r k) * w (ix2 k c)) + b (ix2 (0 : Fin 1) c)

/-- relu (hi · W_s + hj · W_d + dist · w_t + b), row by row. -/
def message {n : Nat} (hi hj : Mat n 64) (dist : Mat n 1) (ws wd : Mat 64 64) (wt mb : Mat 1 64) : Mat n 64 := fun i =>
  let r : Fin n := i 0
  let c : Fin 64 := i 1
  max (((∑ k : Fin 64, hi (ix2 r k) * ws (ix2 k c)) + (∑ k : Fin 64, hj (ix2 r k) * wd (ix2 k c))
        + dist (ix2 r (0 : Fin 1)) * wt (ix2 (0 : Fin 1) c)) + mb (ix2 (0 : Fin 1) c)) 0

/-- e · R + relu (e · U_s + a · U_a + b), row by row. -/
def update {n : Nat} (e a : Mat n 64) (rp us ua : Mat 64 64) (ub : Mat 1 64) : Mat n 64 := fun i =>
  let r : Fin n := i 0
  let c : Fin 64 := i 1
  (∑ k : Fin 64, e (ix2 r k) * rp (ix2 k c))
    + max (((∑ k : Fin 64, e (ix2 r k) * us (ix2 k c)) + (∑ k : Fin 64, a (ix2 r k) * ua (ix2 k c))) + ub (ix2 (0 : Fin 1) c)) 0

/-- Rows off, …, off + k - 1 of a matrix. -/
def rowsFrom {N m : Nat} (k off : Nat) (hk : off + k ≤ N) (a : Mat N m) : Mat k m := fun i =>
  a (ix2 (⟨off + (i 0).val, Nat.lt_of_lt_of_le (Nat.add_lt_add_left (i 0).isLt off) hk⟩ : Fin N) (i 1 : Fin m))

/-- A vector as a one-row matrix. -/
def asRow {m : Nat} (v : Row m) : Mat 1 m := fun i => v (ix1 (i 1 : Fin m))

/-- The host operations both programs share: selecting rows of an array by an index vector, the squared
    distance of two selections, and the scatter-sum of per-edge rows into nodes. -/
structure HostFns where
  take3 : Mat 50000 3 → Ids 800000 → Mat 800000 3
  take64 : Mat 50000 64 → Ids 800000 → Mat 800000 64
  dist : Mat 800000 3 → Mat 800000 3 → Mat 800000 1
  scat : Ids 800000 → Mat 800000 64 → Mat 50000 64

/-- Every entry of an index vector, read as a signed number, lies in [-50000, 50000): it names a node, counted
    from the front or, when negative, from the back. -/
def InRange (idx : Ids 800000) : Prop :=
  ∀ e : Fin 800000, -50000 ≤ (idx (ix1 e)).toInt ∧ (idx (ix1 e)).toInt < 50000

/-- One message-passing layer. -/
def layer (H : HostFns) (e : Mat 50000 64) (x : Mat 50000 3) (row col : Ids 800000)
    (rp : Mat 64 64) (mw : Mat 129 64) (mb : Row 64) (uw : Mat 128 64) (ub : Row 64) : Mat 50000 64 :=
  update e
    (H.scat col (message (H.take64 e row) (H.take64 e col) (H.dist (H.take3 x row) (H.take3 x col))
      (rowsFrom 64 0 (by decide) mw) (rowsFrom 64 64 (by decide) mw) (rowsFrom 1 128 (by decide) mw) (asRow mb)))
    rp (rowsFrom 64 0 (by decide) uw) (rowsFrom 64 64 (by decide) uw) (asRow ub)

/-- The whole network: the embedding, then two layers. -/
def net (H : HostFns) (x : Mat 50000 3) (h : Mat 50000 32) (row col : Ids 800000) (w : Mat 32 64) (b : Row 64)
    (rp0 : Mat 64 64) (mw0 : Mat 129 64) (mb0 : Row 64) (uw0 : Mat 128 64) (ub0 : Row 64)
    (rp1 : Mat 64 64) (mw1 : Mat 129 64) (mb1 : Row 64) (uw1 : Mat 128 64) (ub1 : Row 64) : Mat 50000 64 :=
  layer H (layer H (initEmbed h w (asRow b)) x row col rp0 mw0 mb0 uw0 ub0) x row col rp1 mw1 mb1 uw1 ub1

/-- Two families of host operations that agree on the two index vectors give the same network. -/
theorem net_congr (H H' : HostFns) (row col : Ids 800000)
    (h3r : ∀ x, H.take3 x row = H'.take3 x row) (h3c : ∀ x, H.take3 x col = H'.take3 x col)
    (h64r : ∀ e, H.take64 e row = H'.take64 e row) (h64c : ∀ e, H.take64 e col = H'.take64 e col)
    (hd : H.dist = H'.dist) (hs : H.scat = H'.scat)
    (x : Mat 50000 3) (h : Mat 50000 32) (w : Mat 32 64) (b : Row 64)
    (rp0 : Mat 64 64) (mw0 : Mat 129 64) (mb0 : Row 64) (uw0 : Mat 128 64) (ub0 : Row 64)
    (rp1 : Mat 64 64) (mw1 : Mat 129 64) (mb1 : Row 64) (uw1 : Mat 128 64) (ub1 : Row 64) :
    net H x h row col w b rp0 mw0 mb0 uw0 ub0 rp1 mw1 mb1 uw1 ub1
      = net H' x h row col w b rp0 mw0 mb0 uw0 ub0 rp1 mw1 mb1 uw1 ub1 := by
  unfold net layer
  rw [h3r, h3c, hd, hs]
  simp only [h64r, h64c]

/-- A sum over 129 terms is the sum of its first 64, its next 64 and its last. -/
theorem sum_129 {M : Type*} [AddCommMonoid M] (f : Fin 129 → M) :
    ∑ k : Fin 129, f k
      = (∑ k : Fin 64, f ⟨k.val, by omega⟩) + (∑ k : Fin 64, f ⟨64 + k.val, by omega⟩) + f ⟨128, by omega⟩ := by
  have h := Fin.sum_univ_add (a := 64) (b := 65) (fun k : Fin (64 + 65) => f ⟨k.val, by omega⟩)
  have h' := Fin.sum_univ_add (a := 64) (b := 1) (fun k : Fin (64 + 1) => f ⟨64 + k.val, by omega⟩)
  have e : ∑ k : Fin 129, f k = ∑ k : Fin (64 + 65), f ⟨k.val, by omega⟩ := rfl
  rw [e, h]
  have e' : ∑ k : Fin 65, f ⟨((Fin.natAdd 64 k : Fin (64 + 65))).val, by omega⟩ = ∑ k : Fin (64 + 1), f ⟨64 + k.val, by omega⟩ := rfl
  simp only [Fin.coe_castAdd, Fin.coe_natAdd] at h h' e' ⊢
  rw [h']
  simp only [Fin.coe_castAdd, Fin.coe_natAdd, Finset.univ_unique, Fin.default_eq_zero, Fin.val_zero, Finset.sum_singleton, add_zero, add_assoc]

/-- A sum over 128 terms is the sum of its first 64 and its next 64. -/
theorem sum_128 {M : Type*} [AddCommMonoid M] (f : Fin 128 → M) :
    ∑ k : Fin 128, f k = (∑ k : Fin 64, f ⟨k.val, by omega⟩) + (∑ k : Fin 64, f ⟨64 + k.val, by omega⟩) := by
  have h := Fin.sum_univ_add (a := 64) (b := 64) (fun k : Fin (64 + 64) => f ⟨k.val, by omega⟩)
  have e : ∑ k : Fin 128, f k = ∑ k : Fin (64 + 64), f ⟨k.val, by omega⟩ := rfl
  rw [e, h]
  simp only [Fin.coe_castAdd, Fin.coe_natAdd]

end Cert.Net

end
-- ==== Proof.Region0.lean ====
/-
  The first call: ten blocks of 5000 node rows, each h · W + b. After its last grid point the output array is the embedding of every node.
-/
import proofs.«403838_j86191403696812_1_alg».proof.Proof.Gen.KernelIdeal.Frame
import proofs.«403838_j86191403696812_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Cert.KernelIdeal Cert.KernelIdeal.Gen Cert.Net

variable (V : (c : Dev nD) → (b : Ref sig .tc) → Buf (Elt Ideal) ((c : Thread nD τ).loc b))

example : Pipeline.arrRef spec0 0 = main_arg1 := rfl
example : Pipeline.arrRef spec0 1 = main_arg4 := rfl
example : Pipeline.arrRef spec0 2 = main_v4 := rfl
example : Pipeline.arrRef spec0 3 = main_v5 := rfl

open scoped BigOperators

/-! ## The block's product, index by index -/

/-- The left operand's row coordinate is the output's row. -/
theorem lhs_blk_0 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
/-- The left operand's column coordinate is the summation index. -/
theorem lhs_blk_1 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
/-- The right operand's row coordinate is the summation index. -/
theorem rhs_blk_0 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
/-- The right operand's column coordinate is the output's column. -/
theorem rhs_blk_1 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- A 5000 × 32 by 32 × 64 product onto a zero accumulator, read at (p, q): the sum over k of a(p, k) · b(k, q). -/
theorem matmul_blk_apply (a : FVec Ideal S5000x32 .bf16) (b : FVec Ideal S32x64 .bf16) (p : Fin 5000) (q : Fin 64) :
    matmul dot_S5000x32_S32x64_S5000x64_1_0_0_1_n_n none a b (constant (F := Ideal) S5000x64 .f32 0x00000000#32) (ix2 p q)
      = ∑ k : Fin 32, a (ix2 p k) * b (ix2 k q) := by
  simp only [matmul]
  rw [Ideal.matmul_constant_zero_apply, ← Equiv.sum_comp (ValueIdx.contrEquiv1 dot_S5000x32_S32x64_S5000x64_1_0_0_1_n_n 32 rfl rfl).symm]
  refine Finset.sum_congr rfl fun k _ => ?_
  have hk := ValueIdx.contrEquiv1_symm_val dot_S5000x32_S32x64_S5000x64_1_0_0_1_n_n 32 rfl rfl k
  have el : dot_S5000x32_S32x64_S5000x64_1_0_0_1_n_n.lhsIdx (ix2 p q) ((ValueIdx.contrEquiv1 dot_S5000x32_S32x64_S5000x64_1_0_0_1_n_n 32 rfl rfl).symm k) = ix2 p k := funext fun a => Fin.ext (by
    match a with
    | ⟨0, _⟩ => exact lhs_blk_0 _ _
    | ⟨1, _⟩ => exact (lhs_blk_1 _ _).trans hk)
  have er : dot_S5000x32_S32x64_S5000x64_1_0_0_1_n_n.rhsIdx (ix2 p q) ((ValueIdx.contrEquiv1 dot_S5000x32_S32x64_S5000x64_1_0_0_1_n_n 32 rfl rfl).symm k) = ix2 k q := funext fun a => Fin.ext (by
    match a with
    | ⟨0, _⟩ => exact (rhs_blk_0 _ _).trans hk
    | ⟨1, _⟩ => exact rhs_blk_1 _ _)
  rw [el, er]

/-- The block's payload is the embedding map at block size: the two changes of format are the identity, the product onto
    zero is the sum of products, and the bias row is read at the column. -/
theorem pay_eq (x0 : Vec Ideal S5000x32 .f32) (x1 : Vec Ideal S32x64 .f32) (x2 : Vec Ideal S1x64 .f32) :
    Gen.k0_pay1 x0 x1 x2 = initEmbed (n := 5000) x0 x1 x2 := by
  funext j
  obtain ⟨p, q, rfl⟩ : ∃ (p : Fin 5000) (q : Fin 64), j = ix2 p q := ⟨j 0, j 1, eq_ix2 j⟩
  unfold Gen.k0_pay1 initEmbed
  dsimp only
  rw [addf_apply, matmul_blk_apply, shapeCast_self, broadcastTo_1b_ab_apply]
  rfl

/-! ## From blocks to the array -/

theorem hz : (![0, 0] : Fin 2 → Nat) = fun _ => 0 := funext fun a => by
  match a with
  | ⟨0, _⟩ => rfl
  | ⟨1, _⟩ => rfl

/-- The index maps over the grid: at point t the feature and the output windows are at block row t, block column 0; the
    weight and the bias windows are at block (0, 0). -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The embedding of a block of rows is the embedding of all rows read at the block's rows: a row of the result uses that
    row of the features only, with the whole weight matrix and bias row. -/
theorem initEmbed_rows (h : Mat 50000 32) (w : Mat 32 64) (b : Mat 1 64) (hb : Mat 5000 32) (wb : Mat 32 64) (bb : Mat 1 64)
    (p : Fin 5000) (q : Fin 64) (i : (⟨2, ![50000, 64]⟩ : Shape).Idx) (hq : (i 1).val = q.val)
    (hh : ∀ k : Fin 32, hb (ix2 p k) = h (ix2 (i 0) k)) (hw : wb = w) (hbb : bb = b) :
    initEmbed (n := 5000) hb wb bb (ix2 p q) = initEmbed (n := 50000) h w b i := by
  obtain ⟨r, q', rfl⟩ : ∃ (r : Fin 50000) (q' : Fin 64), i = ix2 r q' := ⟨i 0, i 1, eq_ix2 i⟩
  obtain rfl : q' = q := Fin.ext hq
  subst hw hbb
  show (∑ k : Fin 32, hb (ix2 p k) * wb (ix2 k q')) + bb (ix2 (0 : Fin 1) q') = (∑ k : Fin 32, h (ix2 r k) * wb (ix2 k q')) + bb (ix2 (0 : Fin 1) q')
  congr 1
  exact Finset.sum_congr rfl fun k _ => by rw [hh k]

/-- What point t writes back is block t of the embedding of the arrays the call was entered with. -/
theorem flushed_eq (c : Dev nD) (t : Fin cfg0.N) :
    (dat0 (F := Ideal) V c).flushed 3 t
      = ((cfg0.win 3).blk t).view.read (Elt Ideal) (initEmbed (n := 50000) (V c main_arg1) (V c main_arg4) (V c main_v4)) := by
  show (cfg0.win 3).cut (grid0.coords t) ((dat0 V c).after 3 t) = _
  rw [after0_3]
  unfold out0_3
  rw [View.canon_unit_zero hz]
  simp only [View.ld_unit_zero (S := S5000x32) hz, View.ld_unit_zero (S := S32x64) hz, View.ld_unit_zero (S := S1x64) hz]
  rw [pay_eq]
  obtain ⟨e0, e1, e2, e3, e4, e5, e6, e7⟩ := idx_facts t
  funext y
  obtain ⟨p, q, rfl⟩ : ∃ (p : Fin 5000) (q : Fin 64), y = ix2 p q := ⟨y 0, y 1, eq_ix2 y⟩
  show initEmbed (n := 5000) (iblk0 V c 0 t) (iblk0 V c 1 t) (iblk0 V c 2 t) (ix2 p q)
    = initEmbed (n := 50000) (V c main_arg1) (V c main_arg4) (V c main_v4) (((cfg0.win 3).blk t).view.emb (ix2 p q))
  refine initEmbed_rows _ _ _ _ _ _ p q _ ?_ ?_ ?_ ?_
  · show win0_3.index t (1 : Fin 2) * 64 + 1 * q.val = q.val
    omega
  · intro k
    show V c main_arg1 (((cfg0.win 0).blk t).view.emb (ix2 p k)) = V c main_arg1 _
    refine congrArg _ (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 32 + 1 * k.val = k.val; omega
  · funext x
    show V c main_arg4 (((cfg0.win 1).blk t).view.emb x) = V c main_arg4 x
    refine congrArg _ (funext fun a => Fin.ext ?_)
    match a with
    | ⟨0, _⟩ => show win0_1.index t (0 : Fin 2) * 32 + 1 * (x 0).val = (x 0).val; omega
    | ⟨1, _⟩ => show win0_1.index t (1 : Fin 2) * 64 + 1 * (x 1).val = (x 1).val; omega
  · funext x
    show V c main_v4 (((cfg0.win 2).blk t).view.emb x) = V c main_v4 x
    refine congrArg _ (funext fun a => Fin.ext ?_)
    match a with
    | ⟨0, _⟩ => show win0_2.index t (0 : Fin 2) * 1 + 1 * (x 0).val = (x 0).val; omega
    | ⟨1, _⟩ => show win0_2.index t (1 : Fin 2) * 64 + 1 * (x 1).val = (x 1).val; omega

/-- An index of the output array is in point t's block iff each coordinate is in the block's range on its axis. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v5).slice (win0_3.rect t)).set ↔ _
  rw [View.set_slice_whole, Rect.mem_set_unit]
  exact Iff.rfl

/-- Every index of the output array is in the block of the point its row divided by 5000 names, and every point writes back. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The output array after the call's last grid point, as one function of the arrays the call was entered with. -/
theorem final0 (c : Dev nD) :
    (dat0 (F := Ideal) V c).arrAt 3 cfg0.N = initEmbed (n := 50000) (V c main_arg1) (V c main_arg4) (V c main_v4) :=
  (dat0 V c).arrAt_eq_of_cover 3 _ (fun t _ => flushed_eq V c t) cover

end Cert.KernelIdeal.Region0

end
-- ==== Proof.KernelFns.lean ====
/-
  The host operations of the kernel's program around its five calls, as functions of arrays over the extended
  reals: the two index vectors cut out of the edge list, the row selection (an index below zero is moved up by
  the number of nodes; a row whose moved index is outside [0, 49999] is filled with the not-a-number pattern,
  every other row is the selected one), the squared distance of two selections, the scatter-sum of messages
  into nodes, and the slices and reshapes that cut the weight matrices.
-/
import proofs.«403838_j86191403696812_1_alg».proof.Proof.Gen.KernelIdeal
import proofs.«403838_j86191403696812_1_alg».proof.Proof.Spec

noncomputable section

namespace Cert.KernelIdeal.Fns

open Idealize.ShloMosaic Idealize.ShloMosaic.TcCoe Idealize.SL.Sem
open Cert.KernelIdeal Cert.KernelIdeal.Facts₀ Cert.KernelIdeal.Facts

/-- Row 0 of the edge list: the source node of each edge. -/
def rowOf (ei : IVec S2x800000 32) : IVec S800000 32 :=
  shapeCast S800000 (extractStridedSlice S1x800000 ![0, 0] ei slices_S2x800000_S1x800000_0_0) shapeCasts_S1x800000_S800000

/-- Row 1 of the edge list: the target node of each edge. -/
def colOf (ei : IVec S2x800000 32) : IVec S800000 32 :=
  shapeCast S800000 (extractStridedSlice S1x800000 ![1, 0] ei slices_S2x800000_S1x800000_1_0) shapeCasts_S1x800000_S800000

/-- An index vector with its negative entries moved up by 50000, as a column. -/
def wrapIdx (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- Per edge: is the moved index inside [0, 49999]? -/
def inRange (i5 : IVec S800000x1 32) : IVec S800000 1 :=
  Host.reduce IntOp.andi
    (andi (cmpi .sge i5 (broadcastInDim S800000x1 ![] bcast_S_S800000x1 (constantI S_ 32 0#32)))
      (cmpi .sle i5 (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- Rows of the positions selected by an index vector. -/
def take3 (x : FVec Ideal S50000x3 .f32) (idx : IVec S800000 32) : FVec Ideal S800000x3 .f32 :=
  select (broadcastInDim S800000x3 ![0] bcast_S800000_S800000x3_0 (inRange (wrapIdx idx)))
    (Host.gather gather_S50000x3_S800000x1_S800000x3_1_0_n_n_0_1_13 x (wrapIdx idx))
    (broadcastInDim S800000x3 ![] bcast_S_S800000x3 (constant S_ .f32 0x7FC00000#32))

/-- Rows of the embeddings selected by an index vector. -/
def take64 (x : FVec Ideal S50000x64 .f32) (idx : IVec S800000 32) : FVec Ideal S800000x64 .f32 :=
  select (broadcastInDim S800000x64 ![0] bcast_S800000_S800000x64_0 (inRange (wrapIdx idx)))
    (Host.gather gather_S50000x64_S800000x1_S800000x64_1_0_n_n_0_1_164 x (wrapIdx idx))
    (broadcastInDim S800000x64 ![] bcast_S_S800000x64 (constant S_ .f32 0x7FC00000#32))

/-- The squared distance of two selections of positions, as a column. -/
def dist (a b : FVec Ideal S800000x3 .f32) : FVec Ideal S800000x1 .f32 :=
  broadcastInDim S800000x1 ![0] bcast_S800000_S800000x1_0
    (Host.reduceAdd (mulf (subf a b) (subf a b)) (constant S_ .f32 0x00000000#32) reducesTo_S800000x3_S800000_d1 h_S_)

/-- The messages summed into their target nodes, from zero. -/
def scat (col : IVec S800000 32) (msg : FVec Ideal S800000x64 .f32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 col) msg

/-- The kernel's program's host operations, as the network takes them. -/
def H : Cert.Net.HostFns := ⟨take3, take64, dist, scat⟩

end Cert.KernelIdeal.Fns

end
-- ==== Proof.HostStretch1.lean ====
/-
  The host operations of the first layer, between the kernel calls, one stretch at a time: what a stretch leaves in
  the buffer it computes, as a function of the buffers it reads, from any contents of the buffers. The row selections,
  the squared distance and the scatter-sum are the functions the network is stated over; the slices of the weight
  matrices are left as the operations they are.
-/
import proofs.«403838_j86191403696812_1_alg».proof.Proof.Gen.KernelIdeal.Launch
import proofs.«403838_j86191403696812_1_alg».proof.Proof.KernelFns
import Idealize.ShloMosaic.Lib.StableHlo.Run

set_option maxRecDepth 16384

noncomputable section

namespace Cert.KernelIdeal.Host1

open Idealize.ShloMosaic Idealize.ShloMosaic.TcCoe Idealize.SL.Sem
open Cert.KernelIdeal Cert.KernelIdeal.Gen

variable (W : Valuation τ sig (Elt Ideal))

/-! ## Typed references

An operation of an outlined function reads and writes its buffers through references that carry the type of the value
held: a value is carried to the buffer's own type when written and back when read. Both carriages are the identity,
the two types being the same: a value written and read back is itself, a buffer of the program read at its own type
is its contents, and a value written to the result buffer is that value. -/

/-- A value carried to a typed reference's buffer and back is unchanged. -/
theorem ofBuf_toBuf {T : BufTy} (x : StableHlo.TRef sig T) (v : T.Contents (Elt Ideal)) : x.ofBuf (x.toBuf v) = v := by
  obtain ⟨r, rfl, _, _⟩ := x
  rfl

/-- The positions, read at their type, are the buffer's contents. -/
theorem in_pos (p1 p2 p3) : (StableHlo.TRef.of main_arg0 p1 p2 p3 : StableHlo.TRef sig ⟨S50000x3, .f32⟩).ofBuf (W (Proc.devRef .tc main_arg0))
    = W (Proc.devRef .tc main_arg0) := rfl

/-- The embeddings, read at their type, are the buffer's contents. -/
theorem in_emb (p1 p2 p3) : (StableHlo.TRef.of main_v5 p1 p2 p3 : StableHlo.TRef sig ⟨S50000x64, .f32⟩).ofBuf (W (Proc.devRef .tc main_v5))
    = W (Proc.devRef .tc main_v5) := rfl

/-- The source indices, read at their type, are the buffer's contents. -/
theorem in_src (p1 p2 p3) : (StableHlo.TRef.of main_v1 p1 p2 p3 : StableHlo.TRef sig ⟨S800000, .i32⟩).ofBuf (W (Proc.devRef .tc main_v1))
    = W (Proc.devRef .tc main_v1) := rfl

/-- The target indices, read at their type, are the buffer's contents. -/
theorem in_dst (p1 p2 p3) : (StableHlo.TRef.of main_v3 p1 p2 p3 : StableHlo.TRef sig ⟨S800000, .i32⟩).ofBuf (W (Proc.devRef .tc main_v3))
    = W (Proc.devRef .tc main_v3) := rfl

/-- A selection of positions written to the source-position buffer is that selection. -/
theorem out_src_pos (p1 p2 p3) (v : (⟨S800000x3, .f32⟩ : BufTy).Contents (Elt Ideal)) :
    (StableHlo.TRef.of main_v6 p1 p2 p3 : StableHlo.TRef sig ⟨S800000x3, .f32⟩).toBuf v = v := rfl

/-- A selection of positions written to the target-position buffer is that selection. -/
theorem out_dst_pos (p1 p2 p3) (v : (⟨S800000x3, .f32⟩ : BufTy).Contents (Elt Ideal)) :
    (StableHlo.TRef.of main_v7 p1 p2 p3 : StableHlo.TRef sig ⟨S800000x3, .f32⟩).toBuf v = v := rfl

/-- A selection of embeddings written to the source-embedding buffer is that selection. -/
theorem out_src_emb (p1 p2 p3) (v : (⟨S800000x64, .f32⟩ : BufTy).Contents (Elt Ideal)) :
    (StableHlo.TRef.of main_v12 p1 p2 p3 : StableHlo.TRef sig ⟨S800000x64, .f32⟩).toBuf v = v := rfl

/-- A selection of embeddings written to the target-embedding buffer is that selection. -/
theorem out_dst_emb (p1 p2 p3) (v : (⟨S800000x64, .f32⟩ : BufTy).Contents (Elt Ideal)) :
    (StableHlo.TRef.of main_v13 p1 p2 p3 : StableHlo.TRef sig ⟨S800000x64, .f32⟩).toBuf v = v := rfl

/-! ## The stretches

Each stretch's fold is evaluated at the buffer it computes: every operation's result at its own buffer is its function
of its operands' contents, and at any other buffer what was there. For a row selection the carriages are then removed
and what is left is, operation for operation, the selection's definition: the indices moved up where negative, the
range test reduced along the column, the gathered rows, and the not-a-number fill chosen where the test fails. -/

/-- The positions of the source nodes: the row selection of the positions by the source indices. -/
theorem src_pos : StableHlo.after hostOps1 W (Proc.devRef .tc main_v6) = Fns.take3 (W (Proc.devRef .tc main_arg0)) (W (Proc.devRef .tc main_v1)) := by
  after_results_simp
  simp only [ofBuf_toBuf, in_pos, in_src, out_src_pos]
  unfold Fns.take3 Fns.wrapIdx Fns.inRange
  with_reducible rfl

/-- The positions of the target nodes. -/
theorem dst_pos : StableHlo.after hostOps1_1 W (Proc.devRef .tc main_v7) = Fns.take3 (W (Proc.devRef .tc main_arg0)) (W (Proc.devRef .tc main_v3)) := by
  after_results_simp
  simp only [ofBuf_toBuf, in_pos, in_dst, out_dst_pos]
  unfold Fns.take3 Fns.wrapIdx Fns.inRange
  with_reducible rfl

/-- The squared distance of the two selections of positions. -/
theorem sq_dist : StableHlo.after hostOps1_2 W (Proc.devRef .tc main_v11) = Fns.dist (W (Proc.devRef .tc main_v6)) (W (Proc.devRef .tc main_v7)) := by
  after_results_simp
  rfl

/-- The embeddings of the source nodes. -/
theorem src_emb : StableHlo.after hostOps1_3 W (Proc.devRef .tc main_v12) = Fns.take64 (W (Proc.devRef .tc main_v5)) (W (Proc.devRef .tc main_v1)) := by
  after_results_simp
  simp only [ofBuf_toBuf, in_emb, in_src, out_src_emb]
  unfold Fns.take64 Fns.wrapIdx Fns.inRange
  with_reducible rfl

/-- The embeddings of the target nodes. -/
theorem dst_emb : StableHlo.after hostOps1_4 W (Proc.devRef .tc main_v13) = Fns.take64 (W (Proc.devRef .tc main_v5)) (W (Proc.devRef .tc main_v3)) := by
  after_results_simp
  simp only [ofBuf_toBuf, in_emb, in_dst, out_dst_emb]
  unfold Fns.take64 Fns.wrapIdx Fns.inRange
  with_reducible rfl

/-- Rows 0 to 63 of the message weights. -/
theorem msg_w_src : StableHlo.after hostOps1_5 W (Proc.devRef .tc main_v14)
    = extractStridedSlice S64x64 ![0, 0] (W (Proc.devRef .tc main_arg7)) Facts₀.slices_S129x64_S64x64_0_0 := by
  after_results_simp

/-- Rows 64 to 127 of the message weights. -/
theorem msg_w_dst : StableHlo.after hostOps1_5 W (Proc.devRef .tc main_v15)
    = extractStridedSlice S64x64 ![64, 0] (W (Proc.devRef .tc main_arg7)) Facts₀.slices_S129x64_S64x64_64_0 := by
  after_results_simp

/-- Row 128 of the message weights. -/
theorem msg_w_dist : StableHlo.after hostOps1_5 W (Proc.devRef .tc main_v16)
    = extractStridedSlice S1x64 ![128, 0] (W (Proc.devRef .tc main_arg7)) Facts₀.slices_S129x64_S1x64_128_0 := by
  after_results_simp

/-- The message bias as a one-row matrix. -/
theorem msg_bias : StableHlo.after hostOps1_5 W (Proc.devRef .tc main_v17)
    = shapeCast S1x64 (W (Proc.devRef .tc main_arg8)) Facts₀.shapeCasts_S64_S1x64 := by
  after_results_simp
  rfl

/-- The messages summed into their target nodes. -/
theorem aggregated : StableHlo.after hostOps2 W (Proc.devRef .tc main_v21) = Fns.scat (W (Proc.devRef .tc main_v3)) (W (Proc.devRef .tc main_v18)) := by
  after_results_simp
  rfl

/-- Rows 0 to 63 of the update weights. -/
theorem upd_w_self : StableHlo.after hostOps2 W (Proc.devRef .tc main_v22)
    = extractStridedSlice S64x64 ![0, 0] (W (Proc.devRef .tc main_arg9)) Facts₀.slices_S128x64_S64x64_0_0 := by
  after_results_simp

/-- Rows 64 to 127 of the update weights. -/
theorem upd_w_agg : StableHlo.after hostOps2 W (Proc.devRef .tc main_v23)
    = extractStridedSlice S64x64 ![64, 0] (W (Proc.devRef .tc main_arg9)) Facts₀.slices_S128x64_S64x64_64_0 := by
  after_results_simp

/-- The update bias as a one-row matrix. -/
theorem upd_bias : StableHlo.after hostOps2 W (Proc.devRef .tc main_v24)
    = shapeCast S1x64 (W (Proc.devRef .tc main_arg10)) Facts₀.shapeCasts_S64_S1x64 := by
  after_results_simp
  rfl

end Cert.KernelIdeal.Host1

end
-- ==== Proof.Region1.lean ====
/-
  The first layer's message call: two hundred blocks of 4000 edge rows, each relu (hi · W_s + hj · W_d + dist · w_t + b). After its last grid point the output array holds every edge's message.
-/
import proofs.«403838_j86191403696812_1_alg».proof.Proof.Gen.KernelIdeal.Frame
import proofs.«403838_j86191403696812_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Cert.KernelIdeal Cert.KernelIdeal.Gen Cert.Net

variable (V : (c : Dev nD) → (b : Ref sig .tc) → Buf (Elt Ideal) ((c : Thread nD τ).loc b))

example : Pipeline.arrRef spec1 0 = main_v12 := rfl
example : Pipeline.arrRef spec1 1 = main_v13 := rfl
example : Pipeline.arrRef spec1 2 = main_v11 := rfl
example : Pipeline.arrRef spec1 3 = main_v14 := rfl
example : Pipeline.arrRef spec1 4 = main_v15 := rfl
example : Pipeline.arrRef spec1 5 = main_v16 := rfl
example : Pipeline.arrRef spec1 6 = main_v17 := rfl
example : Pipeline.arrRef spec1 7 = main_v18 := rfl

open scoped BigOperators

/-! ## The block's matrix product at an index -/

/-- The left operand's row coordinate is the result's row. -/
theorem lhs_row (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
/-- The left operand's column coordinate is the contraction index. -/
theorem lhs_contr (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
/-- The right operand's row coordinate is the contraction index. -/
theorem rhs_contr (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
/-- The right operand's column coordinate is the result's column. -/
theorem rhs_col (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- A block of rows times a 64 × 64 matrix, into the zero block: entry (p, q) is the sum over k of a (p, k) · w (k, q). -/
theorem matmul_zero_apply (a : FVec Ideal S4000x64 .bf16) (w : FVec Ideal S64x64 .bf16) (p : Fin 4000) (q : Fin 64) :
    matmul dot_S4000x64_S64x64_S4000x64_1_0_0_1_n_n none a w (constant (F := Ideal) S4000x64 .f32 0x00000000#32) (ix2 p q)
      = ∑ k : Fin 64, a (ix2 p k) * w (ix2 k q) := by
  show FloatOps.matmul dot_S4000x64_S64x64_S4000x64_1_0_0_1_n_n none a w (constant (F := Ideal) S4000x64 .f32 0x00000000#32) (ix2 p q) = _
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q) ((ValueIdx.contrEquiv1 dot_S4000x64_S64x64_S4000x64_1_0_0_1_n_n 64 rfl rfl).symm k) = ix2 p k := funext fun a => Fin.ext (by
    match a with
    | ⟨0, _⟩ => exact lhs_row _ _
    | ⟨1, _⟩ => exact (lhs_contr _ _).trans hk)
  have er : dot_S4000x64_S64x64_S4000x64_1_0_0_1_n_n.rhsIdx (ix2 p q) ((ValueIdx.contrEquiv1 dot_S4000x64_S64x64_S4000x64_1_0_0_1_n_n 64 rfl rfl).symm k) = ix2 k q := funext fun a => Fin.ext (by
    match a with
    | ⟨0, _⟩ => exact (rhs_contr _ _).trans hk
    | ⟨1, _⟩ => exact rhs_col _ _)
  rw [el, er]

/-! ## The body's payload is the message map at block size -/

/-- A one-column block broadcast along its rows reads, at (p, q), the column's entry in row p. -/
theorem bcast_col_apply {α : Type} (v : S4000x1.Idx → α) (p : Fin 4000) (q : Fin 64) :
    broadcastTo S4000x64 v broadcasts_S4000x1_S4000x64 (ix2 p q) = v (ix2 p (0 : Fin 1)) := by
  refine broadcastTo_apply v broadcasts_S4000x1_S4000x64 (ix2 p q) (ix2 p (0 : Fin 1)) fun ax => ?_
  match ax with
  | ⟨0, _⟩ => show p.val = if (4000 : Nat) = 1 then 0 else p.val; rw [if_neg (by decide)]
  | ⟨1, _⟩ => show (0 : Nat) = if (1 : Nat) = 1 then 0 else q.val; rw [if_pos rfl]

/-- What the body stores is relu (hi · W_s + hj · W_d + dist · w_t + b) of the blocks it loaded. -/
theorem pay_eq (hi hj : Vec Ideal S4000x64 .f32) (ws wd : Vec Ideal S64x64 .f32) (dist : Vec Ideal S4000x1 .f32) (wt mb : Vec Ideal S1x64 .f32) :
    k1_pay1 hi hj ws wd dist wt mb = message (n := 4000) hi hj dist ws wd wt mb := by
  funext j
  obtain ⟨p, q, rfl⟩ : ∃ (p : Fin 4000) (q : Fin 64), j = ix2 p q := ⟨j 0, j 1, eq_ix2 j⟩
  unfold k1_pay1 message
  simp only [shapeCast_self]
  simp only [maximumf_apply, addf_apply, mulf_apply, broadcast_apply]
  rw [matmul_zero_apply, matmul_zero_apply, bcast_col_apply, broadcastTo_1b_ab_apply, broadcastTo_1b_ab_apply]
  simp only [truncf_apply, Ideal.ofBits_def, Ideal.ofBits_zero_f32]

/-! ## The message map reads rows -/

/-- On a block whose rows are rows of whole arrays, and with the same weights, the message map's row p is the whole map's row r. -/
theorem message_rows (HI HJ : Mat 800000 64) (DIST : Mat 800000 1) (WS WD : Mat 64 64) (WT MB : Mat 1 64)
    (hi hj : Mat 4000 64) (dist : Mat 4000 1) (ws wd : Mat 64 64) (wt mb : Mat 1 64)
    (p : Fin 4000) (r : Fin 800000) (q : Fin 64)
    (ehi : ∀ k : Fin 64, hi (ix2 p k) = HI (ix2 r k)) (ehj : ∀ k : Fin 64, hj (ix2 p k) = HJ (ix2 r k))
    (edist : dist (ix2 p (0 : Fin 1)) = DIST (ix2 r (0 : Fin 1)))
    (ews : ws = WS) (ewd : wd = WD) (ewt : wt = WT) (emb : mb = MB) :
    message hi hj dist ws wd wt mb (ix2 p q) = message HI HJ DIST WS WD WT MB (ix2 r q) := by
  subst ews ewd ewt emb
  show max (((∑ k : Fin 64, hi (ix2 p k) * ws (ix2 k q)) + (∑ k : Fin 64, hj (ix2 p k) * wd (ix2 k q))
        + dist (ix2 p (0 : Fin 1)) * wt (ix2 (0 : Fin 1) q)) + mb (ix2 (0 : Fin 1) q)) 0
      = max (((∑ k : Fin 64, HI (ix2 r k) * ws (ix2 k q)) + (∑ k : Fin 64, HJ (ix2 r k) * wd (ix2 k q))
        + DIST (ix2 r (0 : Fin 1)) * wt (ix2 (0 : Fin 1) q)) + mb (ix2 (0 : Fin 1) q)) 0
  simp only [ehi, ehj, edist]

/-! ## The blocks of a grid point -/

theorem hz : (![0, 0] : Fin 2 → Nat) = fun _ => 0 := funext fun a => by fin_cases a <;> rfl

/-- The printed index maps over the grid: at point t the output and the three edge-row windows are at row block t,
    the four weight windows at their one block. -/
theorem idx_facts : ∀ t : Fin cfg1.N,
    win1_7.index t (0 : Fin 2) = t.val ∧ win1_7.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-! ## Each input window's block, read off its array -/

/-- Row p of the source-embedding block at point t is row 4000 · t + p of the array. -/
theorem blk_hi (c : Dev nD) (t : Fin cfg1.N) (p : Fin 4000) (k : Fin 64) (r : Fin 800000) (hr : r.val = 4000 * t.val + p.val) :
    (iblk1 V c 0 t : Vec Ideal S4000x64 .f32) (ix2 p k) = (V c main_v12 : S800000x64.Idx → Elt Ideal .f32) (ix2 r k) := by
  obtain ⟨oR, oC, hiR, hiC, hjR, hjC, dR, dC, wsR, wsC, wdR, wdC, wtR, wtC, mbR, mbC⟩ := idx_facts t
  unfold iblk1
  rw [View.read_apply]
  show V c main_v12 _ = V c main_v12 _
  congr 1
  funext a
  apply Fin.ext
  match a with
  | ⟨0, _⟩ => show win1_0.index t (0 : Fin 2) * 4000 + 1 * p.val = r.val; rw [hiR, hr]; omega
  | ⟨1, _⟩ => show win1_0.index t (1 : Fin 2) * 64 + 1 * k.val = k.val; rw [hiC]; omega

/-- Row p of the target-embedding block at point t is row 4000 · t + p of the array. -/
theorem blk_hj (c : Dev nD) (t : Fin cfg1.N) (p : Fin 4000) (k : Fin 64) (r : Fin 800000) (hr : r.val = 4000 * t.val + p.val) :
    (iblk1 V c 1 t : Vec Ideal S4000x64 .f32) (ix2 p k) = (V c main_v13 : S800000x64.Idx → Elt Ideal .f32) (ix2 r k) := by
  obtain ⟨oR, oC, hiR, hiC, hjR, hjC, dR, dC, wsR, wsC, wdR, wdC, wtR, wtC, mbR, mbC⟩ := idx_facts t
  unfold iblk1
  rw [View.read_apply]
  show V c main_v13 _ = V c main_v13 _
  congr 1
  funext a
  apply Fin.ext
  match a with
  | ⟨0, _⟩ => show win1_1.index t (0 : Fin 2) * 4000 + 1 * p.val = r.val; rw [hjR, hr]; omega
  | ⟨1, _⟩ => show win1_1.index t (1 : Fin 2) * 64 + 1 * k.val = k.val; rw [hjC]; omega

/-- Row p of the distance block at point t is row 4000 · t + p of the array. -/
theorem blk_dist (c : Dev nD) (t : Fin cfg1.N) (p : Fin 4000) (k : Fin 1) (r : Fin 800000) (hr : r.val = 4000 * t.val + p.val) :
    (iblk1 V c 2 t : Vec Ideal S4000x1 .f32) (ix2 p k) = (V c main_v11 : S800000x1.Idx → Elt Ideal .f32) (ix2 r k) := by
  obtain ⟨oR, oC, hiR, hiC, hjR, hjC, dR, dC, wsR, wsC, wdR, wdC, wtR, wtC, mbR, mbC⟩ := idx_facts t
  unfold iblk1
  rw [View.read_apply]
  show V c main_v11 _ = V c main_v11 _
  congr 1
  funext a
  apply Fin.ext
  match a with
  | ⟨0, _⟩ => show win1_2.index t (0 : Fin 2) * 4000 + 1 * p.val = r.val; rw [dR, hr]; omega
  | ⟨1, _⟩ => show win1_2.index t (1 : Fin 2) * 1 + 1 * k.val = k.val; rw [dC]; omega

/-- The source weights' window is the whole matrix at every point. -/
theorem blk_ws (c : Dev nD) (t : Fin cfg1.N) :
    (iblk1 V c 3 t : Vec Ideal S64x64 .f32) = (V c main_v14 : S64x64.Idx → Elt Ideal .f32) := by
  obtain ⟨oR, oC, hiR, hiC, hjR, hjC, dR, dC, wsR, wsC, wdR, wdC, wtR, wtC, mbR, mbC⟩ := idx_facts t
  funext x
  unfold iblk1
  rw [View.read_apply]
  show V c main_v14 _ = V c main_v14 _
  congr 1
  funext a
  apply Fin.ext
  match a with
  | ⟨0, _⟩ => show win1_3.index t (0 : Fin 2) * 64 + 1 * (x 0).val = (x 0).val; rw [wsR]; omega
  | ⟨1, _⟩ => show win1_3.index t (1 : Fin 2) * 64 + 1 * (x 1).val = (x 1).val; rw [wsC]; omega

/-- The target weights' window is the whole matrix at every point. -/
theorem blk_wd (c : Dev nD) (t : Fin cfg1.N) :
    (iblk1 V c 4 t : Vec Ideal S64x64 .f32) = (V c main_v15 : S64x64.Idx → Elt Ideal .f32) := by
  obtain ⟨oR, oC, hiR, hiC, hjR, hjC, dR, dC, wsR, wsC, wdR, wdC, wtR, wtC, mbR, mbC⟩ := idx_facts t
  funext x
  unfold iblk1
  rw [View.read_apply]
  show V c main_v15 _ = V c main_v15 _
  congr 1
  funext a
  apply Fin.ext
  match a with
  | ⟨0, _⟩ => show win1_4.index t (0 : Fin 2) * 64 + 1 * (x 0).val = (x 0).val; rw [wdR]; omega
  | ⟨1, _⟩ => show win1_4.index t (1 : Fin 2) * 64 + 1 * (x 1).val = (x 1).val; rw [wdC]; omega

/-- The distance weights' window is the whole row at every point. -/
theorem blk_wt (c : Dev nD) (t : Fin cfg1.N) :
    (iblk1 V c 5 t : Vec Ideal S1x64 .f32) = (V c main_v16 : S1x64.Idx → Elt Ideal .f32) := by
  obtain ⟨oR, oC, hiR, hiC, hjR, hjC, dR, dC, wsR, wsC, wdR, wdC, wtR, wtC, mbR, mbC⟩ := idx_facts t
  funext x
  unfold iblk1
  rw [View.read_apply]
  show V c main_v16 _ = V c main_v16 _
  congr 1
  funext a
  apply Fin.ext
  match a with
  | ⟨0, _⟩ => show win1_5.index t (0 : Fin 2) * 1 + 1 * (x 0).val = (x 0).val; rw [wtR]; omega
  | ⟨1, _⟩ => show win1_5.index t (1 : Fin 2) * 64 + 1 * (x 1).val = (x 1).val; rw [wtC]; omega

/-- The bias window is the whole row at every point. -/
theorem blk_mb (c : Dev nD) (t : Fin cfg1.N) :
    (iblk1 V c 6 t : Vec Ideal S1x64 .f32) = (V c main_v17 : S1x64.Idx → Elt Ideal .f32) := by
  obtain ⟨oR, oC, hiR, hiC, hjR, hjC, dR, dC, wsR, wsC, wdR, wdC, wtR, wtC, mbR, mbC⟩ := idx_facts t
  funext x
  unfold iblk1
  rw [View.read_apply]
  show V c main_v17 _ = V c main_v17 _
  congr 1
  funext a
  apply Fin.ext
  match a with
  | ⟨0, _⟩ => show win1_6.index t (0 : Fin 2) * 1 + 1 * (x 0).val = (x 0).val; rw [mbR]; omega
  | ⟨1, _⟩ => show win1_6.index t (1 : Fin 2) * 64 + 1 * (x 1).val = (x 1).val; rw [mbC]; omega

/-! ## What a point writes back -/

/-- Index (p, q) of the output's block at point t is index (4000 · t + p, q) of the array. -/
theorem emb_out (t : Fin cfg1.N) (p : Fin 4000) (q : Fin 64) (r : Fin 800000) (hr : r.val = 4000 * t.val + p.val) :
    ((cfg1.win 7).blk t).view.emb (ix2 p q) = (ix2 r q : S800000x64.Idx) := by
  obtain ⟨oR, oC, hiR, hiC, hjR, hjC, dR, dC, wsR, wsC, wdR, wdC, wtR, wtC, mbR, mbC⟩ := idx_facts t
  funext a
  apply Fin.ext
  match a with
  | ⟨0, _⟩ => show win1_7.index t (0 : Fin 2) * 4000 + 1 * p.val = r.val; rw [oR, hr]; omega
  | ⟨1, _⟩ => show win1_7.index t (1 : Fin 2) * 64 + 1 * q.val = q.val; rw [oC]; omega

/-- What point t writes back is block t of the message map of the arrays the call was entered with. -/
theorem flushed_eq (c : Dev nD) (t : Fin cfg1.N) :
    (dat1 (F := Ideal) V c).flushed 7 t = ((cfg1.win 7).blk t).view.read (Elt Ideal)
      (message (n := 800000) (V c main_v12) (V c main_v13) (V c main_v11) (V c main_v14) (V c main_v15) (V c main_v16) (V c main_v17)) := by
  show (cfg1.win 7).cut (grid1.coords t) ((dat1 V c).after 7 t) = _
  rw [after1_7]
  unfold out1_7
  rw [View.canon_unit_zero hz]
  simp only [View.ld_unit_zero (S := S4000x64) hz, View.ld_unit_zero (S := S64x64) hz, View.ld_unit_zero (S := S4000x1) hz, View.ld_unit_zero (S := S1x64) hz]
  rw [pay_eq]
  funext y
  obtain ⟨p, q, rfl⟩ : ∃ (p : Fin 4000) (q : Fin 64), y = ix2 p q := ⟨y 0, y 1, eq_ix2 y⟩
  have hN : grid1.N = 200 := N_1
  have ht : t.val < 200 := by have hlt : t.val < grid1.N := t.isLt; omega
  rw [View.read_apply]
  show message (n := 4000) (iblk1 V c 0 t) (iblk1 V c 1 t) (iblk1 V c 2 t) (iblk1 V c 3 t) (iblk1 V c 4 t) (iblk1 V c 5 t) (iblk1 V c 6 t) (ix2 p q)
    = message (n := 800000) (V c main_v12) (V c main_v13) (V c main_v11) (V c main_v14) (V c main_v15) (V c main_v16) (V c main_v17) (((cfg1.win 7).blk t).view.emb (ix2 p q))
  rw [emb_out t p q ⟨4000 * t.val + p.val, by have := p.isLt; omega⟩ rfl]
  exact message_rows _ _ _ _ _ _ _ _ _ _ _ _ _ _ p _ q
    (fun k => blk_hi V c t p k _ rfl) (fun k => blk_hj V c t p k _ rfl) (blk_dist V c t p 0 _ rfl)
    (blk_ws V c t) (blk_wd V c t) (blk_wt V c t) (blk_mb V c t)

/-! ## The blocks cover the array -/

/-- An index of the array is in point t's block iff each coordinate is in the block's range on its axis. -/
theorem mem_blk (t : Fin cfg1.N) (i : S800000x64.Idx) :
    i ∈ ((cfg1.win 7).blk t).view.set ↔ ∀ a : Fin 2, win1_7.index t a * S4000x64.size a ≤ (i a).val ∧ (i a).val < win1_7.index t a * S4000x64.size a + S4000x64.size a := by
  show i ∈ ((View.whole main_v18).slice (win1_7.rect t)).set ↔ _
  rw [View.set_slice_whole, Rect.mem_set_unit]
  exact Iff.rfl

/-- Row r of the array is written back by point r / 4000. -/
theorem cover (i : S800000x64.Idx) : ∃ t : Fin cfg1.N, (cfg1.win 7).flush t = true ∧ i ∈ ((cfg1.win 7).blk t).view.set := by
  have hN : grid1.N = 200 := N_1
  have hr : (i 0).val < 800000 := (i 0).isLt
  have hq : (i 1).val < 64 := (i 1).isLt
  obtain ⟨t, ht⟩ : ∃ t : Fin cfg1.N, t.val = (i 0).val / 4000 := ⟨⟨(i 0).val / 4000, by show _ < grid1.N; omega⟩, rfl⟩
  obtain ⟨oR, oC, hiR, hiC, hjR, hjC, dR, dC, wsR, wsC, wdR, wdC, wtR, wtC, mbR, mbC⟩ := idx_facts t
  refine ⟨t, flush1_7 t, ?_⟩
  rw [mem_blk]
  intro a
  match a with
  | ⟨0, _⟩ => show win1_7.index t (0 : Fin 2) * 4000 ≤ (i 0).val ∧ (i 0).val < win1_7.index t (0 : Fin 2) * 4000 + 4000; rw [oR, ht]; omega
  | ⟨1, _⟩ => show win1_7.index t (1 : Fin 2) * 64 ≤ (i 1).val ∧ (i 1).val < win1_7.index t (1 : Fin 2) * 64 + 64; rw [oC]; omega

/-- The output array after the call's last grid point, as one function of the arrays the call was entered with. -/
theorem final1 (c : Dev nD) :
    (dat1 (F := Ideal) V c).arrAt 7 cfg1.N = message (n := 800000) (V c main_v12) (V c main_v13) (V c main_v11) (V c main_v14) (V c main_v15) (V c main_v16) (V c main_v17) :=
  (dat1 V c).arrAt_eq_of_cover 7 _ (fun t _ => flushed_eq V c t) cover

end Cert.KernelIdeal.Region1

end
-- ==== Proof.Region2.lean ====
/-
  The first layer's update call: ten blocks of 5000 node rows, each e · R + relu (e · U_s + a · U_a + b). After its last grid point the output array holds every node's new embedding.
-/
import proofs.«403838_j86191403696812_1_alg».proof.Proof.Gen.KernelIdeal.Frame
import proofs.«403838_j86191403696812_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.SL.Sem Idealize.ShloMosaic.ValueIdx
open Cert.KernelIdeal Cert.KernelIdeal.Gen Cert.Net
open scoped BigOperators

variable (V : (c : Dev nD) → (b : Ref sig .tc) → Buf (Elt Ideal) ((c : Thread nD τ).loc b))

example : Pipeline.arrRef spec2 0 = main_v5 := rfl
example : Pipeline.arrRef spec2 1 = main_v21 := rfl
example : Pipeline.arrRef spec2 2 = main_arg6 := rfl
example : Pipeline.arrRef spec2 3 = main_v22 := rfl
example : Pipeline.arrRef spec2 4 = main_v23 := rfl
example : Pipeline.arrRef spec2 5 = main_v24 := rfl
example : Pipeline.arrRef spec2 6 = main_v25 := rfl

/-! ## The block product at an index -/

/-- The left operand's row is the output's row. -/
theorem lhs_dot_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column is the contraction index. -/
theorem lhs_dot_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's row is the contraction index. -/
theorem rhs_dot_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right operand's column is the output's column. -/
theorem rhs_dot_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A 5000 × 64 block times a 64 × 64 matrix, accumulated from zero, read at (p, q): the sum over k of the products. -/
theorem matmul_at {φ ψ : FTy} (a : FVec Ideal S5000x64 φ) (b : FVec Ideal S64x64 ψ) (p : Fin 5000) (q : Fin 64) :
    matmul dot_S5000x64_S64x64_S5000x64_1_0_0_1_n_n none a b (constant S5000x64 .f32 0x00000000#32) (ix2 p q)
      = ∑ k : Fin 64, a (ix2 p k) * b (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun ax => Fin.ext (by
    match ax with
    | ⟨0, _⟩ => exact lhs_dot_0 _ _
    | ⟨1, _⟩ => exact (lhs_dot_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun ax => Fin.ext (by
    match ax with
    | ⟨0, _⟩ => exact (rhs_dot_0 _ _).trans hk
    | ⟨1, _⟩ => exact rhs_dot_1 _ _)
  rw [el, er]

/-! ## The payload is the network's update map at block size -/

/-- The body's one stored value: each node row's e · R + relu (e · U_s + a · U_a + b). -/
theorem pay_eq (e a : Vec Ideal S5000x64 .f32) (rp us ua : Vec Ideal S64x64 .f32) (ub : Vec Ideal S1x64 .f32) :
    k2_pay1 e a rp us ua ub = update (n := 5000) e a rp us ua ub := by
  funext j
  obtain ⟨p, q, rfl⟩ : ∃ (p : Fin 5000) (q : Fin 64), j = ix2 p q := ⟨j 0, j 1, eq_ix2 j⟩
  unfold k2_pay1 update
  simp only [shapeCast_self]
  rw [addf_apply, maximumf_apply, addf_apply, addf_apply, matmul_at, matmul_at, matmul_at,
    broadcastTo_1b_ab_apply, broadcast_apply]
  simp only [truncf_apply]
  show _ + max _ (Ideal.ofBits .f32 0x00000000#32) = _
  rw [Ideal.ofBits_zero_f32]

/-! ## From blocks to the array -/

theorem hz : (![0, 0] : Fin 2 → Nat) = fun _ => 0 := funext fun a => by
  match a with
  | ⟨0, _⟩ => rfl
  | ⟨1, _⟩ => rfl

/-- The printed index maps over the grid: the three row-blocked windows sit at block (t, 0) at point t, the four
    whole-array windows at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- A row of the update depends on that row of the embeddings and of the summed messages only. -/
theorem update_row_congr {n n' : Nat} (e a : Mat n 64) (e' a' : Mat n' 64) (rp us ua : Mat 64 64) (ub : Mat 1 64)
    (r : Fin n) (r' : Fin n') (q : Fin 64)
    (he : ∀ k : Fin 64, e (ix2 r k) = e' (ix2 r' k)) (ha : ∀ k : Fin 64, a (ix2 r k) = a' (ix2 r' k)) :
    update e a rp us ua ub (ix2 r q) = update e' a' rp us ua ub (ix2 r' q) := by
  show (∑ k : Fin 64, e (ix2 r k) * rp (ix2 k q))
      + max (((∑ k : Fin 64, e (ix2 r k) * us (ix2 k q)) + (∑ k : Fin 64, a (ix2 r k) * ua (ix2 k q))) + ub (ix2 (0 : Fin 1) q)) 0
    = (∑ k : Fin 64, e' (ix2 r' k) * rp (ix2 k q))
      + max (((∑ k : Fin 64, e' (ix2 r' k) * us (ix2 k q)) + (∑ k : Fin 64, a' (ix2 r' k) * ua (ix2 k q))) + ub (ix2 (0 : Fin 1) q)) 0
  simp only [he, ha]

/-- The embeddings' block at point t, read at (p, k): the array's row 5000 t + p. -/
theorem read_embed_rows (c : Dev nD) (t : Fin cfg2.N) (p : Fin 5000) (k : Fin 64) (P : Fin 50000) (hP : P.val = t.val * 5000 + p.val) :
    (iblk2 V c 0 t : Vec Ideal S5000x64 .f32) (ix2 p k) = (V c main_v5 : Vec Ideal S50000x64 .f32) (ix2 P k) := by
  obtain ⟨e0, e1, -⟩ := idx_facts t
  unfold iblk2
  rw [View.read_apply]
  show V c main_v5 _ = V c main_v5 _
  congr 1
  funext ax
  apply Fin.ext
  match ax with
  | ⟨0, _⟩ => show win2_0.index t (0 : Fin 2) * 5000 + 1 * p.val = P.val; rw [e0, hP]; omega
  | ⟨1, _⟩ => show win2_0.index t (1 : Fin 2) * 64 + 1 * k.val = k.val; rw [e1]; omega

/-- The summed messages' block at point t, read at (p, k): the array's row 5000 t + p. -/
theorem read_agg_rows (c : Dev nD) (t : Fin cfg2.N) (p : Fin 5000) (k : Fin 64) (P : Fin 50000) (hP : P.val = t.val * 5000 + p.val) :
    (iblk2 V c 1 t : Vec Ideal S5000x64 .f32) (ix2 p k) = (V c main_v21 : Vec Ideal S50000x64 .f32) (ix2 P k) := by
  obtain ⟨-, -, e0, e1, -⟩ := idx_facts t
  unfold iblk2
  rw [View.read_apply]
  show V c main_v21 _ = V c main_v21 _
  congr 1
  funext ax
  apply Fin.ext
  match ax with
  | ⟨0, _⟩ => show win2_1.index t (0 : Fin 2) * 5000 + 1 * p.val = P.val; rw [e0, hP]; omega
  | ⟨1, _⟩ => show win2_1.index t (1 : Fin 2) * 64 + 1 * k.val = k.val; rw [e1]; omega

/-- The residual weights' window is the whole 64 × 64 array at every point. -/
theorem read_residual (c : Dev nD) (t : Fin cfg2.N) : (iblk2 V c 2 t : Vec Ideal S64x64 .f32) = V c main_arg6 := by
  obtain ⟨-, -, -, -, e0, e1, -⟩ := idx_facts t
  funext y
  unfold iblk2
  rw [View.read_apply]
  show V c main_arg6 _ = V c main_arg6 y
  congr 1
  funext ax
  apply Fin.ext
  match ax with
  | ⟨0, _⟩ => show win2_2.index t (0 : Fin 2) * 64 + 1 * (y 0).val = (y 0).val; rw [e0]; omega
  | ⟨1, _⟩ => show win2_2.index t (1 : Fin 2) * 64 + 1 * (y 1).val = (y 1).val; rw [e1]; omega

/-- The embedding half of the update weights: the whole 64 × 64 array at every point. -/
theorem read_self_weights (c : Dev nD) (t : Fin cfg2.N) : (iblk2 V c 3 t : Vec Ideal S64x64 .f32) = V c main_v22 := by
  obtain ⟨-, -, -, -, -, -, e0, e1, -⟩ := idx_facts t
  funext y
  unfold iblk2
  rw [View.read_apply]
  show V c main_v22 _ = V c main_v22 y
  congr 1
  funext ax
  apply Fin.ext
  match ax with
  | ⟨0, _⟩ => show win2_3.index t (0 : Fin 2) * 64 + 1 * (y 0).val = (y 0).val; rw [e0]; omega
  | ⟨1, _⟩ => show win2_3.index t (1 : Fin 2) * 64 + 1 * (y 1).val = (y 1).val; rw [e1]; omega

/-- The message half of the update weights: the whole 64 × 64 array at every point. -/
theorem read_agg_weights (c : Dev nD) (t : Fin cfg2.N) : (iblk2 V c 4 t : Vec Ideal S64x64 .f32) = V c main_v23 := by
  obtain ⟨-, -, -, -, -, -, -, -, e0, e1, -⟩ := idx_facts t
  funext y
  unfold iblk2
  rw [View.read_apply]
  show V c main_v23 _ = V c main_v23 y
  congr 1
  funext ax
  apply Fin.ext
  match ax with
  | ⟨0, _⟩ => show win2_4.index t (0 : Fin 2) * 64 + 1 * (y 0).val = (y 0).val; rw [e0]; omega
  | ⟨1, _⟩ => show win2_4.index t (1 : Fin 2) * 64 + 1 * (y 1).val = (y 1).val; rw [e1]; omega

/-- The bias row: the whole 1 × 64 array at every point. -/
theorem read_bias (c : Dev nD) (t : Fin cfg2.N) : (iblk2 V c 5 t : Vec Ideal S1x64 .f32) = V c main_v24 := by
  obtain ⟨-, -, -, -, -, -, -, -, -, -, e0, e1, -⟩ := idx_facts t
  funext y
  unfold iblk2
  rw [View.read_apply]
  show V c main_v24 _ = V c main_v24 y
  congr 1
  funext ax
  apply Fin.ext
  match ax with
  | ⟨0, _⟩ => show win2_5.index t (0 : Fin 2) * 1 + 1 * (y 0).val = (y 0).val; rw [e0]; omega
  | ⟨1, _⟩ => show win2_5.index t (1 : Fin 2) * 64 + 1 * (y 1).val = (y 1).val; rw [e1]; omega

/-- Block t of the update of the whole arrays is the update of the blocks: row p of the block is row 5000 t + p. -/
theorem update_blk (c : Dev nD) (t : Fin cfg2.N) (rp us ua : Mat 64 64) (ub : Mat 1 64) (y : S5000x64.Idx) :
    update (n := 5000) (iblk2 V c 0 t) (iblk2 V c 1 t) rp us ua ub y
      = update (n := 50000) (V c main_v5) (V c main_v21) rp us ua ub (((cfg2.win 6).blk t).view.emb y) := by
  obtain ⟨p, q, rfl⟩ : ∃ (p : Fin 5000) (q : Fin 64), y = ix2 p q := ⟨y 0, y 1, eq_ix2 y⟩
  have ht : t.val < 10 := lt_of_lt_of_eq t.isLt N_2
  obtain ⟨-, -, -, -, -, -, -, -, -, -, -, -, e0, e1⟩ := idx_facts t
  have hemb : ((cfg2.win 6).blk t).view.emb (ix2 p q)
      = (ix2 (⟨t.val * 5000 + p.val, by have := p.isLt; omega⟩ : Fin 50000) q : S50000x64.Idx) := by
    funext ax
    apply Fin.ext
    match ax with
    | ⟨0, _⟩ => show win2_6.index t (0 : Fin 2) * 5000 + 1 * p.val = t.val * 5000 + p.val; rw [e0]; omega
    | ⟨1, _⟩ => show win2_6.index t (1 : Fin 2) * 64 + 1 * q.val = q.val; rw [e1]; omega
  rw [hemb]
  exact update_row_congr _ _ _ _ rp us ua ub p _ q (fun k => read_embed_rows V c t p k _ rfl) (fun k => read_agg_rows V c t p k _ rfl)

/-- What point t writes back is block t of the update of the arrays the call was entered with. -/
theorem flushed_eq (c : Dev nD) (t : Fin cfg2.N) :
    (dat2 V c).flushed 6 t = ((cfg2.win 6).blk t).view.read (Elt Ideal)
      (update (n := 50000) (V c main_v5) (V c main_v21) (V c main_arg6) (V c main_v22) (V c main_v23) (V c main_v24)) := by
  show (cfg2.win 6).cut (grid2.coords t) ((dat2 V c).after 6 t) = _
  rw [after2_6]
  unfold out2_6
  rw [View.canon_unit_zero hz]
  simp only [View.ld_unit_zero (S := S5000x64) hz, View.ld_unit_zero (S := S64x64) hz, View.ld_unit_zero (S := S1x64) hz]
  rw [pay_eq, read_residual, read_self_weights, read_agg_weights, read_bias]
  funext y
  show update (n := 5000) (iblk2 V c 0 t) (iblk2 V c 1 t) (V c main_arg6) (V c main_v22) (V c main_v23) (V c main_v24) y
    = update (n := 50000) (V c main_v5) (V c main_v21) (V c main_arg6) (V c main_v22) (V c main_v23) (V c main_v24) (((cfg2.win 6).blk t).view.emb y)
  exact update_blk V c t _ _ _ _ y

/-- An index of the output array lies in point t's block iff each coordinate is in the block's range on its axis. -/
theorem mem_blk (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v25).slice (win2_6.rect t)).set ↔ _
  rw [View.set_slice_whole, Rect.mem_set_unit]
  exact Iff.rfl

/-- Every row lies in one of the ten blocks: row r in the block of point r / 5000. -/
theorem cover (i : S50000x64.Idx) :
    ∃ t : Fin cfg2.N, (cfg2.win 6).flush t = true ∧ i ∈ ((cfg2.win 6).blk t).view.set := by
  have h0 : (i 0).val < 50000 := (i 0).isLt
  have h1 : (i 1).val < 64 := (i 1).isLt
  obtain ⟨t, ht⟩ : ∃ t : Fin cfg2.N, t.val = (i 0).val / 5000 :=
    ⟨⟨(i 0).val / 5000, lt_of_lt_of_eq (by omega : (i 0).val / 5000 < 10) N_2.symm⟩, rfl⟩
  obtain ⟨-, -, -, -, -, -, -, -, -, -, -, -, e0, e1⟩ := idx_facts t
  refine ⟨t, flush2_6 t, ?_⟩
  rw [mem_blk]
  intro a
  match a with
  | ⟨0, _⟩ =>
    show win2_6.index t (0 : Fin 2) * 5000 ≤ (i 0).val ∧ (i 0).val < win2_6.index t (0 : Fin 2) * 5000 + 5000
    rw [e0]; omega
  | ⟨1, _⟩ =>
    show win2_6.index t (1 : Fin 2) * 64 ≤ (i 1).val ∧ (i 1).val < win2_6.index t (1 : Fin 2) * 64 + 64
    rw [e1]; omega

/-- The output array after the call's last grid point, as one function of the arrays the call was entered with. -/
theorem final2 (c : Dev nD) :
    (dat2 (F := Ideal) V c).arrAt 6 cfg2.N = update (n := 50000) (V c main_v5) (V c main_v21) (V c main_arg6) (V c main_v22) (V c main_v23) (V c main_v24) := by
  exact (dat2 V c).arrAt_eq_of_cover 6 _ (fun t _ => flushed_eq V c t) cover

end Cert.KernelIdeal.Region2

end
-- ==== Proof.KernelLayer1.lean ====
/-
  The first message-passing layer of the kernel's program, from the contents of the buffers at the embedding call's
  exit to the contents at the update call's exit: the host operations select rows, take the squared distances and cut
  the weight matrices; the message call computes every edge's message; the host sums the messages into their target
  nodes; the update call computes every node's new embedding. Together they are one layer of the network.
-/
import proofs.«403838_j86191403696812_1_alg».proof.Proof.Gen.KernelIdeal.Frame
import proofs.«403838_j86191403696812_1_alg».proof.Proof.HostStretch1
import proofs.«403838_j86191403696812_1_alg».proof.Proof.Region1
import proofs.«403838_j86191403696812_1_alg».proof.Proof.Region2
import Idealize.ShloMosaic.Lib.StableHlo.Run
import Idealize.ShloMosaic.Lib.ValueIdx
import Idealize.ShloMosaic.Lib.ValueLayout

set_option maxRecDepth 16384

noncomputable section

namespace Cert.KernelIdeal.Layer1

open Idealize.ShloMosaic Idealize.ShloMosaic.TcCoe Idealize.SL.Sem Idealize.ShloMosaic.ValueIdx
open Cert.KernelIdeal Cert.KernelIdeal.Gen Cert.Net

/-! ## The cuts of the weight matrices and the biases, as the network names them -/

/-- A band of k rows cut out of a matrix from row off on is those rows of the matrix: entry (i, j) of the band is
    entry (off + i, j) of the matrix. -/
theorem slice_eq_rowsFrom {N n : Nat} (k off : Nat) (hk : off + k ≤ N) (a : Mat N n)
    (h : (⟨2, ![N, n]⟩ : Shape).Slices ![off, 0] ⟨2, ![k, n]⟩) :
    extractStridedSlice ⟨2, ![k, n]⟩ ![off, 0] a h = rowsFrom k off hk a := by
  funext i
  conv_lhs => rw [eq_ix2 i]
  exact slice2_axis0_eq off a h (i 0) (i 1)

/-- A vector reshaped to a matrix of one row is that row: entry (0, j) of the matrix is entry j of the vector. -/
theorem cast_eq_asRow {n : Nat} (v : Row n) (h : (⟨1, ![n]⟩ : Shape).ShapeCasts ⟨2, ![1, n]⟩) :
    shapeCast ⟨2, ![1, n]⟩ v h = asRow v := by
  funext i
  conv_lhs => rw [eq_ix2 i]
  exact shapeCast_a_1a_apply v h (i 0) (i 1)

/-- One layer over the kernel's host operations, written out: the update of the embeddings by the scatter-sum of
    the messages, each message from the two selections of embeddings and the squared distance of the two selections
    of positions. -/
theorem layer_H (e : Mat 50000 64) (x : Mat 50000 3) (row col : Ids 800000) (rp : Mat 64 64) (mw : Mat 129 64)
    (mb : Row 64) (uw : Mat 128 64) (ub : Row 64) :
    layer Fns.H e x row col rp mw mb uw ub
      = update e
          (Fns.scat col (message (Fns.take64 e row) (Fns.take64 e col) (Fns.dist (Fns.take3 x row) (Fns.take3 x col))
            (rowsFrom 64 0 (by decide) mw) (rowsFrom 64 64 (by decide) mw) (rowsFrom 1 128 (by decide) mw) (asRow mb)))
          rp (rowsFrom 64 0 (by decide) uw) (rowsFrom 64 64 (by decide) uw) (asRow ub) := by
  simp only [layer, Fns.H]

/-! ## A buffer no operation of a stretch writes

Every operation of a stretch writes one buffer, its result; a buffer that is none of these holds after the stretch
what it held before. One stretch at a time. -/

/-- Closes `after ops W b = W b` for a stretch `ops` none of whose operations has `b` as its result: operation by
    operation, `b` is another reference than the result. -/
local macro "keeps" : tactic =>
  `(tactic| exact StableHlo.after_of_forall_not_mem _ _ (List.forall_iff_forall_mem.mp (by
      repeat' apply And.intro
      all_goals exact fun h => StableHlo.devRef_ne_of_ne (by decide) (Finset.mem_singleton.mp h))))

variable (m : (ℓ : Loc nD τ sig) → Buf (Elt Ideal) ℓ) (ρ : Dev nD → PrngReg)

/-! ### The layer's inputs, carried from the layer's entry (the previous call's exit) to where they are read -/

/-- The node embeddings after the first three stretches (the two selections of positions and their squared distance). -/
theorem emb_s3 (c : Dev nD) : W5 m ρ c (Proc.devRef .tc main_v5) = W2 m ρ c (Proc.devRef .tc main_v5) :=
  calc W5 m ρ c (Proc.devRef .tc main_v5)
    _ = W4 m ρ c (Proc.devRef .tc main_v5) := by keeps
    _ = W3 m ρ c (Proc.devRef .tc main_v5) := by keeps
    _ = W2 m ρ c (Proc.devRef .tc main_v5) := by keeps

/-- The node embeddings after the selection of the source embeddings. -/
theorem emb_s4 (c : Dev nD) : W6 m ρ c (Proc.devRef .tc main_v5) = W2 m ρ c (Proc.devRef .tc main_v5) :=
  calc W6 m ρ c (Proc.devRef .tc main_v5)
    _ = W5 m ρ c (Proc.devRef .tc main_v5) := by keeps
    _ = W2 m ρ c (Proc.devRef .tc main_v5) := emb_s3 m ρ c

/-- The node embeddings at the update call's entry: no stretch writes them, and the message call does not. -/
theorem emb_u (c : Dev nD) : W10 m ρ c (Proc.devRef .tc main_v5) = W2 m ρ c (Proc.devRef .tc main_v5) :=
  calc W10 m ρ c (Proc.devRef .tc main_v5)
    _ = W9 m ρ c (Proc.devRef .tc main_v5) := by keeps
    _ = W8 m ρ c (Proc.devRef .tc main_v5) := W9_of_ne m ρ c main_v5 (by decide)
    _ = W7 m ρ c (Proc.devRef .tc main_v5) := by keeps
    _ = W6 m ρ c (Proc.devRef .tc main_v5) := by keeps
    _ = W2 m ρ c (Proc.devRef .tc main_v5) := emb_s4 m ρ c

/-- The source indices after the first three stretches. -/
theorem row_s3 (c : Dev nD) : W5 m ρ c (Proc.devRef .tc main_v1) = W2 m ρ c (Proc.devRef .tc main_v1) :=
  calc W5 m ρ c (Proc.devRef .tc main_v1)
    _ = W4 m ρ c (Proc.devRef .tc main_v1) := by keeps
    _ = W3 m ρ c (Proc.devRef .tc main_v1) := by keeps
    _ = W2 m ρ c (Proc.devRef .tc main_v1) := by keeps

/-- The target indices after the first stretch. -/
theorem col_s1 (c : Dev nD) : W3 m ρ c (Proc.devRef .tc main_v3) = W2 m ρ c (Proc.devRef .tc main_v3) :=
  calc W3 m ρ c (Proc.devRef .tc main_v3)
    _ = W2 m ρ c (Proc.devRef .tc main_v3) := by keeps

/-- The target indices after the selection of the source embeddings. -/
theorem col_s4 (c : Dev nD) : W6 m ρ c (Proc.devRef .tc main_v3) = W2 m ρ c (Proc.devRef .tc main_v3) :=
  calc W6 m ρ c (Proc.devRef .tc main_v3)
    _ = W5 m ρ c (Proc.devRef .tc main_v3) := by keeps
    _ = W4 m ρ c (Proc.devRef .tc main_v3) := by keeps
    _ = W3 m ρ c (Proc.devRef .tc main_v3) := by keeps
    _ = W2 m ρ c (Proc.devRef .tc main_v3) := col_s1 m ρ c

/-- The target indices at the message call's exit. -/
theorem col_m (c : Dev nD) : W9 m ρ c (Proc.devRef .tc main_v3) = W2 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := by keeps
    _ = W6 m ρ c (Proc.devRef .tc main_v3) := by keeps
    _ = W2 m ρ c (Proc.devRef .tc main_v3) := col_s4 m ρ c

/-- The positions after the first stretch. -/
theorem pos_s1 (c : Dev nD) : W3 m ρ c (Proc.devRef .tc main_arg0) = W2 m ρ c (Proc.devRef .tc main_arg0) :=
  calc W3 m ρ c (Proc.devRef .tc main_arg0)
    _ = W2 m ρ c (Proc.devRef .tc main_arg0) := by keeps

/-- The message weights after the five stretches before they are cut. -/
theorem mw_s5 (c : Dev nD) : W7 m ρ c (Proc.devRef .tc main_arg7) = W2 m ρ c (Proc.devRef .tc main_arg7) :=
  calc W7 m ρ c (Proc.devRef .tc main_arg7)
    _ = W6 m ρ c (Proc.devRef .tc main_arg7) := by keeps
    _ = W5 m ρ c (Proc.devRef .tc main_arg7) := by keeps
    _ = W4 m ρ c (Proc.devRef .tc main_arg7) := by keeps
    _ = W3 m ρ c (Proc.devRef .tc main_arg7) := by keeps
    _ = W2 m ρ c (Proc.devRef .tc main_arg7) := by keeps

/-- The message bias after the five stretches before it is reshaped. -/
theorem mb_s5 (c : Dev nD) : W7 m ρ c (Proc.devRef .tc main_arg8) = W2 m ρ c (Proc.devRef .tc main_arg8) :=
  calc W7 m ρ c (Proc.devRef .tc main_arg8)
    _ = W6 m ρ c (Proc.devRef .tc main_arg8) := by keeps
    _ = W5 m ρ c (Proc.devRef .tc main_arg8) := by keeps
    _ = W4 m ρ c (Proc.devRef .tc main_arg8) := by keeps
    _ = W3 m ρ c (Proc.devRef .tc main_arg8) := by keeps
    _ = W2 m ρ c (Proc.devRef .tc main_arg8) := by keeps

/-- The residual weights at the update call's entry. -/
theorem res_u (c : Dev nD) : W10 m ρ c (Proc.devRef .tc main_arg6) = W2 m ρ c (Proc.devRef .tc main_arg6) :=
  calc W10 m ρ c (Proc.devRef .tc main_arg6)
    _ = W9 m ρ c (Proc.devRef .tc main_arg6) := by keeps
    _ = W8 m ρ c (Proc.devRef .tc main_arg6) := W9_of_ne m ρ c main_arg6 (by decide)
    _ = W7 m ρ c (Proc.devRef .tc main_arg6) := by keeps
    _ = W6 m ρ c (Proc.devRef .tc main_arg6) := by keeps
    _ = W5 m ρ c (Proc.devRef .tc main_arg6) := by keeps
    _ = W4 m ρ c (Proc.devRef .tc main_arg6) := by keeps
    _ = W3 m ρ c (Proc.devRef .tc main_arg6) := by keeps
    _ = W2 m ρ c (Proc.devRef .tc main_arg6) := by keeps

/-- The update weights at the message call's exit. -/
theorem uw_m (c : Dev nD) : W9 m ρ c (Proc.devRef .tc main_arg9) = W2 m ρ c (Proc.devRef .tc main_arg9) :=
  calc W9 m ρ c (Proc.devRef .tc main_arg9)
    _ = W8 m ρ c (Proc.devRef .tc main_arg9) := W9_of_ne m ρ c main_arg9 (by decide)
    _ = W7 m ρ c (Proc.devRef .tc main_arg9) := by keeps
    _ = W6 m ρ c (Proc.devRef .tc main_arg9) := by keeps
    _ = W5 m ρ c (Proc.devRef .tc main_arg9) := by keeps
    _ = W4 m ρ c (Proc.devRef .tc main_arg9) := by keeps
    _ = W3 m ρ c (Proc.devRef .tc main_arg9) := by keeps
    _ = W2 m ρ c (Proc.devRef .tc main_arg9) := by keeps

/-- The update bias at the message call's exit. -/
theorem ub_m (c : Dev nD) : W9 m ρ c (Proc.devRef .tc main_arg10) = W2 m ρ c (Proc.devRef .tc main_arg10) :=
  calc W9 m ρ c (Proc.devRef .tc main_arg10)
    _ = W8 m ρ c (Proc.devRef .tc main_arg10) := W9_of_ne m ρ c main_arg10 (by decide)
    _ = W7 m ρ c (Proc.devRef .tc main_arg10) := by keeps
    _ = W6 m ρ c (Proc.devRef .tc main_arg10) := by keeps
    _ = W5 m ρ c (Proc.devRef .tc main_arg10) := by keeps
    _ = W4 m ρ c (Proc.devRef .tc main_arg10) := by keeps
    _ = W3 m ρ c (Proc.devRef .tc main_arg10) := by keeps
    _ = W2 m ρ c (Proc.devRef .tc main_arg10) := by keeps

/-! ### What the stretches compute, over the contents at the layer's entry -/

/-- The positions of the source nodes, after the first two stretches. -/
theorem srcPos_s2 (c : Dev nD) :
    W4 m ρ c (Proc.devRef .tc main_v6) = Fns.take3 (W2 m ρ c (Proc.devRef .tc main_arg0)) (W2 m ρ c (Proc.devRef .tc main_v1)) :=
  calc W4 m ρ c (Proc.devRef .tc main_v6)
    _ = W3 m ρ c (Proc.devRef .tc main_v6) := by keeps
    _ = _ := Host1.src_pos (W2 m ρ c)

/-- The positions of the target nodes, after the first two stretches. -/
theorem dstPos_s2 (c : Dev nD) :
    W4 m ρ c (Proc.devRef .tc main_v7) = Fns.take3 (W2 m ρ c (Proc.devRef .tc main_arg0)) (W2 m ρ c (Proc.devRef .tc main_v3)) :=
  calc W4 m ρ c (Proc.devRef .tc main_v7)
    _ = Fns.take3 (W3 m ρ c (Proc.devRef .tc main_arg0)) (W3 m ρ c (Proc.devRef .tc main_v3)) := Host1.dst_pos (W3 m ρ c)
    _ = _ := by rw [pos_s1, col_s1]

/-- The squared distance of the two selections of positions, after the third stretch. -/
theorem dist_s3 (c : Dev nD) :
    W5 m ρ c (Proc.devRef .tc main_v11)
      = Fns.dist (Fns.take3 (W2 m ρ c (Proc.devRef .tc main_arg0)) (W2 m ρ c (Proc.devRef .tc main_v1))) (Fns.take3 (W2 m ρ c (Proc.devRef .tc main_arg0)) (W2 m ρ c (Proc.devRef .tc main_v3))) :=
  calc W5 m ρ c (Proc.devRef .tc main_v11)
    _ = Fns.dist (W4 m ρ c (Proc.devRef .tc main_v6)) (W4 m ρ c (Proc.devRef .tc main_v7)) := Host1.sq_dist (W4 m ρ c)
    _ = _ := by rw [srcPos_s2, dstPos_s2]

/-- The squared distance at the message call's entry. -/
theorem dist_s6 (c : Dev nD) :
    W8 m ρ c (Proc.devRef .tc main_v11)
      = Fns.dist (Fns.take3 (W2 m ρ c (Proc.devRef .tc main_arg0)) (W2 m ρ c (Proc.devRef .tc main_v1))) (Fns.take3 (W2 m ρ c (Proc.devRef .tc main_arg0)) (W2 m ρ c (Proc.devRef .tc main_v3))) :=
  calc W8 m ρ c (Proc.devRef .tc main_v11)
    _ = W7 m ρ c (Proc.devRef .tc main_v11) := by keeps
    _ = W6 m ρ c (Proc.devRef .tc main_v11) := by keeps
    _ = W5 m ρ c (Proc.devRef .tc main_v11) := by keeps
    _ = _ := dist_s3 m ρ c

/-- The embeddings of the source nodes, after the fourth stretch. -/
theorem src_s4 (c : Dev nD) :
    W6 m ρ c (Proc.devRef .tc main_v12) = Fns.take64 (W2 m ρ c (Proc.devRef .tc main_v5)) (W2 m ρ c (Proc.devRef .tc main_v1)) :=
  calc W6 m ρ c (Proc.devRef .tc main_v12)
    _ = Fns.take64 (W5 m ρ c (Proc.devRef .tc main_v5)) (W5 m ρ c (Proc.devRef .tc main_v1)) := Host1.src_emb (W5 m ρ c)
    _ = _ := by rw [emb_s3, row_s3]

/-- The embeddings of the source nodes at the message call's entry. -/
theorem src_s6 (c : Dev nD) :
    W8 m ρ c (Proc.devRef .tc main_v12) = Fns.take64 (W2 m ρ c (Proc.devRef .tc main_v5)) (W2 m ρ c (Proc.devRef .tc main_v1)) :=
  calc W8 m ρ c (Proc.devRef .tc main_v12)
    _ = W7 m ρ c (Proc.devRef .tc main_v12) := by keeps
    _ = W6 m ρ c (Proc.devRef .tc main_v12) := by keeps
    _ = _ := src_s4 m ρ c

/-- The embeddings of the target nodes, after the fifth stretch. -/
theorem dst_s5 (c : Dev nD) :
    W7 m ρ c (Proc.devRef .tc main_v13) = Fns.take64 (W2 m ρ c (Proc.devRef .tc main_v5)) (W2 m ρ c (Proc.devRef .tc main_v3)) :=
  calc W7 m ρ c (Proc.devRef .tc main_v13)
    _ = Fns.take64 (W6 m ρ c (Proc.devRef .tc main_v5)) (W6 m ρ c (Proc.devRef .tc main_v3)) := Host1.dst_emb (W6 m ρ c)
    _ = _ := by rw [emb_s4, col_s4]

/-- The embeddings of the target nodes at the message call's entry. -/
theorem dst_s6 (c : Dev nD) :
    W8 m ρ c (Proc.devRef .tc main_v13) = Fns.take64 (W2 m ρ c (Proc.devRef .tc main_v5)) (W2 m ρ c (Proc.devRef .tc main_v3)) :=
  calc W8 m ρ c (Proc.devRef .tc main_v13)
    _ = W7 m ρ c (Proc.devRef .tc main_v13) := by keeps
    _ = _ := dst_s5 m ρ c

/-- Rows 0 to 63 of the message weights at the message call's entry. -/
theorem msgWsrc_s6 (c : Dev nD) :
    W8 m ρ c (Proc.devRef .tc main_v14) = rowsFrom (N := 129) (m := 64) 64 0 (by decide) (W2 m ρ c (Proc.devRef .tc main_arg7)) :=
  calc W8 m ρ c (Proc.devRef .tc main_v14)
    _ = extractStridedSlice S64x64 ![0, 0] (W7 m ρ c (Proc.devRef .tc main_arg7)) Facts₀.slices_S129x64_S64x64_0_0 := Host1.msg_w_src (W7 m ρ c)
    _ = rowsFrom (N := 129) (m := 64) 64 0 (by decide) (W7 m ρ c (Proc.devRef .tc main_arg7)) := slice_eq_rowsFrom 64 0 _ _ _
    _ = _ := by rw [mw_s5]

/-- Rows 64 to 127 of the message weights at the message call's entry. -/
theorem msgWdst_s6 (c : Dev nD) :
    W8 m ρ c (Proc.devRef .tc main_v15) = rowsFrom (N := 129) (m := 64) 64 64 (by decide) (W2 m ρ c (Proc.devRef .tc main_arg7)) :=
  calc W8 m ρ c (Proc.devRef .tc main_v15)
    _ = extractStridedSlice S64x64 ![64, 0] (W7 m ρ c (Proc.devRef .tc main_arg7)) Facts₀.slices_S129x64_S64x64_64_0 := Host1.msg_w_dst (W7 m ρ c)
    _ = rowsFrom (N := 129) (m := 64) 64 64 (by decide) (W7 m ρ c (Proc.devRef .tc main_arg7)) := slice_eq_rowsFrom 64 64 _ _ _
    _ = _ := by rw [mw_s5]

/-- Row 128 of the message weights at the message call's entry. -/
theorem msgWdist_s6 (c : Dev nD) :
    W8 m ρ c (Proc.devRef .tc main_v16) = rowsFrom (N := 129) (m := 64) 1 128 (by decide) (W2 m ρ c (Proc.devRef .tc main_arg7)) :=
  calc W8 m ρ c (Proc.devRef .tc main_v16)
    _ = extractStridedSlice S1x64 ![128, 0] (W7 m ρ c (Proc.devRef .tc main_arg7)) Facts₀.slices_S129x64_S1x64_128_0 := Host1.msg_w_dist (W7 m ρ c)
    _ = rowsFrom (N := 129) (m := 64) 1 128 (by decide) (W7 m ρ c (Proc.devRef .tc main_arg7)) := slice_eq_rowsFrom 1 128 _ _ _
    _ = _ := by rw [mw_s5]

/-- The message bias as a one-row matrix at the message call's entry. -/
theorem msgBias_s6 (c : Dev nD) :
    W8 m ρ c (Proc.devRef .tc main_v17) = asRow (W2 m ρ c (Proc.devRef .tc main_arg8)) :=
  calc W8 m ρ c (Proc.devRef .tc main_v17)
    _ = shapeCast S1x64 (W7 m ρ c (Proc.devRef .tc main_arg8)) Facts₀.shapeCasts_S64_S1x64 := Host1.msg_bias (W7 m ρ c)
    _ = asRow (W7 m ρ c (Proc.devRef .tc main_arg8)) := cast_eq_asRow _ _
    _ = _ := by rw [mb_s5]

/-- Rows 0 to 63 of the update weights at the update call's entry. -/
theorem updWself_u (c : Dev nD) :
    W10 m ρ c (Proc.devRef .tc main_v22) = rowsFrom (N := 128) (m := 64) 64 0 (by decide) (W2 m ρ c (Proc.devRef .tc main_arg9)) :=
  calc W10 m ρ c (Proc.devRef .tc main_v22)
    _ = extractStridedSlice S64x64 ![0, 0] (W9 m ρ c (Proc.devRef .tc main_arg9)) Facts₀.slices_S128x64_S64x64_0_0 := Host1.upd_w_self (W9 m ρ c)
    _ = rowsFrom (N := 128) (m := 64) 64 0 (by decide) (W9 m ρ c (Proc.devRef .tc main_arg9)) := slice_eq_rowsFrom 64 0 _ _ _
    _ = _ := by rw [uw_m]

/-- Rows 64 to 127 of the update weights at the update call's entry. -/
theorem updWagg_u (c : Dev nD) :
    W10 m ρ c (Proc.devRef .tc main_v23) = rowsFrom (N := 128) (m := 64) 64 64 (by decide) (W2 m ρ c (Proc.devRef .tc main_arg9)) :=
  calc W10 m ρ c (Proc.devRef .tc main_v23)
    _ = extractStridedSlice S64x64 ![64, 0] (W9 m ρ c (Proc.devRef .tc main_arg9)) Facts₀.slices_S128x64_S64x64_64_0 := Host1.upd_w_agg (W9 m ρ c)
    _ = rowsFrom (N := 128) (m := 64) 64 64 (by decide) (W9 m ρ c (Proc.devRef .tc main_arg9)) := slice_eq_rowsFrom 64 64 _ _ _
    _ = _ := by rw [uw_m]

/-- The update bias as a one-row matrix at the update call's entry. -/
theorem updBias_u (c : Dev nD) :
    W10 m ρ c (Proc.devRef .tc main_v24) = asRow (W2 m ρ c (Proc.devRef .tc main_arg10)) :=
  calc W10 m ρ c (Proc.devRef .tc main_v24)
    _ = shapeCast S1x64 (W9 m ρ c (Proc.devRef .tc main_arg10)) Facts₀.shapeCasts_S64_S1x64 := Host1.upd_bias (W9 m ρ c)
    _ = asRow (W9 m ρ c (Proc.devRef .tc main_arg10)) := cast_eq_asRow _ _
    _ = _ := by rw [ub_m]

/-! ### The two calls -/

/-- The messages at the message call's exit: the call's output array, as the function of the arrays it was entered with. -/
theorem msg_m (c : Dev nD) :
    W9 m ρ c (Proc.devRef .tc main_v18)
      = message (n := 800000) (W8 m ρ c (Proc.devRef .tc main_v12)) (W8 m ρ c (Proc.devRef .tc main_v13)) (W8 m ρ c (Proc.devRef .tc main_v11))
          (W8 m ρ c (Proc.devRef .tc main_v14)) (W8 m ρ c (Proc.devRef .tc main_v15)) (W8 m ρ c (Proc.devRef .tc main_v16)) (W8 m ρ c (Proc.devRef .tc main_v17)) :=
  (W9_arr m ρ c 7).trans (Region1.final1 (V8 m ρ) c)

/-- The summed messages at the update call's entry. -/
theorem agg_u (c : Dev nD) :
    W10 m ρ c (Proc.devRef .tc main_v21) = Fns.scat (W9 m ρ c (Proc.devRef .tc main_v3)) (W9 m ρ c (Proc.devRef .tc main_v18)) :=
  Host1.aggregated (W9 m ρ c)

/-- The new embeddings at the update call's exit: the call's output array, as the function of the arrays it was entered with. -/
theorem upd_x (c : Dev nD) :
    W11 m ρ c (Proc.devRef .tc main_v25)
      = update (n := 50000) (W10 m ρ c (Proc.devRef .tc main_v5)) (W10 m ρ c (Proc.devRef .tc main_v21)) (W10 m ρ c (Proc.devRef .tc main_arg6))
          (W10 m ρ c (Proc.devRef .tc main_v22)) (W10 m ρ c (Proc.devRef .tc main_v23)) (W10 m ρ c (Proc.devRef .tc main_v24)) :=
  (W11_arr m ρ c 6).trans (Region2.final2 (V10 m ρ) c)

/-- The node embeddings at the update call's exit are one layer of the network over the embeddings, the positions, the
    two index vectors and the layer's weights as they stood at the embedding call's exit. -/
theorem out (c : Dev nD) :
    W11 m ρ c (Proc.devRef .tc main_v25)
      = layer Fns.H (W2 m ρ c (Proc.devRef .tc main_v5)) (W2 m ρ c (Proc.devRef .tc main_arg0)) (W2 m ρ c (Proc.devRef .tc main_v1)) (W2 m ρ c (Proc.devRef .tc main_v3))
          (W2 m ρ c (Proc.devRef .tc main_arg6)) (W2 m ρ c (Proc.devRef .tc main_arg7)) (W2 m ρ c (Proc.devRef .tc main_arg8))
          (W2 m ρ c (Proc.devRef .tc main_arg9)) (W2 m ρ c (Proc.devRef .tc main_arg10)) := by
  rw [layer_H, upd_x, emb_u, agg_u, col_m, msg_m, src_s6, dst_s6, dist_s6, msgWsrc_s6, msgWdst_s6, msgWdist_s6, msgBias_s6,
    res_u, updWself_u, updWagg_u, updBias_u]

end Cert.KernelIdeal.Layer1

end
-- ==== Proof.HostStretch2.lean ====
/-
  The host operations of the second layer, between the kernel calls, one stretch at a time: what a stretch leaves in
  the buffer it computes, as a function of the buffers it reads, from any contents of the buffers. The row selections,
  the squared distance and the scatter-sum are the functions the network is stated over; the slices of the weight
  matrices are left as the operations they are.
-/
import proofs.«403838_j86191403696812_1_alg».proof.Proof.Gen.KernelIdeal.Launch
import proofs.«403838_j86191403696812_1_alg».proof.Proof.KernelFns
import Idealize.ShloMosaic.Lib.StableHlo.Run

set_option maxRecDepth 16384

noncomputable section

namespace Cert.KernelIdeal.Host2

open Idealize.ShloMosaic Idealize.ShloMosaic.TcCoe Idealize.SL.Sem
open Cert.KernelIdeal Cert.KernelIdeal.Gen

variable (W : Valuation τ sig (Elt Ideal))

/-! ## Typed references

An operation of an outlined function reads and writes its buffers through references that carry the type of the value
held: a value is carried to the buffer's own type when written and back when read. Both carriages are the identity,
the two types being the same: a value written and read back is itself, a buffer of the program read at its own type
is its contents, and a value written to the result buffer is that value. -/

/-- A value carried to a typed reference's buffer and back is unchanged. -/
theorem ofBuf_toBuf {T : BufTy} (x : StableHlo.TRef sig T) (v : T.Contents (Elt Ideal)) : x.ofBuf (x.toBuf v) = v := by
  obtain ⟨r, rfl, _, _⟩ := x
  rfl

/-- The positions, read at their type, are the buffer's contents. -/
theorem in_pos (p1 p2 p3) : (StableHlo.TRef.of main_arg0 p1 p2 p3 : StableHlo.TRef sig ⟨S50000x3, .f32⟩).ofBuf (W (Proc.devRef .tc main_arg0))
    = W (Proc.devRef .tc main_arg0) := rfl

/-- The embeddings, read at their type, are the buffer's contents. -/
theorem in_emb (p1 p2 p3) : (StableHlo.TRef.of main_v25 p1 p2 p3 : StableHlo.TRef sig ⟨S50000x64, .f32⟩).ofBuf (W (Proc.devRef .tc main_v25))
    = W (Proc.devRef .tc main_v25) := rfl

/-- The source indices, read at their type, are the buffer's contents. -/
theorem in_src (p1 p2 p3) : (StableHlo.TRef.of main_v1 p1 p2 p3 : StableHlo.TRef sig ⟨S800000, .i32⟩).ofBuf (W (Proc.devRef .tc main_v1))
    = W (Proc.devRef .tc main_v1) := rfl

/-- The target indices, read at their type, are the buffer's contents. -/
theorem in_dst (p1 p2 p3) : (StableHlo.TRef.of main_v3 p1 p2 p3 : StableHlo.TRef sig ⟨S800000, .i32⟩).ofBuf (W (Proc.devRef .tc main_v3))
    = W (Proc.devRef .tc main_v3) := rfl

/-- A selection of positions written to the source-position buffer is that selection. -/
theorem out_src_pos (p1 p2 p3) (v : (⟨S800000x3, .f32⟩ : BufTy).Contents (Elt Ideal)) :
    (StableHlo.TRef.of main_v26 p1 p2 p3 : StableHlo.TRef sig ⟨S800000x3, .f32⟩).toBuf v = v := rfl

/-- A selection of positions written to the target-position buffer is that selection. -/
theorem out_dst_pos (p1 p2 p3) (v : (⟨S800000x3, .f32⟩ : BufTy).Contents (Elt Ideal)) :
    (StableHlo.TRef.of main_v27 p1 p2 p3 : StableHlo.TRef sig ⟨S800000x3, .f32⟩).toBuf v = v := rfl

/-- A selection of embeddings written to the source-embedding buffer is that selection. -/
theorem out_src_emb (p1 p2 p3) (v : (⟨S800000x64, .f32⟩ : BufTy).Contents (Elt Ideal)) :
    (StableHlo.TRef.of main_v32 p1 p2 p3 : StableHlo.TRef sig ⟨S800000x64, .f32⟩).toBuf v = v := rfl

/-- A selection of embeddings written to the target-embedding buffer is that selection. -/
theorem out_dst_emb (p1 p2 p3) (v : (⟨S800000x64, .f32⟩ : BufTy).Contents (Elt Ideal)) :
    (StableHlo.TRef.of main_v33 p1 p2 p3 : StableHlo.TRef sig ⟨S800000x64, .f32⟩).toBuf v = v := rfl

/-! ## The stretches

Each stretch's fold is evaluated at the buffer it computes: every operation's result at its own buffer is its function
of its operands' contents, and at any other buffer what was there. For a row selection the carriages are then removed
and what is left is, operation for operation, the selection's definition: the indices moved up where negative, the
range test reduced along the column, the gathered rows, and the not-a-number fill chosen where the test fails. -/

/-- The positions of the source nodes: the row selection of the positions by the source indices. -/
theorem src_pos : StableHlo.after hostOps3 W (Proc.devRef .tc main_v26) = Fns.take3 (W (Proc.devRef .tc main_arg0)) (W (Proc.devRef .tc main_v1)) := by
  after_results_simp
  simp only [ofBuf_toBuf, in_pos, in_src, out_src_pos]
  unfold Fns.take3 Fns.wrapIdx Fns.inRange
  with_reducible rfl

/-- The positions of the target nodes. -/
theorem dst_pos : StableHlo.after hostOps3_1 W (Proc.devRef .tc main_v27) = Fns.take3 (W (Proc.devRef .tc main_arg0)) (W (Proc.devRef .tc main_v3)) := by
  after_results_simp
  simp only [ofBuf_toBuf, in_pos, in_dst, out_dst_pos]
  unfold Fns.take3 Fns.wrapIdx Fns.inRange
  with_reducible rfl

/-- The squared distance of the two selections of positions. -/
theorem sq_dist : StableHlo.after hostOps3_2 W (Proc.devRef .tc main_v31) = Fns.dist (W (Proc.devRef .tc main_v26)) (W (Proc.devRef .tc main_v27)) := by
  after_results_simp
  rfl

/-- The embeddings of the source nodes. -/
theorem src_emb : StableHlo.after hostOps3_3 W (Proc.devRef .tc main_v32) = Fns.take64 (W (Proc.devRef .tc main_v25)) (W (Proc.devRef .tc main_v1)) := by
  after_results_simp
  simp only [ofBuf_toBuf, in_emb, in_src, out_src_emb]
  unfold Fns.take64 Fns.wrapIdx Fns.inRange
  with_reducible rfl

/-- The embeddings of the target nodes. -/
theorem dst_emb : StableHlo.after hostOps3_4 W (Proc.devRef .tc main_v33) = Fns.take64 (W (Proc.devRef .tc main_v25)) (W (Proc.devRef .tc main_v3)) := by
  after_results_simp
  simp only [ofBuf_toBuf, in_emb, in_dst, out_dst_emb]
  unfold Fns.take64 Fns.wrapIdx Fns.inRange
  with_reducible rfl

/-- Rows 0 to 63 of the message weights. -/
theorem msg_w_src : StableHlo.after hostOps3_5 W (Proc.devRef .tc main_v34)
    = extractStridedSlice S64x64 ![0, 0] (W (Proc.devRef .tc main_arg12)) Facts₀.slices_S129x64_S64x64_0_0 := by
  after_results_simp

/-- Rows 64 to 127 of the message weights. -/
theorem msg_w_dst : StableHlo.after hostOps3_5 W (Proc.devRef .tc main_v35)
    = extractStridedSlice S64x64 ![64, 0] (W (Proc.devRef .tc main_arg12)) Facts₀.slices_S129x64_S64x64_64_0 := by
  after_results_simp

/-- Row 128 of the message weights. -/
theorem msg_w_dist : StableHlo.after hostOps3_5 W (Proc.devRef .tc main_v36)
    = extractStridedSlice S1x64 ![128, 0] (W (Proc.devRef .tc main_arg12)) Facts₀.slices_S129x64_S1x64_128_0 := by
  after_results_simp

/-- The message bias as a one-row matrix. -/
theorem msg_bias : StableHlo.after hostOps3_5 W (Proc.devRef .tc main_v37)
    = shapeCast S1x64 (W (Proc.devRef .tc main_arg13)) Facts₀.shapeCasts_S64_S1x64 := by
  after_results_simp
  rfl

/-- The messages summed into their target nodes. -/
theorem aggregated : StableHlo.after hostOps4 W (Proc.devRef .tc main_v41) = Fns.scat (W (Proc.devRef .tc main_v3)) (W (Proc.devRef .tc main_v38)) := by
  after_results_simp
  rfl

/-- Rows 0 to 63 of the update weights. -/
theorem upd_w_self : StableHlo.after hostOps4 W (Proc.devRef .tc main_v42)
    = extractStridedSlice S64x64 ![0, 0] (W (Proc.devRef .tc main_arg14)) Facts₀.slices_S128x64_S64x64_0_0 := by
  after_results_simp

/-- Rows 64 to 127 of the update weights. -/
theorem upd_w_agg : StableHlo.after hostOps4 W (Proc.devRef .tc main_v43)
    = extractStridedSlice S64x64 ![64, 0] (W (Proc.devRef .tc main_arg14)) Facts₀.slices_S128x64_S64x64_64_0 := by
  after_results_simp

/-- The update bias as a one-row matrix. -/
theorem upd_bias : StableHlo.after hostOps4 W (Proc.devRef .tc main_v44)
    = shapeCast S1x64 (W (Proc.devRef .tc main_arg15)) Facts₀.shapeCasts_S64_S1x64 := by
  after_results_simp
  rfl

end Cert.KernelIdeal.Host2

end
-- ==== Proof.Region3.lean ====
/-
  The second layer's message call: two hundred blocks of 4000 edge rows, each relu (hi · W_s + hj · W_d + dist · w_t + b). After its last grid point the output array holds every edge's message.
-/
import proofs.«403838_j86191403696812_1_alg».proof.Proof.Gen.KernelIdeal.Frame
import proofs.«403838_j86191403696812_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Region3

open Idealize.ShloMosaic Idealize.ShloMosaic.TcCoe Idealize.SL.Sem Idealize.ShloMosaic.ValueIdx
open Cert.KernelIdeal Cert.KernelIdeal.Gen Cert.Net

variable (V : (c : Dev nD) → (b : Ref sig .tc) → Buf (Elt Ideal) ((c : Thread nD τ).loc b))

example : Pipeline.arrRef spec3 0 = main_v32 := rfl
example : Pipeline.arrRef spec3 1 = main_v33 := rfl
example : Pipeline.arrRef spec3 2 = main_v31 := rfl
example : Pipeline.arrRef spec3 3 = main_v34 := rfl
example : Pipeline.arrRef spec3 4 = main_v35 := rfl
example : Pipeline.arrRef spec3 5 = main_v36 := rfl
example : Pipeline.arrRef spec3 6 = main_v37 := rfl
example : Pipeline.arrRef spec3 7 = main_v38 := rfl

open scoped BigOperators

/-! ## The block's matrix product at an index -/

/-- The left operand's row coordinate is the result's row. -/
theorem lhs_row (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
/-- The left operand's column coordinate is the contraction index. -/
theorem lhs_contr (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
/-- The right operand's row coordinate is the contraction index. -/
theorem rhs_contr (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
/-- The right operand's column coordinate is the result's column. -/
theorem rhs_col (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- A block of rows times a 64 × 64 matrix, into the zero block: entry (p, q) is the sum over k of a (p, k) · w (k, q). -/
theorem matmul_zero_apply (a : FVec Ideal S4000x64 .bf16) (w : FVec Ideal S64x64 .bf16) (p : Fin 4000) (q : Fin 64) :
    matmul dot_S4000x64_S64x64_S4000x64_1_0_0_1_n_n none a w (constant (F := Ideal) S4000x64 .f32 0x00000000#32) (ix2 p q)
      = ∑ k : Fin 64, a (ix2 p k) * w (ix2 k q) := by
  show FloatOps.matmul dot_S4000x64_S64x64_S4000x64_1_0_0_1_n_n none a w (constant (F := Ideal) S4000x64 .f32 0x00000000#32) (ix2 p q) = _
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q) ((ValueIdx.contrEquiv1 dot_S4000x64_S64x64_S4000x64_1_0_0_1_n_n 64 rfl rfl).symm k) = ix2 p k := funext fun a => Fin.ext (by
    match a with
    | ⟨0, _⟩ => exact lhs_row _ _
    | ⟨1, _⟩ => exact (lhs_contr _ _).trans hk)
  have er : dot_S4000x64_S64x64_S4000x64_1_0_0_1_n_n.rhsIdx (ix2 p q) ((ValueIdx.contrEquiv1 dot_S4000x64_S64x64_S4000x64_1_0_0_1_n_n 64 rfl rfl).symm k) = ix2 k q := funext fun a => Fin.ext (by
    match a with
    | ⟨0, _⟩ => exact (rhs_contr _ _).trans hk
    | ⟨1, _⟩ => exact rhs_col _ _)
  rw [el, er]

/-! ## The body's payload is the message map at block size -/

/-- A one-column block broadcast along its rows reads, at (p, q), the column's entry in row p. -/
theorem bcast_col_apply {α : Type} (v : S4000x1.Idx → α) (p : Fin 4000) (q : Fin 64) :
    broadcastTo S4000x64 v broadcasts_S4000x1_S4000x64 (ix2 p q) = v (ix2 p (0 : Fin 1)) := by
  refine broadcastTo_apply v broadcasts_S4000x1_S4000x64 (ix2 p q) (ix2 p (0 : Fin 1)) fun ax => ?_
  match ax with
  | ⟨0, _⟩ => show p.val = if (4000 : Nat) = 1 then 0 else p.val; rw [if_neg (by decide)]
  | ⟨1, _⟩ => show (0 : Nat) = if (1 : Nat) = 1 then 0 else q.val; rw [if_pos rfl]

/-- What the body stores is relu (hi · W_s + hj · W_d + dist · w_t + b) of the blocks it loaded. -/
theorem pay_eq (hi hj : Vec Ideal S4000x64 .f32) (ws wd : Vec Ideal S64x64 .f32) (dist : Vec Ideal S4000x1 .f32) (wt mb : Vec Ideal S1x64 .f32) :
    k3_pay1 hi hj ws wd dist wt mb = message (n := 4000) hi hj dist ws wd wt mb := by
  funext j
  obtain ⟨p, q, rfl⟩ : ∃ (p : Fin 4000) (q : Fin 64), j = ix2 p q := ⟨j 0, j 1, eq_ix2 j⟩
  unfold k3_pay1 message
  simp only [shapeCast_self]
  simp only [maximumf_apply, addf_apply, mulf_apply, broadcast_apply]
  rw [matmul_zero_apply, matmul_zero_apply, bcast_col_apply, broadcastTo_1b_ab_apply, broadcastTo_1b_ab_apply]
  simp only [truncf_apply, Ideal.ofBits_def, Ideal.ofBits_zero_f32]

/-! ## The message map reads rows -/

/-- On a block whose rows are rows of whole arrays, and with the same weights, the message map's row p is the whole map's row r. -/
theorem message_rows (HI HJ : Mat 800000 64) (DIST : Mat 800000 1) (WS WD : Mat 64 64) (WT MB : Mat 1 64)
    (hi hj : Mat 4000 64) (dist : Mat 4000 1) (ws wd : Mat 64 64) (wt mb : Mat 1 64)
    (p : Fin 4000) (r : Fin 800000) (q : Fin 64)
    (ehi : ∀ k : Fin 64, hi (ix2 p k) = HI (ix2 r k)) (ehj : ∀ k : Fin 64, hj (ix2 p k) = HJ (ix2 r k))
    (edist : dist (ix2 p (0 : Fin 1)) = DIST (ix2 r (0 : Fin 1)))
    (ews : ws = WS) (ewd : wd = WD) (ewt : wt = WT) (emb : mb = MB) :
    message hi hj dist ws wd wt mb (ix2 p q) = message HI HJ DIST WS WD WT MB (ix2 r q) := by
  subst ews ewd ewt emb
  show max (((∑ k : Fin 64, hi (ix2 p k) * ws (ix2 k q)) + (∑ k : Fin 64, hj (ix2 p k) * wd (ix2 k q))
        + dist (ix2 p (0 : Fin 1)) * wt (ix2 (0 : Fin 1) q)) + mb (ix2 (0 : Fin 1) q)) 0
      = max (((∑ k : Fin 64, HI (ix2 r k) * ws (ix2 k q)) + (∑ k : Fin 64, HJ (ix2 r k) * wd (ix2 k q))
        + DIST (ix2 r (0 : Fin 1)) * wt (ix2 (0 : Fin 1) q)) + mb (ix2 (0 : Fin 1) q)) 0
  simp only [ehi, ehj, edist]

/-! ## The blocks of a grid point -/

theorem hz : (![0, 0] : Fin 2 → Nat) = fun _ => 0 := funext fun a => by fin_cases a <;> rfl

/-- The printed index maps over the grid: at point t the output and the three edge-row windows are at row block t,
    the four weight windows at their one block. -/
theorem idx_facts : ∀ t : Fin cfg3.N,
    win3_7.index t (0 : Fin 2) = t.val ∧ win3_7.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-! ## Each input window's block, read off its array -/

/-- Row p of the source-embedding block at point t is row 4000 · t + p of the array. -/
theorem blk_hi (c : Dev nD) (t : Fin cfg3.N) (p : Fin 4000) (k : Fin 64) (r : Fin 800000) (hr : r.val = 4000 * t.val + p.val) :
    (iblk3 V c 0 t : Vec Ideal S4000x64 .f32) (ix2 p k) = (V c main_v32 : S800000x64.Idx → Elt Ideal .f32) (ix2 r k) := by
  obtain ⟨oR, oC, hiR, hiC, hjR, hjC, dR, dC, wsR, wsC, wdR, wdC, wtR, wtC, mbR, mbC⟩ := idx_facts t
  unfold iblk3
  rw [View.read_apply]
  show V c main_v32 _ = V c main_v32 _
  congr 1
  funext a
  apply Fin.ext
  match a with
  | ⟨0, _⟩ => show win3_0.index t (0 : Fin 2) * 4000 + 1 * p.val = r.val; rw [hiR, hr]; omega
  | ⟨1, _⟩ => show win3_0.index t (1 : Fin 2) * 64 + 1 * k.val = k.val; rw [hiC]; omega

/-- Row p of the target-embedding block at point t is row 4000 · t + p of the array. -/
theorem blk_hj (c : Dev nD) (t : Fin cfg3.N) (p : Fin 4000) (k : Fin 64) (r : Fin 800000) (hr : r.val = 4000 * t.val + p.val) :
    (iblk3 V c 1 t : Vec Ideal S4000x64 .f32) (ix2 p k) = (V c main_v33 : S800000x64.Idx → Elt Ideal .f32) (ix2 r k) := by
  obtain ⟨oR, oC, hiR, hiC, hjR, hjC, dR, dC, wsR, wsC, wdR, wdC, wtR, wtC, mbR, mbC⟩ := idx_facts t
  unfold iblk3
  rw [View.read_apply]
  show V c main_v33 _ = V c main_v33 _
  congr 1
  funext a
  apply Fin.ext
  match a with
  | ⟨0, _⟩ => show win3_1.index t (0 : Fin 2) * 4000 + 1 * p.val = r.val; rw [hjR, hr]; omega
  | ⟨1, _⟩ => show win3_1.index t (1 : Fin 2) * 64 + 1 * k.val = k.val; rw [hjC]; omega

/-- Row p of the distance block at point t is row 4000 · t + p of the array. -/
theorem blk_dist (c : Dev nD) (t : Fin cfg3.N) (p : Fin 4000) (k : Fin 1) (r : Fin 800000) (hr : r.val = 4000 * t.val + p.val) :
    (iblk3 V c 2 t : Vec Ideal S4000x1 .f32) (ix2 p k) = (V c main_v31 : S800000x1.Idx → Elt Ideal .f32) (ix2 r k) := by
  obtain ⟨oR, oC, hiR, hiC, hjR, hjC, dR, dC, wsR, wsC, wdR, wdC, wtR, wtC, mbR, mbC⟩ := idx_facts t
  unfold iblk3
  rw [View.read_apply]
  show V c main_v31 _ = V c main_v31 _
  congr 1
  funext a
  apply Fin.ext
  match a with
  | ⟨0, _⟩ => show win3_2.index t (0 : Fin 2) * 4000 + 1 * p.val = r.val; rw [dR, hr]; omega
  | ⟨1, _⟩ => show win3_2.index t (1 : Fin 2) * 1 + 1 * k.val = k.val; rw [dC]; omega

/-- The source weights' window is the whole matrix at every point. -/
theorem blk_ws (c : Dev nD) (t : Fin cfg3.N) :
    (iblk3 V c 3 t : Vec Ideal S64x64 .f32) = (V c main_v34 : S64x64.Idx → Elt Ideal .f32) := by
  obtain ⟨oR, oC, hiR, hiC, hjR, hjC, dR, dC, wsR, wsC, wdR, wdC, wtR, wtC, mbR, mbC⟩ := idx_facts t
  funext x
  unfold iblk3
  rw [View.read_apply]
  show V c main_v34 _ = V c main_v34 _
  congr 1
  funext a
  apply Fin.ext
  match a with
  | ⟨0, _⟩ => show win3_3.index t (0 : Fin 2) * 64 + 1 * (x 0).val = (x 0).val; rw [wsR]; omega
  | ⟨1, _⟩ => show win3_3.index t (1 : Fin 2) * 64 + 1 * (x 1).val = (x 1).val; rw [wsC]; omega

/-- The target weights' window is the whole matrix at every point. -/
theorem blk_wd (c : Dev nD) (t : Fin cfg3.N) :
    (iblk3 V c 4 t : Vec Ideal S64x64 .f32) = (V c main_v35 : S64x64.Idx → Elt Ideal .f32) := by
  obtain ⟨oR, oC, hiR, hiC, hjR, hjC, dR, dC, wsR, wsC, wdR, wdC, wtR, wtC, mbR, mbC⟩ := idx_facts t
  funext x
  unfold iblk3
  rw [View.read_apply]
  show V c main_v35 _ = V c main_v35 _
  congr 1
  funext a
  apply Fin.ext
  match a with
  | ⟨0, _⟩ => show win3_4.index t (0 : Fin 2) * 64 + 1 * (x 0).val = (x 0).val; rw [wdR]; omega
  | ⟨1, _⟩ => show win3_4.index t (1 : Fin 2) * 64 + 1 * (x 1).val = (x 1).val; rw [wdC]; omega

/-- The distance weights' window is the whole row at every point. -/
theorem blk_wt (c : Dev nD) (t : Fin cfg3.N) :
    (iblk3 V c 5 t : Vec Ideal S1x64 .f32) = (V c main_v36 : S1x64.Idx → Elt Ideal .f32) := by
  obtain ⟨oR, oC, hiR, hiC, hjR, hjC, dR, dC, wsR, wsC, wdR, wdC, wtR, wtC, mbR, mbC⟩ := idx_facts t
  funext x
  unfold iblk3
  rw [View.read_apply]
  show V c main_v36 _ = V c main_v36 _
  congr 1
  funext a
  apply Fin.ext
  match a with
  | ⟨0, _⟩ => show win3_5.index t (0 : Fin 2) * 1 + 1 * (x 0).val = (x 0).val; rw [wtR]; omega
  | ⟨1, _⟩ => show win3_5.index t (1 : Fin 2) * 64 + 1 * (x 1).val = (x 1).val; rw [wtC]; omega

/-- The bias window is the whole row at every point. -/
theorem blk_mb (c : Dev nD) (t : Fin cfg3.N) :
    (iblk3 V c 6 t : Vec Ideal S1x64 .f32) = (V c main_v37 : S1x64.Idx → Elt Ideal .f32) := by
  obtain ⟨oR, oC, hiR, hiC, hjR, hjC, dR, dC, wsR, wsC, wdR, wdC, wtR, wtC, mbR, mbC⟩ := idx_facts t
  funext x
  unfold iblk3
  rw [View.read_apply]
  show V c main_v37 _ = V c main_v37 _
  congr 1
  funext a
  apply Fin.ext
  match a with
  | ⟨0, _⟩ => show win3_6.index t (0 : Fin 2) * 1 + 1 * (x 0).val = (x 0).val; rw [mbR]; omega
  | ⟨1, _⟩ => show win3_6.index t (1 : Fin 2) * 64 + 1 * (x 1).val = (x 1).val; rw [mbC]; omega

/-! ## What a point writes back -/

/-- Index (p, q) of the output's block at point t is index (4000 · t + p, q) of the array. -/
theorem emb_out (t : Fin cfg3.N) (p : Fin 4000) (q : Fin 64) (r : Fin 800000) (hr : r.val = 4000 * t.val + p.val) :
    ((cfg3.win 7).blk t).view.emb (ix2 p q) = (ix2 r q : S800000x64.Idx) := by
  obtain ⟨oR, oC, hiR, hiC, hjR, hjC, dR, dC, wsR, wsC, wdR, wdC, wtR, wtC, mbR, mbC⟩ := idx_facts t
  funext a
  apply Fin.ext
  match a with
  | ⟨0, _⟩ => show win3_7.index t (0 : Fin 2) * 4000 + 1 * p.val = r.val; rw [oR, hr]; omega
  | ⟨1, _⟩ => show win3_7.index t (1 : Fin 2) * 64 + 1 * q.val = q.val; rw [oC]; omega

/-- What point t writes back is block t of the message map of the arrays the call was entered with. -/
theorem flushed_eq (c : Dev nD) (t : Fin cfg3.N) :
    (dat3 (F := Ideal) V c).flushed 7 t = ((cfg3.win 7).blk t).view.read (Elt Ideal)
      (message (n := 800000) (V c main_v32) (V c main_v33) (V c main_v31) (V c main_v34) (V c main_v35) (V c main_v36) (V c main_v37)) := by
  show (cfg3.win 7).cut (grid3.coords t) ((dat3 V c).after 7 t) = _
  rw [after3_7]
  unfold out3_7
  rw [View.canon_unit_zero hz]
  simp only [View.ld_unit_zero (S := S4000x64) hz, View.ld_unit_zero (S := S64x64) hz, View.ld_unit_zero (S := S4000x1) hz, View.ld_unit_zero (S := S1x64) hz]
  rw [pay_eq]
  funext y
  obtain ⟨p, q, rfl⟩ : ∃ (p : Fin 4000) (q : Fin 64), y = ix2 p q := ⟨y 0, y 1, eq_ix2 y⟩
  have hN : grid3.N = 200 := N_3
  have ht : t.val < 200 := by have hlt : t.val < grid3.N := t.isLt; omega
  rw [View.read_apply]
  show message (n := 4000) (iblk3 V c 0 t) (iblk3 V c 1 t) (iblk3 V c 2 t) (iblk3 V c 3 t) (iblk3 V c 4 t) (iblk3 V c 5 t) (iblk3 V c 6 t) (ix2 p q)
    = message (n := 800000) (V c main_v32) (V c main_v33) (V c main_v31) (V c main_v34) (V c main_v35) (V c main_v36) (V c main_v37) (((cfg3.win 7).blk t).view.emb (ix2 p q))
  rw [emb_out t p q ⟨4000 * t.val + p.val, by have := p.isLt; omega⟩ rfl]
  exact message_rows _ _ _ _ _ _ _ _ _ _ _ _ _ _ p _ q
    (fun k => blk_hi V c t p k _ rfl) (fun k => blk_hj V c t p k _ rfl) (blk_dist V c t p 0 _ rfl)
    (blk_ws V c t) (blk_wd V c t) (blk_wt V c t) (blk_mb V c t)

/-! ## The blocks cover the array -/

/-- An index of the array is in point t's block iff each coordinate is in the block's range on its axis. -/
theorem mem_blk (t : Fin cfg3.N) (i : S800000x64.Idx) :
    i ∈ ((cfg3.win 7).blk t).view.set ↔ ∀ a : Fin 2, win3_7.index t a * S4000x64.size a ≤ (i a).val ∧ (i a).val < win3_7.index t a * S4000x64.size a + S4000x64.size a := by
  show i ∈ ((View.whole main_v38).slice (win3_7.rect t)).set ↔ _
  rw [View.set_slice_whole, Rect.mem_set_unit]
  exact Iff.rfl

/-- Row r of the array is written back by point r / 4000. -/
theorem cover (i : S800000x64.Idx) : ∃ t : Fin cfg3.N, (cfg3.win 7).flush t = true ∧ i ∈ ((cfg3.win 7).blk t).view.set := by
  have hN : grid3.N = 200 := N_3
  have hr : (i 0).val < 800000 := (i 0).isLt
  have hq : (i 1).val < 64 := (i 1).isLt
  obtain ⟨t, ht⟩ : ∃ t : Fin cfg3.N, t.val = (i 0).val / 4000 := ⟨⟨(i 0).val / 4000, by show _ < grid3.N; omega⟩, rfl⟩
  obtain ⟨oR, oC, hiR, hiC, hjR, hjC, dR, dC, wsR, wsC, wdR, wdC, wtR, wtC, mbR, mbC⟩ := idx_facts t
  refine ⟨t, flush3_7 t, ?_⟩
  rw [mem_blk]
  intro a
  match a with
  | ⟨0, _⟩ => show win3_7.index t (0 : Fin 2) * 4000 ≤ (i 0).val ∧ (i 0).val < win3_7.index t (0 : Fin 2) * 4000 + 4000; rw [oR, ht]; omega
  | ⟨1, _⟩ => show win3_7.index t (1 : Fin 2) * 64 ≤ (i 1).val ∧ (i 1).val < win3_7.index t (1 : Fin 2) * 64 + 64; rw [oC]; omega

/-- The output array after the call's last grid point, as one function of the arrays the call was entered with. -/
theorem final3 (c : Dev nD) :
    (dat3 (F := Ideal) V c).arrAt 7 cfg3.N = message (n := 800000) (V c main_v32) (V c main_v33) (V c main_v31) (V c main_v34) (V c main_v35) (V c main_v36) (V c main_v37) :=
  (dat3 V c).arrAt_eq_of_cover 7 _ (fun t _ => flushed_eq V c t) cover

end Cert.KernelIdeal.Region3

end
-- ==== Proof.Region4.lean ====
/-
  The second layer's update call: ten blocks of 5000 node rows, each e · R + relu (e · U_s + a · U_a + b). After its last grid point the output array holds every node's new embedding.
-/
import proofs.«403838_j86191403696812_1_alg».proof.Proof.Gen.KernelIdeal.Frame
import proofs.«403838_j86191403696812_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Region4

open Idealize.ShloMosaic Idealize.ShloMosaic.TcCoe Idealize.SL.Sem Idealize.ShloMosaic.ValueIdx
open Cert.KernelIdeal Cert.KernelIdeal.Gen Cert.Net
open scoped BigOperators

variable (V : (c : Dev nD) → (b : Ref sig .tc) → Buf (Elt Ideal) ((c : Thread nD τ).loc b))

example : Pipeline.arrRef spec4 0 = main_v25 := rfl
example : Pipeline.arrRef spec4 1 = main_v41 := rfl
example : Pipeline.arrRef spec4 2 = main_arg11 := rfl
example : Pipeline.arrRef spec4 3 = main_v42 := rfl
example : Pipeline.arrRef spec4 4 = main_v43 := rfl
example : Pipeline.arrRef spec4 5 = main_v44 := rfl
example : Pipeline.arrRef spec4 6 = main_v45 := rfl

/-! ## The block product at an index -/

/-- The left operand's row is the output's row. -/
theorem lhs_dot_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column is the contraction index. -/
theorem lhs_dot_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's row is the contraction index. -/
theorem rhs_dot_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right operand's column is the output's column. -/
theorem rhs_dot_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A 5000 × 64 block times a 64 × 64 matrix, accumulated from zero, read at (p, q): the sum over k of the products. -/
theorem matmul_at {φ ψ : FTy} (a : FVec Ideal S5000x64 φ) (b : FVec Ideal S64x64 ψ) (p : Fin 5000) (q : Fin 64) :
    matmul dot_S5000x64_S64x64_S5000x64_1_0_0_1_n_n none a b (constant S5000x64 .f32 0x00000000#32) (ix2 p q)
      = ∑ k : Fin 64, a (ix2 p k) * b (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun ax => Fin.ext (by
    match ax with
    | ⟨0, _⟩ => exact lhs_dot_0 _ _
    | ⟨1, _⟩ => exact (lhs_dot_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun ax => Fin.ext (by
    match ax with
    | ⟨0, _⟩ => exact (rhs_dot_0 _ _).trans hk
    | ⟨1, _⟩ => exact rhs_dot_1 _ _)
  rw [el, er]

/-! ## The payload is the network's update map at block size -/

/-- The body's one stored value: each node row's e · R + relu (e · U_s + a · U_a + b). -/
theorem pay_eq (e a : Vec Ideal S5000x64 .f32) (rp us ua : Vec Ideal S64x64 .f32) (ub : Vec Ideal S1x64 .f32) :
    k4_pay1 e a rp us ua ub = update (n := 5000) e a rp us ua ub := by
  funext j
  obtain ⟨p, q, rfl⟩ : ∃ (p : Fin 5000) (q : Fin 64), j = ix2 p q := ⟨j 0, j 1, eq_ix2 j⟩
  unfold k4_pay1 update
  simp only [shapeCast_self]
  rw [addf_apply, maximumf_apply, addf_apply, addf_apply, matmul_at, matmul_at, matmul_at,
    broadcastTo_1b_ab_apply, broadcast_apply]
  simp only [truncf_apply]
  show _ + max _ (Ideal.ofBits .f32 0x00000000#32) = _
  rw [Ideal.ofBits_zero_f32]

/-! ## From blocks to the array -/

theorem hz : (![0, 0] : Fin 2 → Nat) = fun _ => 0 := funext fun a => by
  match a with
  | ⟨0, _⟩ => rfl
  | ⟨1, _⟩ => rfl

/-- The printed index maps over the grid: the three row-blocked windows sit at block (t, 0) at point t, the four
    whole-array windows at block (0, 0). -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- A row of the update depends on that row of the embeddings and of the summed messages only. -/
theorem update_row_congr {n n' : Nat} (e a : Mat n 64) (e' a' : Mat n' 64) (rp us ua : Mat 64 64) (ub : Mat 1 64)
    (r : Fin n) (r' : Fin n') (q : Fin 64)
    (he : ∀ k : Fin 64, e (ix2 r k) = e' (ix2 r' k)) (ha : ∀ k : Fin 64, a (ix2 r k) = a' (ix2 r' k)) :
    update e a rp us ua ub (ix2 r q) = update e' a' rp us ua ub (ix2 r' q) := by
  show (∑ k : Fin 64, e (ix2 r k) * rp (ix2 k q))
      + max (((∑ k : Fin 64, e (ix2 r k) * us (ix2 k q)) + (∑ k : Fin 64, a (ix2 r k) * ua (ix2 k q))) + ub (ix2 (0 : Fin 1) q)) 0
    = (∑ k : Fin 64, e' (ix2 r' k) * rp (ix2 k q))
      + max (((∑ k : Fin 64, e' (ix2 r' k) * us (ix2 k q)) + (∑ k : Fin 64, a' (ix2 r' k) * ua (ix2 k q))) + ub (ix2 (0 : Fin 1) q)) 0
  simp only [he, ha]

/-- The embeddings' block at point t, read at (p, k): the array's row 5000 t + p. -/
theorem read_embed_rows (c : Dev nD) (t : Fin cfg4.N) (p : Fin 5000) (k : Fin 64) (P : Fin 50000) (hP : P.val = t.val * 5000 + p.val) :
    (iblk4 V c 0 t : Vec Ideal S5000x64 .f32) (ix2 p k) = (V c main_v25 : Vec Ideal S50000x64 .f32) (ix2 P k) := by
  obtain ⟨e0, e1, -⟩ := idx_facts t
  unfold iblk4
  rw [View.read_apply]
  show V c main_v25 _ = V c main_v25 _
  congr 1
  funext ax
  apply Fin.ext
  match ax with
  | ⟨0, _⟩ => show win4_0.index t (0 : Fin 2) * 5000 + 1 * p.val = P.val; rw [e0, hP]; omega
  | ⟨1, _⟩ => show win4_0.index t (1 : Fin 2) * 64 + 1 * k.val = k.val; rw [e1]; omega

/-- The summed messages' block at point t, read at (p, k): the array's row 5000 t + p. -/
theorem read_agg_rows (c : Dev nD) (t : Fin cfg4.N) (p : Fin 5000) (k : Fin 64) (P : Fin 50000) (hP : P.val = t.val * 5000 + p.val) :
    (iblk4 V c 1 t : Vec Ideal S5000x64 .f32) (ix2 p k) = (V c main_v41 : Vec Ideal S50000x64 .f32) (ix2 P k) := by
  obtain ⟨-, -, e0, e1, -⟩ := idx_facts t
  unfold iblk4
  rw [View.read_apply]
  show V c main_v41 _ = V c main_v41 _
  congr 1
  funext ax
  apply Fin.ext
  match ax with
  | ⟨0, _⟩ => show win4_1.index t (0 : Fin 2) * 5000 + 1 * p.val = P.val; rw [e0, hP]; omega
  | ⟨1, _⟩ => show win4_1.index t (1 : Fin 2) * 64 + 1 * k.val = k.val; rw [e1]; omega

/-- The residual weights' window is the whole 64 × 64 array at every point. -/
theorem read_residual (c : Dev nD) (t : Fin cfg4.N) : (iblk4 V c 2 t : Vec Ideal S64x64 .f32) = V c main_arg11 := by
  obtain ⟨-, -, -, -, e0, e1, -⟩ := idx_facts t
  funext y
  unfold iblk4
  rw [View.read_apply]
  show V c main_arg11 _ = V c main_arg11 y
  congr 1
  funext ax
  apply Fin.ext
  match ax with
  | ⟨0, _⟩ => show win4_2.index t (0 : Fin 2) * 64 + 1 * (y 0).val = (y 0).val; rw [e0]; omega
  | ⟨1, _⟩ => show win4_2.index t (1 : Fin 2) * 64 + 1 * (y 1).val = (y 1).val; rw [e1]; omega

/-- The embedding half of the update weights: the whole 64 × 64 array at every point. -/
theorem read_self_weights (c : Dev nD) (t : Fin cfg4.N) : (iblk4 V c 3 t : Vec Ideal S64x64 .f32) = V c main_v42 := by
  obtain ⟨-, -, -, -, -, -, e0, e1, -⟩ := idx_facts t
  funext y
  unfold iblk4
  rw [View.read_apply]
  show V c main_v42 _ = V c main_v42 y
  congr 1
  funext ax
  apply Fin.ext
  match ax with
  | ⟨0, _⟩ => show win4_3.index t (0 : Fin 2) * 64 + 1 * (y 0).val = (y 0).val; rw [e0]; omega
  | ⟨1, _⟩ => show win4_3.index t (1 : Fin 2) * 64 + 1 * (y 1).val = (y 1).val; rw [e1]; omega

/-- The message half of the update weights: the whole 64 × 64 array at every point. -/
theorem read_agg_weights (c : Dev nD) (t : Fin cfg4.N) : (iblk4 V c 4 t : Vec Ideal S64x64 .f32) = V c main_v43 := by
  obtain ⟨-, -, -, -, -, -, -, -, e0, e1, -⟩ := idx_facts t
  funext y
  unfold iblk4
  rw [View.read_apply]
  show V c main_v43 _ = V c main_v43 y
  congr 1
  funext ax
  apply Fin.ext
  match ax with
  | ⟨0, _⟩ => show win4_4.index t (0 : Fin 2) * 64 + 1 * (y 0).val = (y 0).val; rw [e0]; omega
  | ⟨1, _⟩ => show win4_4.index t (1 : Fin 2) * 64 + 1 * (y 1).val = (y 1).val; rw [e1]; omega

/-- The bias row: the whole 1 × 64 array at every point. -/
theorem read_bias (c : Dev nD) (t : Fin cfg4.N) : (iblk4 V c 5 t : Vec Ideal S1x64 .f32) = V c main_v44 := by
  obtain ⟨-, -, -, -, -, -, -, -, -, -, e0, e1, -⟩ := idx_facts t
  funext y
  unfold iblk4
  rw [View.read_apply]
  show V c main_v44 _ = V c main_v44 y
  congr 1
  funext ax
  apply Fin.ext
  match ax with
  | ⟨0, _⟩ => show win4_5.index t (0 : Fin 2) * 1 + 1 * (y 0).val = (y 0).val; rw [e0]; omega
  | ⟨1, _⟩ => show win4_5.index t (1 : Fin 2) * 64 + 1 * (y 1).val = (y 1).val; rw [e1]; omega

/-- Block t of the update of the whole arrays is the update of the blocks: row p of the block is row 5000 t + p. -/
theorem update_blk (c : Dev nD) (t : Fin cfg4.N) (rp us ua : Mat 64 64) (ub : Mat 1 64) (y : S5000x64.Idx) :
    update (n := 5000) (iblk4 V c 0 t) (iblk4 V c 1 t) rp us ua ub y
      = update (n := 50000) (V c main_v25) (V c main_v41) rp us ua ub (((cfg4.win 6).blk t).view.emb y) := by
  obtain ⟨p, q, rfl⟩ : ∃ (p : Fin 5000) (q : Fin 64), y = ix2 p q := ⟨y 0, y 1, eq_ix2 y⟩
  have ht : t.val < 10 := lt_of_lt_of_eq t.isLt N_4
  obtain ⟨-, -, -, -, -, -, -, -, -, -, -, -, e0, e1⟩ := idx_facts t
  have hemb : ((cfg4.win 6).blk t).view.emb (ix2 p q)
      = (ix2 (⟨t.val * 5000 + p.val, by have := p.isLt; omega⟩ : Fin 50000) q : S50000x64.Idx) := by
    funext ax
    apply Fin.ext
    match ax with
    | ⟨0, _⟩ => show win4_6.index t (0 : Fin 2) * 5000 + 1 * p.val = t.val * 5000 + p.val; rw [e0]; omega
    | ⟨1, _⟩ => show win4_6.index t (1 : Fin 2) * 64 + 1 * q.val = q.val; rw [e1]; omega
  rw [hemb]
  exact update_row_congr _ _ _ _ rp us ua ub p _ q (fun k => read_embed_rows V c t p k _ rfl) (fun k => read_agg_rows V c t p k _ rfl)

/-- What point t writes back is block t of the update of the arrays the call was entered with. -/
theorem flushed_eq (c : Dev nD) (t : Fin cfg4.N) :
    (dat4 V c).flushed 6 t = ((cfg4.win 6).blk t).view.read (Elt Ideal)
      (update (n := 50000) (V c main_v25) (V c main_v41) (V c main_arg11) (V c main_v42) (V c main_v43) (V c main_v44)) := by
  show (cfg4.win 6).cut (grid4.coords t) ((dat4 V c).after 6 t) = _
  rw [after4_6]
  unfold out4_6
  rw [View.canon_unit_zero hz]
  simp only [View.ld_unit_zero (S := S5000x64) hz, View.ld_unit_zero (S := S64x64) hz, View.ld_unit_zero (S := S1x64) hz]
  rw [pay_eq, read_residual, read_self_weights, read_agg_weights, read_bias]
  funext y
  show update (n := 5000) (iblk4 V c 0 t) (iblk4 V c 1 t) (V c main_arg11) (V c main_v42) (V c main_v43) (V c main_v44) y
    = update (n := 50000) (V c main_v25) (V c main_v41) (V c main_arg11) (V c main_v42) (V c main_v43) (V c main_v44) (((cfg4.win 6).blk t).view.emb y)
  exact update_blk V c t _ _ _ _ y

/-- An index of the output array lies in point t's block iff each coordinate is in the block's range on its axis. -/
theorem mem_blk (t : Fin cfg4.N) (i : S50000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole main_v45).slice (win4_6.rect t)).set ↔ _
  rw [View.set_slice_whole, Rect.mem_set_unit]
  exact Iff.rfl

/-- Every row lies in one of the ten blocks: row r in the block of point r / 5000. -/
theorem cover (i : S50000x64.Idx) :
    ∃ t : Fin cfg4.N, (cfg4.win 6).flush t = true ∧ i ∈ ((cfg4.win 6).blk t).view.set := by
  have h0 : (i 0).val < 50000 := (i 0).isLt
  have h1 : (i 1).val < 64 := (i 1).isLt
  obtain ⟨t, ht⟩ : ∃ t : Fin cfg4.N, t.val = (i 0).val / 5000 :=
    ⟨⟨(i 0).val / 5000, lt_of_lt_of_eq (by omega : (i 0).val / 5000 < 10) N_4.symm⟩, rfl⟩
  obtain ⟨-, -, -, -, -, -, -, -, -, -, -, -, e0, e1⟩ := idx_facts t
  refine ⟨t, flush4_6 t, ?_⟩
  rw [mem_blk]
  intro a
  match a with
  | ⟨0, _⟩ =>
    show win4_6.index t (0 : Fin 2) * 5000 ≤ (i 0).val ∧ (i 0).val < win4_6.index t (0 : Fin 2) * 5000 + 5000
    rw [e0]; omega
  | ⟨1, _⟩ =>
    show win4_6.index t (1 : Fin 2) * 64 ≤ (i 1).val ∧ (i 1).val < win4_6.index t (1 : Fin 2) * 64 + 64
    rw [e1]; omega

/-- The output array after the call's last grid point, as one function of the arrays the call was entered with. -/
theorem final4 (c : Dev nD) :
    (dat4 (F := Ideal) V c).arrAt 6 cfg4.N = update (n := 50000) (V c main_v25) (V c main_v41) (V c main_arg11) (V c main_v42) (V c main_v43) (V c main_v44) := by
  exact (dat4 V c).arrAt_eq_of_cover 6 _ (fun t _ => flushed_eq V c t) cover

end Cert.KernelIdeal.Region4

end
-- ==== Proof.KernelLayer2.lean ====
/-
  The second message-passing layer of the kernel's program, from the contents of the buffers at the embedding call's
  exit to the contents at the update call's exit: the host operations select rows, take the squared distances and cut
  the weight matrices; the message call computes every edge's message; the host sums the messages into their target
  nodes; the update call computes every node's new embedding. Together they are one layer of the network.
-/
import proofs.«403838_j86191403696812_1_alg».proof.Proof.Gen.KernelIdeal.Frame
import proofs.«403838_j86191403696812_1_alg».proof.Proof.HostStretch2
import proofs.«403838_j86191403696812_1_alg».proof.Proof.Region3
import proofs.«403838_j86191403696812_1_alg».proof.Proof.Region4
import Idealize.ShloMosaic.Lib.StableHlo.Run
import Idealize.ShloMosaic.Lib.ValueIdx
import Idealize.ShloMosaic.Lib.ValueLayout

set_option maxRecDepth 16384

noncomputable section

namespace Cert.KernelIdeal.Layer2

open Idealize.ShloMosaic Idealize.ShloMosaic.TcCoe Idealize.SL.Sem Idealize.ShloMosaic.ValueIdx
open Cert.KernelIdeal Cert.KernelIdeal.Gen Cert.Net

/-! ## The cuts of the weight matrices and the biases, as the network names them -/

/-- A band of k rows cut out of a matrix from row off on is those rows of the matrix: entry (i, j) of the band is
    entry (off + i, j) of the matrix. -/
theorem slice_eq_rowsFrom {N n : Nat} (k off : Nat) (hk : off + k ≤ N) (a : Mat N n)
    (h : (⟨2, ![N, n]⟩ : Shape).Slices ![off, 0] ⟨2, ![k, n]⟩) :
    extractStridedSlice ⟨2, ![k, n]⟩ ![off, 0] a h = rowsFrom k off hk a := by
  funext i
  conv_lhs => rw [eq_ix2 i]
  exact slice2_axis0_eq off a h (i 0) (i 1)

/-- A vector reshaped to a matrix of one row is that row: entry (0, j) of the matrix is entry j of the vector. -/
theorem cast_eq_asRow {n : Nat} (v : Row n) (h : (⟨1, ![n]⟩ : Shape).ShapeCasts ⟨2, ![1, n]⟩) :
    shapeCast ⟨2, ![1, n]⟩ v h = asRow v := by
  funext i
  conv_lhs => rw [eq_ix2 i]
  exact shapeCast_a_1a_apply v h (i 0) (i 1)

/-- One layer over the kernel's host operations, written out: the update of the embeddings by the scatter-sum of
    the messages, each message from the two selections of embeddings and the squared distance of the two selections
    of positions. -/
theorem layer_H (e : Mat 50000 64) (x : Mat 50000 3) (row col : Ids 800000) (rp : Mat 64 64) (mw : Mat 129 64)
    (mb : Row 64) (uw : Mat 128 64) (ub : Row 64) :
    layer Fns.H e x row col rp mw mb uw ub
      = update e
          (Fns.scat col (message (Fns.take64 e row) (Fns.take64 e col) (Fns.dist (Fns.take3 x row) (Fns.take3 x col))
            (rowsFrom 64 0 (by decide) mw) (rowsFrom 64 64 (by decide) mw) (rowsFrom 1 128 (by decide) mw) (asRow mb)))
          rp (rowsFrom 64 0 (by decide) uw) (rowsFrom 64 64 (by decide) uw) (asRow ub) := by
  simp only [layer, Fns.H]

/-! ## A buffer no operation of a stretch writes

Every operation of a stretch writes one buffer, its result; a buffer that is none of these holds after the stretch
what it held before. One stretch at a time. -/

/-- Closes `after ops W b = W b` for a stretch `ops` none of whose operations has `b` as its result: operation by
    operation, `b` is another reference than the result. -/
local macro "keeps" : tactic =>
  `(tactic| exact StableHlo.after_of_forall_not_mem _ _ (List.forall_iff_forall_mem.mp (by
      repeat' apply And.intro
      all_goals exact fun h => StableHlo.devRef_ne_of_ne (by decide) (Finset.mem_singleton.mp h))))

variable (m : (ℓ : Loc nD τ sig) → Buf (Elt Ideal) ℓ) (ρ : Dev nD → PrngReg)

/-! ### The layer's inputs, carried from the layer's entry (the previous call's exit) to where they are read -/

/-- The node embeddings after the first three stretches (the two selections of positions and their squared distance). -/
theorem emb_s3 (c : Dev nD) : W14 m ρ c (Proc.devRef .tc main_v25) = W11 m ρ c (Proc.devRef .tc main_v25) :=
  calc W14 m ρ c (Proc.devRef .tc main_v25)
    _ = W13 m ρ c (Proc.devRef .tc main_v25) := by keeps
    _ = W12 m ρ c (Proc.devRef .tc main_v25) := by keeps
    _ = W11 m ρ c (Proc.devRef .tc main_v25) := by keeps

/-- The node embeddings after the selection of the source embeddings. -/
theorem emb_s4 (c : Dev nD) : W15 m ρ c (Proc.devRef .tc main_v25) = W11 m ρ c (Proc.devRef .tc main_v25) :=
  calc W15 m ρ c (Proc.devRef .tc main_v25)
    _ = W14 m ρ c (Proc.devRef .tc main_v25) := by keeps
    _ = W11 m ρ c (Proc.devRef .tc main_v25) := emb_s3 m ρ c

/-- The node embeddings at the update call's entry: no stretch writes them, and the message call does not. -/
theorem emb_u (c : Dev nD) : W19 m ρ c (Proc.devRef .tc main_v25) = W11 m ρ c (Proc.devRef .tc main_v25) :=
  calc W19 m ρ c (Proc.devRef .tc main_v25)
    _ = W18 m ρ c (Proc.devRef .tc main_v25) := by keeps
    _ = W17 m ρ c (Proc.devRef .tc main_v25) := W18_of_ne m ρ c main_v25 (by decide)
    _ = W16 m ρ c (Proc.devRef .tc main_v25) := by keeps
    _ = W15 m ρ c (Proc.devRef .tc main_v25) := by keeps
    _ = W11 m ρ c (Proc.devRef .tc main_v25) := emb_s4 m ρ c

/-- The source indices after the first three stretches. -/
theorem row_s3 (c : Dev nD) : W14 m ρ c (Proc.devRef .tc main_v1) = W11 m ρ c (Proc.devRef .tc main_v1) :=
  calc W14 m ρ c (Proc.devRef .tc main_v1)
    _ = W13 m ρ c (Proc.devRef .tc main_v1) := by keeps
    _ = W12 m ρ c (Proc.devRef .tc main_v1) := by keeps
    _ = W11 m ρ c (Proc.devRef .tc main_v1) := by keeps

/-- The target indices after the first stretch. -/
theorem col_s1 (c : Dev nD) : W12 m ρ c (Proc.devRef .tc main_v3) = W11 m ρ c (Proc.devRef .tc main_v3) :=
  calc W12 m ρ c (Proc.devRef .tc main_v3)
    _ = W11 m ρ c (Proc.devRef .tc main_v3) := by keeps

/-- The target indices after the selection of the source embeddings. -/
theorem col_s4 (c : Dev nD) : W15 m ρ c (Proc.devRef .tc main_v3) = W11 m ρ c (Proc.devRef .tc main_v3) :=
  calc W15 m ρ c (Proc.devRef .tc main_v3)
    _ = W14 m ρ c (Proc.devRef .tc main_v3) := by keeps
    _ = W13 m ρ c (Proc.devRef .tc main_v3) := by keeps
    _ = W12 m ρ c (Proc.devRef .tc main_v3) := by keeps
    _ = W11 m ρ c (Proc.devRef .tc main_v3) := col_s1 m ρ c

/-- The target indices at the message call's exit. -/
theorem col_m (c : Dev nD) : W18 m ρ c (Proc.devRef .tc main_v3) = W11 m ρ c (Proc.devRef .tc main_v3) :=
  calc W18 m ρ c (Proc.devRef .tc main_v3)
    _ = W17 m ρ c (Proc.devRef .tc main_v3) := W18_of_ne m ρ c main_v3 (by decide)
    _ = W16 m ρ c (Proc.devRef .tc main_v3) := by keeps
    _ = W15 m ρ c (Proc.devRef .tc main_v3) := by keeps
    _ = W11 m ρ c (Proc.devRef .tc main_v3) := col_s4 m ρ c

/-- The positions after the first stretch. -/
theorem pos_s1 (c : Dev nD) : W12 m ρ c (Proc.devRef .tc main_arg0) = W11 m ρ c (Proc.devRef .tc main_arg0) :=
  calc W12 m ρ c (Proc.devRef .tc main_arg0)
    _ = W11 m ρ c (Proc.devRef .tc main_arg0) := by keeps

/-- The message weights after the five stretches before they are cut. -/
theorem mw_s5 (c : Dev nD) : W16 m ρ c (Proc.devRef .tc main_arg12) = W11 m ρ c (Proc.devRef .tc main_arg12) :=
  calc W16 m ρ c (Proc.devRef .tc main_arg12)
    _ = W15 m ρ c (Proc.devRef .tc main_arg12) := by keeps
    _ = W14 m ρ c (Proc.devRef .tc main_arg12) := by keeps
    _ = W13 m ρ c (Proc.devRef .tc main_arg12) := by keeps
    _ = W12 m ρ c (Proc.devRef .tc main_arg12) := by keeps
    _ = W11 m ρ c (Proc.devRef .tc main_arg12) := by keeps

/-- The message bias after the five stretches before it is reshaped. -/
theorem mb_s5 (c : Dev nD) : W16 m ρ c (Proc.devRef .tc main_arg13) = W11 m ρ c (Proc.devRef .tc main_arg13) :=
  calc W16 m ρ c (Proc.devRef .tc main_arg13)
    _ = W15 m ρ c (Proc.devRef .tc main_arg13) := by keeps
    _ = W14 m ρ c (Proc.devRef .tc main_arg13) := by keeps
    _ = W13 m ρ c (Proc.devRef .tc main_arg13) := by keeps
    _ = W12 m ρ c (Proc.devRef .tc main_arg13) := by keeps
    _ = W11 m ρ c (Proc.devRef .tc main_arg13) := by keeps

/-- The residual weights at the update call's entry. -/
theorem res_u (c : Dev nD) : W19 m ρ c (Proc.devRef .tc main_arg11) = W11 m ρ c (Proc.devRef .tc main_arg11) :=
  calc W19 m ρ c (Proc.devRef .tc main_arg11)
    _ = W18 m ρ c (Proc.devRef .tc main_arg11) := by keeps
    _ = W17 m ρ c (Proc.devRef .tc main_arg11) := W18_of_ne m ρ c main_arg11 (by decide)
    _ = W16 m ρ c (Proc.devRef .tc main_arg11) := by keeps
    _ = W15 m ρ c (Proc.devRef .tc main_arg11) := by keeps
    _ = W14 m ρ c (Proc.devRef .tc main_arg11) := by keeps
    _ = W13 m ρ c (Proc.devRef .tc main_arg11) := by keeps
    _ = W12 m ρ c (Proc.devRef .tc main_arg11) := by keeps
    _ = W11 m ρ c (Proc.devRef .tc main_arg11) := by keeps

/-- The update weights at the message call's exit. -/
theorem uw_m (c : Dev nD) : W18 m ρ c (Proc.devRef .tc main_arg14) = W11 m ρ c (Proc.devRef .tc main_arg14) :=
  calc W18 m ρ c (Proc.devRef .tc main_arg14)
    _ = W17 m ρ c (Proc.devRef .tc main_arg14) := W18_of_ne m ρ c main_arg14 (by decide)
    _ = W16 m ρ c (Proc.devRef .tc main_arg14) := by keeps
    _ = W15 m ρ c (Proc.devRef .tc main_arg14) := by keeps
    _ = W14 m ρ c (Proc.devRef .tc main_arg14) := by keeps
    _ = W13 m ρ c (Proc.devRef .tc main_arg14) := by keeps
    _ = W12 m ρ c (Proc.devRef .tc main_arg14) := by keeps
    _ = W11 m ρ c (Proc.devRef .tc main_arg14) := by keeps

/-- The update bias at the message call's exit. -/
theorem ub_m (c : Dev nD) : W18 m ρ c (Proc.devRef .tc main_arg15) = W11 m ρ c (Proc.devRef .tc main_arg15) :=
  calc W18 m ρ c (Proc.devRef .tc main_arg15)
    _ = W17 m ρ c (Proc.devRef .tc main_arg15) := W18_of_ne m ρ c main_arg15 (by decide)
    _ = W16 m ρ c (Proc.devRef .tc main_arg15) := by keeps
    _ = W15 m ρ c (Proc.devRef .tc main_arg15) := by keeps
    _ = W14 m ρ c (Proc.devRef .tc main_arg15) := by keeps
    _ = W13 m ρ c (Proc.devRef .tc main_arg15) := by keeps
    _ = W12 m ρ c (Proc.devRef .tc main_arg15) := by keeps
    _ = W11 m ρ c (Proc.devRef .tc main_arg15) := by keeps

/-! ### What the stretches compute, over the contents at the layer's entry -/

/-- The positions of the source nodes, after the first two stretches. -/
theorem srcPos_s2 (c : Dev nD) :
    W13 m ρ c (Proc.devRef .tc main_v26) = Fns.take3 (W11 m ρ c (Proc.devRef .tc main_arg0)) (W11 m ρ c (Proc.devRef .tc main_v1)) :=
  calc W13 m ρ c (Proc.devRef .tc main_v26)
    _ = W12 m ρ c (Proc.devRef .tc main_v26) := by keeps
    _ = _ := Host2.src_pos (W11 m ρ c)

/-- The positions of the target nodes, after the first two stretches. -/
theorem dstPos_s2 (c : Dev nD) :
    W13 m ρ c (Proc.devRef .tc main_v27) = Fns.take3 (W11 m ρ c (Proc.devRef .tc main_arg0)) (W11 m ρ c (Proc.devRef .tc main_v3)) :=
  calc W13 m ρ c (Proc.devRef .tc main_v27)
    _ = Fns.take3 (W12 m ρ c (Proc.devRef .tc main_arg0)) (W12 m ρ c (Proc.devRef .tc main_v3)) := Host2.dst_pos (W12 m ρ c)
    _ = _ := by rw [pos_s1, col_s1]

/-- The squared distance of the two selections of positions, after the third stretch. -/
theorem dist_s3 (c : Dev nD) :
    W14 m ρ c (Proc.devRef .tc main_v31)
      = Fns.dist (Fns.take3 (W11 m ρ c (Proc.devRef .tc main_arg0)) (W11 m ρ c (Proc.devRef .tc main_v1))) (Fns.take3 (W11 m ρ c (Proc.devRef .tc main_arg0)) (W11 m ρ c (Proc.devRef .tc main_v3))) :=
  calc W14 m ρ c (Proc.devRef .tc main_v31)
    _ = Fns.dist (W13 m ρ c (Proc.devRef .tc main_v26)) (W13 m ρ c (Proc.devRef .tc main_v27)) := Host2.sq_dist (W13 m ρ c)
    _ = _ := by rw [srcPos_s2, dstPos_s2]

/-- The squared distance at the message call's entry. -/
theorem dist_s6 (c : Dev nD) :
    W17 m ρ c (Proc.devRef .tc main_v31)
      = Fns.dist (Fns.take3 (W11 m ρ c (Proc.devRef .tc main_arg0)) (W11 m ρ c (Proc.devRef .tc main_v1))) (Fns.take3 (W11 m ρ c (Proc.devRef .tc main_arg0)) (W11 m ρ c (Proc.devRef .tc main_v3))) :=
  calc W17 m ρ c (Proc.devRef .tc main_v31)
    _ = W16 m ρ c (Proc.devRef .tc main_v31) := by keeps
    _ = W15 m ρ c (Proc.devRef .tc main_v31) := by keeps
    _ = W14 m ρ c (Proc.devRef .tc main_v31) := by keeps
    _ = _ := dist_s3 m ρ c

/-- The embeddings of the source nodes, after the fourth stretch. -/
theorem src_s4 (c : Dev nD) :
    W15 m ρ c (Proc.devRef .tc main_v32) = Fns.take64 (W11 m ρ c (Proc.devRef .tc main_v25)) (W11 m ρ c (Proc.devRef .tc main_v1)) :=
  calc W15 m ρ c (Proc.devRef .tc main_v32)
    _ = Fns.take64 (W14 m ρ c (Proc.devRef .tc main_v25)) (W14 m ρ c (Proc.devRef .tc main_v1)) := Host2.src_emb (W14 m ρ c)
    _ = _ := by rw [emb_s3, row_s3]

/-- The embeddings of the source nodes at the message call's entry. -/
theorem src_s6 (c : Dev nD) :
    W17 m ρ c (Proc.devRef .tc main_v32) = Fns.take64 (W11 m ρ c (Proc.devRef .tc main_v25)) (W11 m ρ c (Proc.devRef .tc main_v1)) :=
  calc W17 m ρ c (Proc.devRef .tc main_v32)
    _ = W16 m ρ c (Proc.devRef .tc main_v32) := by keeps
    _ = W15 m ρ c (Proc.devRef .tc main_v32) := by keeps
    _ = _ := src_s4 m ρ c

/-- The embeddings of the target nodes, after the fifth stretch. -/
theorem dst_s5 (c : Dev nD) :
    W16 m ρ c (Proc.devRef .tc main_v33) = Fns.take64 (W11 m ρ c (Proc.devRef .tc main_v25)) (W11 m ρ c (Proc.devRef .tc main_v3)) :=
  calc W16 m ρ c (Proc.devRef .tc main_v33)
    _ = Fns.take64 (W15 m ρ c (Proc.devRef .tc main_v25)) (W15 m ρ c (Proc.devRef .tc main_v3)) := Host2.dst_emb (W15 m ρ c)
    _ = _ := by rw [emb_s4, col_s4]

/-- The embeddings of the target nodes at the message call's entry. -/
theorem dst_s6 (c : Dev nD) :
    W17 m ρ c (Proc.devRef .tc main_v33) = Fns.take64 (W11 m ρ c (Proc.devRef .tc main_v25)) (W11 m ρ c (Proc.devRef .tc main_v3)) :=
  calc W17 m ρ c (Proc.devRef .tc main_v33)
    _ = W16 m ρ c (Proc.devRef .tc main_v33) := by keeps
    _ = _ := dst_s5 m ρ c

/-- Rows 0 to 63 of the message weights at the message call's entry. -/
theorem msgWsrc_s6 (c : Dev nD) :
    W17 m ρ c (Proc.devRef .tc main_v34) = rowsFrom (N := 129) (m := 64) 64 0 (by decide) (W11 m ρ c (Proc.devRef .tc main_arg12)) :=
  calc W17 m ρ c (Proc.devRef .tc main_v34)
    _ = extractStridedSlice S64x64 ![0, 0] (W16 m ρ c (Proc.devRef .tc main_arg12)) Facts₀.slices_S129x64_S64x64_0_0 := Host2.msg_w_src (W16 m ρ c)
    _ = rowsFrom (N := 129) (m := 64) 64 0 (by decide) (W16 m ρ c (Proc.devRef .tc main_arg12)) := slice_eq_rowsFrom 64 0 _ _ _
    _ = _ := by rw [mw_s5]

/-- Rows 64 to 127 of the message weights at the message call's entry. -/
theorem msgWdst_s6 (c : Dev nD) :
    W17 m ρ c (Proc.devRef .tc main_v35) = rowsFrom (N := 129) (m := 64) 64 64 (by decide) (W11 m ρ c (Proc.devRef .tc main_arg12)) :=
  calc W17 m ρ c (Proc.devRef .tc main_v35)
    _ = extractStridedSlice S64x64 ![64, 0] (W16 m ρ c (Proc.devRef .tc main_arg12)) Facts₀.slices_S129x64_S64x64_64_0 := Host2.msg_w_dst (W16 m ρ c)
    _ = rowsFrom (N := 129) (m := 64) 64 64 (by decide) (W16 m ρ c (Proc.devRef .tc main_arg12)) := slice_eq_rowsFrom 64 64 _ _ _
    _ = _ := by rw [mw_s5]

/-- Row 128 of the message weights at the message call's entry. -/
theorem msgWdist_s6 (c : Dev nD) :
    W17 m ρ c (Proc.devRef .tc main_v36) = rowsFrom (N := 129) (m := 64) 1 128 (by decide) (W11 m ρ c (Proc.devRef .tc main_arg12)) :=
  calc W17 m ρ c (Proc.devRef .tc main_v36)
    _ = extractStridedSlice S1x64 ![128, 0] (W16 m ρ c (Proc.devRef .tc main_arg12)) Facts₀.slices_S129x64_S1x64_128_0 := Host2.msg_w_dist (W16 m ρ c)
    _ = rowsFrom (N := 129) (m := 64) 1 128 (by decide) (W16 m ρ c (Proc.devRef .tc main_arg12)) := slice_eq_rowsFrom 1 128 _ _ _
    _ = _ := by rw [mw_s5]

/-- The message bias as a one-row matrix at the message call's entry. -/
theorem msgBias_s6 (c : Dev nD) :
    W17 m ρ c (Proc.devRef .tc main_v37) = asRow (W11 m ρ c (Proc.devRef .tc main_arg13)) :=
  calc W17 m ρ c (Proc.devRef .tc main_v37)
    _ = shapeCast S1x64 (W16 m ρ c (Proc.devRef .tc main_arg13)) Facts₀.shapeCasts_S64_S1x64 := Host2.msg_bias (W16 m ρ c)
    _ = asRow (W16 m ρ c (Proc.devRef .tc main_arg13)) := cast_eq_asRow _ _
    _ = _ := by rw [mb_s5]

/-- Rows 0 to 63 of the update weights at the update call's entry. -/
theorem updWself_u (c : Dev nD) :
    W19 m ρ c (Proc.devRef .tc main_v42) = rowsFrom (N := 128) (m := 64) 64 0 (by decide) (W11 m ρ c (Proc.devRef .tc main_arg14)) :=
  calc W19 m ρ c (Proc.devRef .tc main_v42)
    _ = extractStridedSlice S64x64 ![0, 0] (W18 m ρ c (Proc.devRef .tc main_arg14)) Facts₀.slices_S128x64_S64x64_0_0 := Host2.upd_w_self (W18 m ρ c)
    _ = rowsFrom (N := 128) (m := 64) 64 0 (by decide) (W18 m ρ c (Proc.devRef .tc main_arg14)) := slice_eq_rowsFrom 64 0 _ _ _
    _ = _ := by rw [uw_m]

/-- Rows 64 to 127 of the update weights at the update call's entry. -/
theorem updWagg_u (c : Dev nD) :
    W19 m ρ c (Proc.devRef .tc main_v43) = rowsFrom (N := 128) (m := 64) 64 64 (by decide) (W11 m ρ c (Proc.devRef .tc main_arg14)) :=
  calc W19 m ρ c (Proc.devRef .tc main_v43)
    _ = extractStridedSlice S64x64 ![64, 0] (W18 m ρ c (Proc.devRef .tc main_arg14)) Facts₀.slices_S128x64_S64x64_64_0 := Host2.upd_w_agg (W18 m ρ c)
    _ = rowsFrom (N := 128) (m := 64) 64 64 (by decide) (W18 m ρ c (Proc.devRef .tc main_arg14)) := slice_eq_rowsFrom 64 64 _ _ _
    _ = _ := by rw [uw_m]

/-- The update bias as a one-row matrix at the update call's entry. -/
theorem updBias_u (c : Dev nD) :
    W19 m ρ c (Proc.devRef .tc main_v44) = asRow (W11 m ρ c (Proc.devRef .tc main_arg15)) :=
  calc W19 m ρ c (Proc.devRef .tc main_v44)
    _ = shapeCast S1x64 (W18 m ρ c (Proc.devRef .tc main_arg15)) Facts₀.shapeCasts_S64_S1x64 := Host2.upd_bias (W18 m ρ c)
    _ = asRow (W18 m ρ c (Proc.devRef .tc main_arg15)) := cast_eq_asRow _ _
    _ = _ := by rw [ub_m]

/-! ### The two calls -/

/-- The messages at the message call's exit: the call's output array, as the function of the arrays it was entered with. -/
theorem msg_m (c : Dev nD) :
    W18 m ρ c (Proc.devRef .tc main_v38)
      = message (n := 800000) (W17 m ρ c (Proc.devRef .tc main_v32)) (W17 m ρ c (Proc.devRef .tc main_v33)) (W17 m ρ c (Proc.devRef .tc main_v31))
          (W17 m ρ c (Proc.devRef .tc main_v34)) (W17 m ρ c (Proc.devRef .tc main_v35)) (W17 m ρ c (Proc.devRef .tc main_v36)) (W17 m ρ c (Proc.devRef .tc main_v37)) :=
  (W18_arr m ρ c 7).trans (Region3.final3 (V17 m ρ) c)

/-- The summed messages at the update call's entry. -/
theorem agg_u (c : Dev nD) :
    W19 m ρ c (Proc.devRef .tc main_v41) = Fns.scat (W18 m ρ c (Proc.devRef .tc main_v3)) (W18 m ρ c (Proc.devRef .tc main_v38)) :=
  Host2.aggregated (W18 m ρ c)

/-- The new embeddings at the update call's exit: the call's output array, as the function of the arrays it was entered with. -/
theorem upd_x (c : Dev nD) :
    W20 m ρ c (Proc.devRef .tc main_v45)
      = update (n := 50000) (W19 m ρ c (Proc.devRef .tc main_v25)) (W19 m ρ c (Proc.devRef .tc main_v41)) (W19 m ρ c (Proc.devRef .tc main_arg11))
          (W19 m ρ c (Proc.devRef .tc main_v42)) (W19 m ρ c (Proc.devRef .tc main_v43)) (W19 m ρ c (Proc.devRef .tc main_v44)) :=
  (W20_arr m ρ c 6).trans (Region4.final4 (V19 m ρ) c)

/-- The node embeddings at the update call's exit are one layer of the network over the embeddings, the positions, the
    two index vectors and the layer's weights as they stood at the embedding call's exit. -/
theorem out (c : Dev nD) :
    W20 m ρ c (Proc.devRef .tc main_v45)
      = layer Fns.H (W11 m ρ c (Proc.devRef .tc main_v25)) (W11 m ρ c (Proc.devRef .tc main_arg0)) (W11 m ρ c (Proc.devRef .tc main_v1)) (W11 m ρ c (Proc.devRef .tc main_v3))
          (W11 m ρ c (Proc.devRef .tc main_arg11)) (W11 m ρ c (Proc.devRef .tc main_arg12)) (W11 m ρ c (Proc.devRef .tc main_arg13))
          (W11 m ρ c (Proc.devRef .tc main_arg14)) (W11 m ρ c (Proc.devRef .tc main_arg15)) := by
  rw [layer_H, upd_x, emb_u, agg_u, col_m, msg_m, src_s6, dst_s6, dist_s6, msgWsrc_s6, msgWdst_s6, msgWdist_s6, msgBias_s6,
    res_u, updWself_u, updWagg_u, updBias_u]

end Cert.KernelIdeal.Layer2

end
-- ==== Proof.KernelValue.lean ====
/-
  The kernel's program from the launch to the return, read as values: the host cuts the two index vectors out of the
  edge list and reshapes the bias; the embedding call computes h · W + b; each of the two layers of calls and host
  operations is one message-passing layer of the network; so the result buffer, at the last call's exit, holds the
  network of the argument arrays.
-/
import proofs.«403838_j86191403696812_1_alg».proof.Proof.Gen.KernelIdeal.Frame
import proofs.«403838_j86191403696812_1_alg».proof.Proof.Region0
import proofs.«403838_j86191403696812_1_alg».proof.Proof.KernelLayer1
import proofs.«403838_j86191403696812_1_alg».proof.Proof.KernelLayer2
import Idealize.ShloMosaic.Lib.ValueLayout

set_option maxRecDepth 16384

noncomputable section

namespace Cert.KernelIdeal.Whole

open Idealize.ShloMosaic Idealize.ShloMosaic.TcCoe Idealize.SL.Sem Idealize.ShloMosaic.ValueIdx
open Cert.KernelIdeal Cert.KernelIdeal.Gen Cert.Net

/-- A buffer that no operation of a stretch writes keeps its contents across the stretch. -/
local macro "untouched_by " ops:ident : term =>
  `(StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## Before the first call -/

section First

variable (W : Valuation τ sig (Elt Ideal))

/-- The first host operations leave row 0 of the edge list, as a vector. -/
theorem first_row : StableHlo.after hostOps0 W (Proc.devRef .tc main_v1) = Fns.rowOf (W (Proc.devRef .tc main_arg2)) := by
  after_results_simp
  rfl

/-- The first host operations leave row 1 of the edge list, as a vector. -/
theorem first_col : StableHlo.after hostOps0 W (Proc.devRef .tc main_v3) = Fns.colOf (W (Proc.devRef .tc main_arg2)) := by
  after_results_simp
  rfl

/-- A vector reshaped to one row is that vector as a one-row matrix. -/
theorem cast_row (v : FVec Ideal S64 .f32) : shapeCast S1x64 v Facts₀.shapeCasts_S64_S1x64 = asRow v := by
  funext i
  obtain ⟨u, q, rfl⟩ : ∃ (u : Fin 1) (q : Fin 64), i = ix2 u q := ⟨i 0, i 1, eq_ix2 i⟩
  exact shapeCast_a_1a_apply v _ u q

/-- The first host operations leave the embedding bias as a one-row matrix. -/
theorem first_bias : StableHlo.after hostOps0 W (Proc.devRef .tc main_v4) = asRow (W (Proc.devRef .tc main_arg5)) := by
  refine Eq.trans ?_ (cast_row _)
  after_results_simp
  rfl

end First

variable (m : (ℓ : Loc nD τ sig) → Buf (Elt Ideal) ℓ) (ρ : Dev nD → PrngReg)

/-! ## At the embedding call's exit -/

/-- The embedding call leaves h · W + b of the arguments. -/
theorem embedded (c : Dev nD) :
    W2 m ρ c (Proc.devRef .tc main_v5) = initEmbed (m ((c.tc : Thread nD τ).loc main_arg1)) (m ((c.tc : Thread nD τ).loc main_arg4)) (asRow (m ((c.tc : Thread nD τ).loc main_arg5))) := by
  refine (W2_arr m ρ c 3).trans ((Region0.final0 (V1 m ρ) c).trans ?_)
  show initEmbed (W1 m ρ c (Proc.devRef .tc main_arg1)) (W1 m ρ c (Proc.devRef .tc main_arg4)) (W1 m ρ c (Proc.devRef .tc main_v4)) = _
  rw [show W1 m ρ c (Proc.devRef .tc main_arg1) = W0 m ρ c (Proc.devRef .tc main_arg1) from untouched_by hostOps0,
    show W1 m ρ c (Proc.devRef .tc main_arg4) = W0 m ρ c (Proc.devRef .tc main_arg4) from untouched_by hostOps0,
    show W1 m ρ c (Proc.devRef .tc main_v4) = asRow (W0 m ρ c (Proc.devRef .tc main_arg5)) from first_bias (W0 m ρ c)]

/-- The source-node index vector at the embedding call's exit. -/
theorem rows_at (c : Dev nD) : W2 m ρ c (Proc.devRef .tc main_v1) = Fns.rowOf (m ((c.tc : Thread nD τ).loc main_arg2)) :=
  (W2_of_ne m ρ c main_v1 (by decide)).trans (first_row (W0 m ρ c))

/-- The target-node index vector at the embedding call's exit. -/
theorem cols_at (c : Dev nD) : W2 m ρ c (Proc.devRef .tc main_v3) = Fns.colOf (m ((c.tc : Thread nD τ).loc main_arg2)) :=
  (W2_of_ne m ρ c main_v3 (by decide)).trans (first_col (W0 m ρ c))

/-- The positions and the two layers' weights stand as launched at the embedding call's exit. -/
theorem args_at (c : Dev nD) (b : Ref sig .tc)
    (hb : b ∈ [main_arg0, main_arg6, main_arg7, main_arg8, main_arg9, main_arg10, main_arg11, main_arg12, main_arg13, main_arg14, main_arg15]) :
    W2 m ρ c (Proc.devRef .tc b) = m ((c.tc : Thread nD τ).loc b) := by
  simp only [List.mem_cons, List.not_mem_nil, or_false] at hb
  rcases hb with rfl | rfl | rfl | rfl | rfl | rfl | rfl | rfl | rfl | rfl | rfl <;>
    exact (W2_of_ne m ρ c _ (by decide)).trans (untouched_by hostOps0)

/-! ## Across the first layer -/

/-- The positions, the two index vectors and the second layer's weights stand across the first layer. -/
theorem across_first_layer (c : Dev nD) (b : Ref sig .tc) (hb : b ∈ [main_arg0, main_v1, main_v3, main_arg11, main_arg12, main_arg13, main_arg14, main_arg15]) :
    W11 m ρ c (Proc.devRef .tc b) = W2 m ρ c (Proc.devRef .tc b) := by
  simp only [List.mem_cons, List.not_mem_nil, or_false] at hb
  rcases hb with rfl | rfl | rfl | rfl | rfl | rfl | rfl | rfl <;>
    exact (W11_of_ne m ρ c _ (by decide)).trans <|
      (untouched_by hostOps2 : W10 m ρ c _ = W9 m ρ c _).trans <|
      (W9_of_ne m ρ c _ (by decide)).trans <|
      (untouched_by hostOps1_5 : W8 m ρ c _ = W7 m ρ c _).trans <|
      (untouched_by hostOps1_4 : W7 m ρ c _ = W6 m ρ c _).trans <|
      (untouched_by hostOps1_3 : W6 m ρ c _ = W5 m ρ c _).trans <|
      (untouched_by hostOps1_2 : W5 m ρ c _ = W4 m ρ c _).trans <|
      (untouched_by hostOps1_1 : W4 m ρ c _ = W3 m ρ c _).trans
      (untouched_by hostOps1 : W3 m ρ c _ = W2 m ρ c _)

/-! ## The result -/

/-- At the last call's exit the result buffer holds the network of the argument arrays. -/
theorem result (c : Dev nD) :
    W20 m ρ c (Proc.devRef .tc main_v45)
      = net Fns.H (m ((c.tc : Thread nD τ).loc main_arg0)) (m ((c.tc : Thread nD τ).loc main_arg1)) (Fns.rowOf (m ((c.tc : Thread nD τ).loc main_arg2))) (Fns.colOf (m ((c.tc : Thread nD τ).loc main_arg2))) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  rw [Layer2.out m ρ c, Layer1.out m ρ c,
    across_first_layer m ρ c main_arg0 (by simp), across_first_layer m ρ c main_v1 (by simp),
    across_first_layer m ρ c main_v3 (by simp), across_first_layer m ρ c main_arg11 (by simp),
    across_first_layer m ρ c main_arg12 (by simp), across_first_layer m ρ c main_arg13 (by simp),
    across_first_layer m ρ c main_arg14 (by simp), across_first_layer m ρ c main_arg15 (by simp),
    embedded m ρ c, rows_at m ρ c, cols_at m ρ c,
    args_at m ρ c main_arg0 (by simp), args_at m ρ c main_arg6 (by simp), args_at m ρ c main_arg7 (by simp), args_at m ρ c main_arg8 (by simp), args_at m ρ c main_arg9 (by simp), args_at m ρ c main_arg10 (by simp), args_at m ρ c main_arg11 (by simp), args_at m ρ c main_arg12 (by simp), args_at m ρ c main_arg13 (by simp), args_at m ρ c main_arg14 (by simp), args_at m ρ c main_arg15 (by simp)]
  rfl

end Cert.KernelIdeal.Whole

end
-- ==== Proof.RefOps.lean ====
/-
  The reference program's host operations, in order, as consecutive stretches: the embedding and the two index
  vectors, then each message-passing layer.
-/
import proofs.«403838_j86191403696812_1_alg».proof.Proof.Gen.ReferenceIdeal
import Idealize.ShloMosaic.Lib.StableHlo.Run

set_option maxRecDepth 8192

noncomputable section

namespace Cert.ReferenceIdeal.Stretch

open Cert.ReferenceIdeal Cert.ReferenceIdeal.Gen Idealize.ShloMosaic Idealize.ShloMosaic.TcCoe Idealize.SL.Sem Idealize.ShloMosaic.StableHlo

variable {F : FTy → Type} [FloatOps F]

/-- Operations 0 to 7 of @main. -/
abbrev opsInit : List (HloOp τ sig (Elt F)) :=
  [ unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg1 main_arg4 main_v4 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    unary main_arg5 main_v5 (broadcastInDim S1x64 ![1] bcast_S64_S1x64_1 : (⟨S64, .f32⟩ : BufTy).Contents (Elt F) → (⟨S1x64, .f32⟩ : BufTy).Contents (Elt F)),
    unary main_v5 main_v6 (broadcastInDim S50000x64 ![0, 1] bcast_S1x64_S50000x64_0_1 : (⟨S1x64, .f32⟩ : BufTy).Contents (Elt F) → (⟨S50000x64, .f32⟩ : BufTy).Contents (Elt F)),
    binary main_v4 main_v6 main_v7 (addf : (⟨S50000x64, .f32⟩ : BufTy).Contents (Elt F) → (⟨S50000x64, .f32⟩ : BufTy).Contents (Elt F) → (⟨S50000x64, .f32⟩ : BufTy).Contents (Elt F)) ]

/-- Each of them touches TensorCore references only. -/
theorem opsInit_sub : (opsInit : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub ..⟩

/-- Operations 8 to 70 of @main. -/
abbrev opsLayer1 : List (HloOp τ sig (Elt F)) :=
  [ nullary main_c (constantI S_ 32 0#32),
    unary main_c main_v8 (broadcastInDim S800000 ![] bcast_S_S800000 : (⟨S_, .i32⟩ : BufTy).Contents (Elt F) → (⟨S800000, .i32⟩ : BufTy).Contents (Elt F)),
    binary main_v1 main_v8 main_v9 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v10 (broadcastInDim S800000 ![] bcast_S_S800000 : (⟨S_, .i32⟩ : BufTy).Contents (Elt F) → (⟨S800000, .i32⟩ : BufTy).Contents (Elt F)),
    binary main_v1 main_v10 main_v11 (addi : (⟨S800000, .i32⟩ : BufTy).Contents (Elt F) → (⟨S800000, .i32⟩ : BufTy).Contents (Elt F) → (⟨S800000, .i32⟩ : BufTy).Contents (Elt F)),
    ternary main_v9 main_v11 main_v1 main_v12 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v12 main_v13 (broadcastInDim S800000x1 ![0] bcast_S800000_S800000x1_0 : (⟨S800000, .i32⟩ : BufTy).Contents (Elt F) → (⟨S800000x1, .i32⟩ : BufTy).Contents (Elt F)),
    binary main_arg0 main_v13 main_v14 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    nullary main_c_1 (constantI S_ 32 0#32),
    unary main_c_1 main_v15 (broadcastInDim S800000 ![] bcast_S_S800000 : (⟨S_, .i32⟩ : BufTy).Contents (Elt F) → (⟨S800000, .i32⟩ : BufTy).Contents (Elt F)),
    binary main_v3 main_v15 main_v16 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v17 (broadcastInDim S800000 ![] bcast_S_S800000 : (⟨S_, .i32⟩ : BufTy).Contents (Elt F) → (⟨S800000, .i32⟩ : BufTy).Contents (Elt F)),
    binary main_v3 main_v17 main_v18 (addi : (⟨S800000, .i32⟩ : BufTy).Contents (Elt F) → (⟨S800000, .i32⟩ : BufTy).Contents (Elt F) → (⟨S800000, .i32⟩ : BufTy).Contents (Elt F)),
    ternary main_v16 main_v18 main_v3 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v19 main_v20 (broadcastInDim S800000x1 ![0] bcast_S800000_S800000x1_0 : (⟨S800000, .i32⟩ : BufTy).Contents (Elt F) → (⟨S800000x1, .i32⟩ : BufTy).Contents (Elt F)),
    binary main_arg0 main_v20 main_v21 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    binary main_v14 main_v21 main_v22 (subf : (⟨S800000x3, .f32⟩ : BufTy).Contents (Elt F) → (⟨S800000x3, .f32⟩ : BufTy).Contents (Elt F) → (⟨S800000x3, .f32⟩ : BufTy).Contents (Elt F)),
    binary main_v22 main_v22 main_v23 (mulf : (⟨S800000x3, .f32⟩ : BufTy).Contents (Elt F) → (⟨S800000x3, .f32⟩ : BufTy).Contents (Elt F) → (⟨S800000x3, .f32⟩ : BufTy).Contents (Elt F)),
    nullary main_cst (constant S_ .f32 0x00000000#32),
    binary main_v23 main_cst main_v24 ((fun x v => Host.reduceAdd x v reducesTo_S800000x3_S800000_d1 h_S_) : (⟨S800000x3, .f32⟩ : BufTy).Contents (Elt F) → (⟨S_, .f32⟩ : BufTy).Contents (Elt F) → (⟨S800000, .f32⟩ : BufTy).Contents (Elt F)),
    unary main_v24 main_v25 (broadcastInDim S800000x1 ![0] bcast_S800000_S800000x1_0 : (⟨S800000, .f32⟩ : BufTy).Contents (Elt F) → (⟨S800000x1, .f32⟩ : BufTy).Contents (Elt F)),
    nullary main_c_3 (constantI S_ 32 0#32),
    unary main_c_3 main_v26 (broadcastInDim S800000 ![] bcast_S_S800000 : (⟨S_, .i32⟩ : BufTy).Contents (Elt F) → (⟨S800000, .i32⟩ : BufTy).Contents (Elt F)),
    binary main_v1 main_v26 main_v27 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v28 (broadcastInDim S800000 ![] bcast_S_S800000 : (⟨S_, .i32⟩ : BufTy).Contents (Elt F) → (⟨S800000, .i32⟩ : BufTy).Contents (Elt F)),
    binary main_v1 main_v28 main_v29 (addi : (⟨S800000, .i32⟩ : BufTy).Contents (Elt F) → (⟨S800000, .i32⟩ : BufTy).Contents (Elt F) → (⟨S800000, .i32⟩ : BufTy).Contents (Elt F)),
    ternary main_v27 main_v29 main_v1 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v30 main_v31 (broadcastInDim S800000x1 ![0] bcast_S800000_S800000x1_0 : (⟨S800000, .i32⟩ : BufTy).Contents (Elt F) → (⟨S800000x1, .i32⟩ : BufTy).Contents (Elt F)),
    binary main_v7 main_v31 main_v32 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_5 (constantI S_ 32 0#32),
    unary main_c_5 main_v33 (broadcastInDim S800000 ![] bcast_S_S800000 : (⟨S_, .i32⟩ : BufTy).Contents (Elt F) → (⟨S800000, .i32⟩ : BufTy).Contents (Elt F)),
    binary main_v3 main_v33 main_v34 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v35 (broadcastInDim S800000 ![] bcast_S_S800000 : (⟨S_, .i32⟩ : BufTy).Contents (Elt F) → (⟨S800000, .i32⟩ : BufTy).Contents (Elt F)),
    binary main_v3 main_v35 main_v36 (addi : (⟨S800000, .i32⟩ : BufTy).Contents (Elt F) → (⟨S800000, .i32⟩ : BufTy).Contents (Elt F) → (⟨S800000, .i32⟩ : BufTy).Contents (Elt F)),
    ternary main_v34 main_v36 main_v3 main_v37 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v37 main_v38 (broadcastInDim S800000x1 ![0] bcast_S800000_S800000x1_0 : (⟨S800000, .i32⟩ : BufTy).Contents (Elt F) → (⟨S800000x1, .i32⟩ : BufTy).Contents (Elt F)),
    binary main_v7 main_v38 main_v39 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nary ![main_v32, main_v39, main_v25] main_v40 (fun u => concatenate S800000x129 1 [⟨S800000x64, u 0⟩, ⟨S800000x64, u 1⟩, ⟨S800000x1, u 2⟩] concatenates_S800000x64_S800000x64_S800000x1_S800000x129_d1),
    binary main_v40 main_arg7 main_v41 ((fun l r => Host.dotGeneral dot_S800000x129_S129x64_S800000x64_1_0_0_1_n_n none l r) : (⟨S800000x129, .f32⟩ : BufTy).Contents (Elt F) → (⟨S129x64, .f32⟩ : BufTy).Contents (Elt F) → (⟨S800000x64, .f32⟩ : BufTy).Contents (Elt F)),
    unary main_arg8 main_v42 (broadcastInDim S1x64 ![1] bcast_S64_S1x64_1 : (⟨S64, .f32⟩ : BufTy).Contents (Elt F) → (⟨S1x64, .f32⟩ : BufTy).Contents (Elt F)),
    unary main_v42 main_v43 (broadcastInDim S800000x64 ![0, 1] bcast_S1x64_S800000x64_0_1 : (⟨S1x64, .f32⟩ : BufTy).Contents (Elt F) → (⟨S800000x64, .f32⟩ : BufTy).Contents (Elt F)),
    binary main_v41 main_v43 main_v44 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x64, .f32⟩) main_call0_v0) (broadcastInDim S800000x64 ![] bcast_S_S800000x64),
    TRef.binary (TRef.of (T := ⟨S800000x64, .f32⟩) main_v44) (TRef.of (T := ⟨S800000x64, .f32⟩) main_call0_v0) (TRef.of (T := ⟨S800000x64, .f32⟩) main_v45) maximumf,
    nullary main_cst_7 (constant S_ .f32 0x00000000#32),
    unary main_cst_7 main_v46 (broadcastInDim S50000x64 ![] bcast_S_S50000x64 : (⟨S_, .f32⟩ : BufTy).Contents (Elt F) → (⟨S50000x64, .f32⟩ : BufTy).Contents (Elt F)),
    unary main_v3 main_v47 (broadcastInDim S800000x1 ![0] bcast_S800000_S800000x1_0 : (⟨S800000, .i32⟩ : BufTy).Contents (Elt F) → (⟨S800000x1, .i32⟩ : BufTy).Contents (Elt F)),
    ternary main_v46 main_v47 main_v45 main_v48 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v7 main_v48 main_v49 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    binary main_v7 main_arg6 main_v50 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v49 main_arg9 main_v51 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg10 main_v52 (broadcastInDim S1x64 ![1] bcast_S64_S1x64_1 : (⟨S64, .f32⟩ : BufTy).Contents (Elt F) → (⟨S1x64, .f32⟩ : BufTy).Contents (Elt F)),
    unary main_v52 main_v53 (broadcastInDim S50000x64 ![0, 1] bcast_S1x64_S50000x64_0_1 : (⟨S1x64, .f32⟩ : BufTy).Contents (Elt F) → (⟨S50000x64, .f32⟩ : BufTy).Contents (Elt F)),
    binary main_v51 main_v53 main_v54 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v54) (TRef.of (T := ⟨S50000x64, .f32⟩) main_call1_v0) (TRef.of (T := ⟨S50000x64, .f32⟩) main_v55) maximumf,
    binary main_v50 main_v55 main_v56 (addf : (⟨S50000x64, .f32⟩ : BufTy).Contents (Elt F) → (⟨S50000x64, .f32⟩ : BufTy).Contents (Elt F) → (⟨S50000x64, .f32⟩ : BufTy).Contents (Elt F)) ]

/-- Each of them touches TensorCore references only. -/
theorem opsLayer1_sub : (opsLayer1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., binary_bufs_sub .., binary_bufs_sub .., binary_bufs_sub .., unary_bufs_sub .., unary_bufs_sub .., binary_bufs_sub .., nullary_bufs_sub .., unary_bufs_sub .., binary_bufs_sub .., binary_bufs_sub ..⟩

/-- Operations 71 to 133 of @main. -/
abbrev opsLayer2 : List (HloOp τ sig (Elt F)) :=
  [ nullary main_c_8 (constantI S_ 32 0#32),
    unary main_c_8 main_v57 (broadcastInDim S800000 ![] bcast_S_S800000 : (⟨S_, .i32⟩ : BufTy).Contents (Elt F) → (⟨S800000, .i32⟩ : BufTy).Contents (Elt F)),
    binary main_v1 main_v57 main_v58 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v59 (broadcastInDim S800000 ![] bcast_S_S800000 : (⟨S_, .i32⟩ : BufTy).Contents (Elt F) → (⟨S800000, .i32⟩ : BufTy).Contents (Elt F)),
    binary main_v1 main_v59 main_v60 (addi : (⟨S800000, .i32⟩ : BufTy).Contents (Elt F) → (⟨S800000, .i32⟩ : BufTy).Contents (Elt F) → (⟨S800000, .i32⟩ : BufTy).Contents (Elt F)),
    ternary main_v58 main_v60 main_v1 main_v61 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v61 main_v62 (broadcastInDim S800000x1 ![0] bcast_S800000_S800000x1_0 : (⟨S800000, .i32⟩ : BufTy).Contents (Elt F) → (⟨S800000x1, .i32⟩ : BufTy).Contents (Elt F)),
    binary main_arg0 main_v62 main_v63 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    nullary main_c_10 (constantI S_ 32 0#32),
    unary main_c_10 main_v64 (broadcastInDim S800000 ![] bcast_S_S800000 : (⟨S_, .i32⟩ : BufTy).Contents (Elt F) → (⟨S800000, .i32⟩ : BufTy).Contents (Elt F)),
    binary main_v3 main_v64 main_v65 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v66 (broadcastInDim S800000 ![] bcast_S_S800000 : (⟨S_, .i32⟩ : BufTy).Contents (Elt F) → (⟨S800000, .i32⟩ : BufTy).Contents (Elt F)),
    binary main_v3 main_v66 main_v67 (addi : (⟨S800000, .i32⟩ : BufTy).Contents (Elt F) → (⟨S800000, .i32⟩ : BufTy).Contents (Elt F) → (⟨S800000, .i32⟩ : BufTy).Contents (Elt F)),
    ternary main_v65 main_v67 main_v3 main_v68 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v68 main_v69 (broadcastInDim S800000x1 ![0] bcast_S800000_S800000x1_0 : (⟨S800000, .i32⟩ : BufTy).Contents (Elt F) → (⟨S800000x1, .i32⟩ : BufTy).Contents (Elt F)),
    binary main_arg0 main_v69 main_v70 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    binary main_v63 main_v70 main_v71 (subf : (⟨S800000x3, .f32⟩ : BufTy).Contents (Elt F) → (⟨S800000x3, .f32⟩ : BufTy).Contents (Elt F) → (⟨S800000x3, .f32⟩ : BufTy).Contents (Elt F)),
    binary main_v71 main_v71 main_v72 (mulf : (⟨S800000x3, .f32⟩ : BufTy).Contents (Elt F) → (⟨S800000x3, .f32⟩ : BufTy).Contents (Elt F) → (⟨S800000x3, .f32⟩ : BufTy).Contents (Elt F)),
    nullary main_cst_12 (constant S_ .f32 0x00000000#32),
    binary main_v72 main_cst_12 main_v73 ((fun x v => Host.reduceAdd x v reducesTo_S800000x3_S800000_d1 h_S_) : (⟨S800000x3, .f32⟩ : BufTy).Contents (Elt F) → (⟨S_, .f32⟩ : BufTy).Contents (Elt F) → (⟨S800000, .f32⟩ : BufTy).Contents (Elt F)),
    unary main_v73 main_v74 (broadcastInDim S800000x1 ![0] bcast_S800000_S800000x1_0 : (⟨S800000, .f32⟩ : BufTy).Contents (Elt F) → (⟨S800000x1, .f32⟩ : BufTy).Contents (Elt F)),
    nullary main_c_13 (constantI S_ 32 0#32),
    unary main_c_13 main_v75 (broadcastInDim S800000 ![] bcast_S_S800000 : (⟨S_, .i32⟩ : BufTy).Contents (Elt F) → (⟨S800000, .i32⟩ : BufTy).Contents (Elt F)),
    binary main_v1 main_v75 main_v76 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v77 (broadcastInDim S800000 ![] bcast_S_S800000 : (⟨S_, .i32⟩ : BufTy).Contents (Elt F) → (⟨S800000, .i32⟩ : BufTy).Contents (Elt F)),
    binary main_v1 main_v77 main_v78 (addi : (⟨S800000, .i32⟩ : BufTy).Contents (Elt F) → (⟨S800000, .i32⟩ : BufTy).Contents (Elt F) → (⟨S800000, .i32⟩ : BufTy).Contents (Elt F)),
    ternary main_v76 main_v78 main_v1 main_v79 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v79 main_v80 (broadcastInDim S800000x1 ![0] bcast_S800000_S800000x1_0 : (⟨S800000, .i32⟩ : BufTy).Contents (Elt F) → (⟨S800000x1, .i32⟩ : BufTy).Contents (Elt F)),
    binary main_v56 main_v80 main_v81 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_15 (constantI S_ 32 0#32),
    unary main_c_15 main_v82 (broadcastInDim S800000 ![] bcast_S_S800000 : (⟨S_, .i32⟩ : BufTy).Contents (Elt F) → (⟨S800000, .i32⟩ : BufTy).Contents (Elt F)),
    binary main_v3 main_v82 main_v83 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v84 (broadcastInDim S800000 ![] bcast_S_S800000 : (⟨S_, .i32⟩ : BufTy).Contents (Elt F) → (⟨S800000, .i32⟩ : BufTy).Contents (Elt F)),
    binary main_v3 main_v84 main_v85 (addi : (⟨S800000, .i32⟩ : BufTy).Contents (Elt F) → (⟨S800000, .i32⟩ : BufTy).Contents (Elt F) → (⟨S800000, .i32⟩ : BufTy).Contents (Elt F)),
    ternary main_v83 main_v85 main_v3 main_v86 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v86 main_v87 (broadcastInDim S800000x1 ![0] bcast_S800000_S800000x1_0 : (⟨S800000, .i32⟩ : BufTy).Contents (Elt F) → (⟨S800000x1, .i32⟩ : BufTy).Contents (Elt F)),
    binary main_v56 main_v87 main_v88 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nary ![main_v81, main_v88, main_v74] main_v89 (fun u => concatenate S800000x129 1 [⟨S800000x64, u 0⟩, ⟨S800000x64, u 1⟩, ⟨S800000x1, u 2⟩] concatenates_S800000x64_S800000x64_S800000x1_S800000x129_d1),
    binary main_v89 main_arg12 main_v90 ((fun l r => Host.dotGeneral dot_S800000x129_S129x64_S800000x64_1_0_0_1_n_n none l r) : (⟨S800000x129, .f32⟩ : BufTy).Contents (Elt F) → (⟨S129x64, .f32⟩ : BufTy).Contents (Elt F) → (⟨S800000x64, .f32⟩ : BufTy).Contents (Elt F)),
    unary main_arg13 main_v91 (broadcastInDim S1x64 ![1] bcast_S64_S1x64_1 : (⟨S64, .f32⟩ : BufTy).Contents (Elt F) → (⟨S1x64, .f32⟩ : BufTy).Contents (Elt F)),
    unary main_v91 main_v92 (broadcastInDim S800000x64 ![0, 1] bcast_S1x64_S800000x64_0_1 : (⟨S1x64, .f32⟩ : BufTy).Contents (Elt F) → (⟨S800000x64, .f32⟩ : BufTy).Contents (Elt F)),
    binary main_v90 main_v92 main_v93 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S800000x64, .f32⟩) main_call2_v0) (broadcastInDim S800000x64 ![] bcast_S_S800000x64),
    TRef.binary (TRef.of (T := ⟨S800000x64, .f32⟩) main_v93) (TRef.of (T := ⟨S800000x64, .f32⟩) main_call2_v0) (TRef.of (T := ⟨S800000x64, .f32⟩) main_v94) maximumf,
    nullary main_cst_17 (constant S_ .f32 0x00000000#32),
    unary main_cst_17 main_v95 (broadcastInDim S50000x64 ![] bcast_S_S50000x64 : (⟨S_, .f32⟩ : BufTy).Contents (Elt F) → (⟨S50000x64, .f32⟩ : BufTy).Contents (Elt F)),
    unary main_v3 main_v96 (broadcastInDim S800000x1 ![0] bcast_S800000_S800000x1_0 : (⟨S800000, .i32⟩ : BufTy).Contents (Elt F) → (⟨S800000x1, .i32⟩ : BufTy).Contents (Elt F)),
    ternary main_v95 main_v96 main_v94 main_v97 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v56 main_v97 main_v98 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    binary main_v56 main_arg11 main_v99 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v98 main_arg14 main_v100 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg15 main_v101 (broadcastInDim S1x64 ![1] bcast_S64_S1x64_1 : (⟨S64, .f32⟩ : BufTy).Contents (Elt F) → (⟨S1x64, .f32⟩ : BufTy).Contents (Elt F)),
    unary main_v101 main_v102 (broadcastInDim S50000x64 ![0, 1] bcast_S1x64_S50000x64_0_1 : (⟨S1x64, .f32⟩ : BufTy).Contents (Elt F) → (⟨S50000x64, .f32⟩ : BufTy).Contents (Elt F)),
    binary main_v100 main_v102 main_v103 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v103) (TRef.of (T := ⟨S50000x64, .f32⟩) main_call3_v0) (TRef.of (T := ⟨S50000x64, .f32⟩) main_v104) maximumf,
    binary main_v99 main_v104 main_v105 (addf : (⟨S50000x64, .f32⟩ : BufTy).Contents (Elt F) → (⟨S50000x64, .f32⟩ : BufTy).Contents (Elt F) → (⟨S50000x64, .f32⟩ : BufTy).Contents (Elt F)) ]

/-- Each of them touches TensorCore references only. -/
theorem opsLayer2_sub : (opsLayer2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., binary_bufs_sub .., binary_bufs_sub .., binary_bufs_sub .., unary_bufs_sub .., unary_bufs_sub .., binary_bufs_sub .., nullary_bufs_sub .., unary_bufs_sub .., binary_bufs_sub .., binary_bufs_sub ..⟩

end Cert.ReferenceIdeal.Stretch

end
-- ==== Proof.RefRun.lean ====
/-
  The reference program's run: its @main is the three stretches of host operations one after the other, so every
  weakly fair execution terminates with each buffer at the operations' fold over its launch contents; and no
  operation writes an argument, so the arguments end as launched.
-/
import proofs.«403838_j86191403696812_1_alg».proof.Proof.RefOps
import Mathlib.Data.List.Basic

set_option maxRecDepth 8192

noncomputable section

namespace Cert.ReferenceIdeal.Stretch

open Cert.ReferenceIdeal Cert.ReferenceIdeal.Gen Idealize.ShloMosaic Idealize.ShloMosaic.TcCoe Idealize.SL.Sem Idealize.ShloMosaic.StableHlo

variable {F : FTy → Type} [FloatOps F]

/-- The signature scopes no reference of the TensorCore. -/
theorem scopedRefs_eq : (Finset.univ.filter fun b : Ref sig .tc => b.isScoped) = ∅ := by decide

/-- Nor any semaphore. -/
theorem scopedSems_eq : (Finset.univ.filter fun sm : SemLoc sig => sm.isScoped .tc) = ∅ := by decide

set_option maxHeartbeats 4000000 in
/-- @main is the three stretches in order. -/
theorem main_eq (c : Dev nD) : main (F := F) c = seq (opsInit ++ opsLayer1 ++ opsLayer2) := rfl

/-- Every operation touches TensorCore references only. -/
theorem ops_sub : (opsInit ++ opsLayer1 ++ opsLayer2 : List (HloOp τ sig (Elt F))).Forall fun op => op.bufs ⊆ tcRefs τ sig :=
  List.forall_append.mpr ⟨List.forall_append.mpr ⟨opsInit_sub, opsLayer1_sub⟩, opsLayer2_sub⟩

/-- None of operations 0 to 7 allocates: each builder's set of fresh buffers is empty by definition. -/
theorem fresh_init : (opsInit : List (HloOp τ sig (Elt F))).Forall fun op => op.fresh = ∅ :=
  ⟨rfl, rfl, rfl, rfl, rfl, rfl, rfl, rfl⟩

/-- Nor any of operations 8 to 70. -/
theorem fresh_layer1 : (opsLayer1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl⟩

/-- Nor any of operations 71 to 133. -/
theorem fresh_layer2 : (opsLayer2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl⟩

/-- No operation allocates a buffer. -/
theorem ops_fresh : ∀ op ∈ (opsInit ++ opsLayer1 ++ opsLayer2 : List (HloOp τ sig (Elt F))), op.fresh = ∅ :=
  List.forall_iff_forall_mem.mp
    (List.forall_append.mpr ⟨List.forall_append.mpr ⟨fresh_init, fresh_layer1⟩, fresh_layer2⟩)

/-- Every weakly fair execution of @main terminates, nothing faulting, with every buffer at the fold of the three
    stretches over the launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b)
        = after (opsInit ++ opsLayer1 ++ opsLayer2) (launchContents m c) (Proc.devRef .tc b) :=
  run_seq scopedRefs_eq scopedSems_eq defs main (fun _ => opsInit ++ opsLayer1 ++ opsLayer2) main_eq (fun _ => ops_sub) m ρ
    (fun _ => ops_fresh)

/-- The result reference of each of the 134 operations, in the operations' order: everything the program writes. -/
noncomputable def written : List (Ref sig .tc) :=
  [ main_v0, main_v1, main_v2, main_v3, main_v4, main_v5, main_v6, main_v7, main_c, main_v8, main_v9, main_c_0,
    main_v10, main_v11, main_v12, main_v13, main_v14, main_c_1, main_v15, main_v16, main_c_2, main_v17, main_v18,
    main_v19, main_v20, main_v21, main_v22, main_v23, main_cst, main_v24, main_v25, main_c_3, main_v26, main_v27,
    main_c_4, main_v28, main_v29, main_v30, main_v31, main_v32, main_c_5, main_v33, main_v34, main_c_6, main_v35,
    main_v36, main_v37, main_v38, main_v39, main_v40, main_v41, main_v42, main_v43, main_v44, main_call0_cst,
    main_call0_v0, main_v45, main_cst_7, main_v46, main_v47, main_v48, main_v49, main_v50, main_v51, main_v52,
    main_v53, main_v54, main_call1_cst, main_call1_v0, main_v55, main_v56, main_c_8, main_v57, main_v58, main_c_9,
    main_v59, main_v60, main_v61, main_v62, main_v63, main_c_10, main_v64, main_v65, main_c_11, main_v66, main_v67,
    main_v68, main_v69, main_v70, main_v71, main_v72, main_cst_12, main_v73, main_v74, main_c_13, main_v75, main_v76,
    main_c_14, main_v77, main_v78, main_v79, main_v80, main_v81, main_c_15, main_v82, main_v83, main_c_16, main_v84,
    main_v85, main_v86, main_v87, main_v88, main_v89, main_v90, main_v91, main_v92, main_v93, main_call2_cst,
    main_call2_v0, main_v94, main_cst_17, main_v95, main_v96, main_v97, main_v98, main_v99, main_v100, main_v101,
    main_v102, main_v103, main_call3_cst, main_call3_v0, main_v104, main_v105 ]

/-- A reference of a list, as a device buffer, is among the list's device buffers. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Each operation writes its one result, which is of that list. -/
theorem writes_sub : (opsInit ++ opsLayer1 ++ opsLayer2 : List (HloOp τ sig (Elt F))).Forall fun op =>
    op.writes ⊆ (written.map (Proc.devRef (τ := τ) .tc)).toFinset := by
  simp only [opsInit, opsLayer1, opsLayer2, List.cons_append, List.nil_append, List.Forall, nullary_writes, unary_writes,
    binary_writes, ternary_writes, reshape_writes, nary_writes]
  repeat' apply And.intro
  all_goals exact single_sub_of_mem (by decide)

/-- No argument is of that list. -/
theorem args_not_written : ∀ b ∈ [main_arg0, main_arg1, main_arg2, main_arg3, main_arg4, main_arg5, main_arg6, main_arg7, main_arg8, main_arg9, main_arg10, main_arg11, main_arg12, main_arg13, main_arg14, main_arg15], b ∉ written := by
  decide

/-- No operation writes an argument: at an argument's buffer the fold is the launch contents. -/
theorem kept (m : (ℓ : Loc nD τ sig) → Buf (Elt F) ℓ) (c : Dev nD) (b : Ref sig .tc)
    (hb : b ∈ [main_arg0, main_arg1, main_arg2, main_arg3, main_arg4, main_arg5, main_arg6, main_arg7, main_arg8, main_arg9, main_arg10, main_arg11, main_arg12, main_arg13, main_arg14, main_arg15]) :
    after (opsInit ++ opsLayer1 ++ opsLayer2) (launchContents m c) (Proc.devRef .tc b) = m ((c.tc : Thread nD τ).loc b) :=
  after_of_writes_sub _ _ writes_sub (args_not_written b hb)

end Cert.ReferenceIdeal.Stretch

end
-- ==== Proof.RefOpsFine.lean ====
/-
  The reference program's host operations, in order, as consecutive stretches: the embedding and the two index
  vectors, then each message-passing layer.
-/
import proofs.«403838_j86191403696812_1_alg».proof.Proof.Gen.ReferenceIdeal
import Idealize.ShloMosaic.Lib.StableHlo.Run

set_option maxRecDepth 8192

noncomputable section

namespace Cert.ReferenceIdeal.Stretch

open Cert.ReferenceIdeal Cert.ReferenceIdeal.Gen Idealize.ShloMosaic Idealize.ShloMosaic.TcCoe Idealize.SL.Sem Idealize.ShloMosaic.StableHlo

variable {F : FTy → Type} [FloatOps F]

/-- Operations 8 to 48 of @main. -/
abbrev opsSel1 : List (HloOp τ sig (Elt F)) :=
  [ nullary main_c (constantI S_ 32 0#32),
    unary main_c main_v8 (broadcastInDim S800000 ![] bcast_S_S800000 : (⟨S_, .i32⟩ : BufTy).Contents (Elt F) → (⟨S800000, .i32⟩ : BufTy).Contents (Elt F)),
    binary main_v1 main_v8 main_v9 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v10 (broadcastInDim S800000 ![] bcast_S_S800000 : (⟨S_, .i32⟩ : BufTy).Contents (Elt F) → (⟨S800000, .i32⟩ : BufTy).Contents (Elt F)),
    binary main_v1 main_v10 main_v11 (addi : (⟨S800000, .i32⟩ : BufTy).Contents (Elt F) → (⟨S800000, .i32⟩ : BufTy).Contents (Elt F) → (⟨S800000, .i32⟩ : BufTy).Contents (Elt F)),
    ternary main_v9 main_v11 main_v1 main_v12 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v12 main_v13 (broadcastInDim S800000x1 ![0] bcast_S800000_S800000x1_0 : (⟨S800000, .i32⟩ : BufTy).Contents (Elt F) → (⟨S800000x1, .i32⟩ : BufTy).Contents (Elt F)),
    binary main_arg0 main_v13 main_v14 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    nullary main_c_1 (constantI S_ 32 0#32),
    unary main_c_1 main_v15 (broadcastInDim S800000 ![] bcast_S_S800000 : (⟨S_, .i32⟩ : BufTy).Contents (Elt F) → (⟨S800000, .i32⟩ : BufTy).Contents (Elt F)),
    binary main_v3 main_v15 main_v16 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v17 (broadcastInDim S800000 ![] bcast_S_S800000 : (⟨S_, .i32⟩ : BufTy).Contents (Elt F) → (⟨S800000, .i32⟩ : BufTy).Contents (Elt F)),
    binary main_v3 main_v17 main_v18 (addi : (⟨S800000, .i32⟩ : BufTy).Contents (Elt F) → (⟨S800000, .i32⟩ : BufTy).Contents (Elt F) → (⟨S800000, .i32⟩ : BufTy).Contents (Elt F)),
    ternary main_v16 main_v18 main_v3 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v19 main_v20 (broadcastInDim S800000x1 ![0] bcast_S800000_S800000x1_0 : (⟨S800000, .i32⟩ : BufTy).Contents (Elt F) → (⟨S800000x1, .i32⟩ : BufTy).Contents (Elt F)),
    binary main_arg0 main_v20 main_v21 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    binary main_v14 main_v21 main_v22 (subf : (⟨S800000x3, .f32⟩ : BufTy).Contents (Elt F) → (⟨S800000x3, .f32⟩ : BufTy).Contents (Elt F) → (⟨S800000x3, .f32⟩ : BufTy).Contents (Elt F)),
    binary main_v22 main_v22 main_v23 (mulf : (⟨S800000x3, .f32⟩ : BufTy).Contents (Elt F) → (⟨S800000x3, .f32⟩ : BufTy).Contents (Elt F) → (⟨S800000x3, .f32⟩ : BufTy).Contents (Elt F)),
    nullary main_cst (constant S_ .f32 0x00000000#32),
    binary main_v23 main_cst main_v24 ((fun x v => Host.reduceAdd x v reducesTo_S800000x3_S800000_d1 h_S_) : (⟨S800000x3, .f32⟩ : BufTy).Contents (Elt F) → (⟨S_, .f32⟩ : BufTy).Contents (Elt F) → (⟨S800000, .f32⟩ : BufTy).Contents (Elt F)),
    unary main_v24 main_v25 (broadcastInDim S800000x1 ![0] bcast_S800000_S800000x1_0 : (⟨S800000, .f32⟩ : BufTy).Contents (Elt F) → (⟨S800000x1, .f32⟩ : BufTy).Contents (Elt F)),
    nullary main_c_3 (constantI S_ 32 0#32),
    unary main_c_3 main_v26 (broadcastInDim S800000 ![] bcast_S_S800000 : (⟨S_, .i32⟩ : BufTy).Contents (Elt F) → (⟨S800000, .i32⟩ : BufTy).Contents (Elt F)),
    binary main_v1 main_v26 main_v27 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v28 (broadcastInDim S800000 ![] bcast_S_S800000 : (⟨S_, .i32⟩ : BufTy).Contents (Elt F) → (⟨S800000, .i32⟩ : BufTy).Contents (Elt F)),
    binary main_v1 main_v28 main_v29 (addi : (⟨S800000, .i32⟩ : BufTy).Contents (Elt F) → (⟨S800000, .i32⟩ : BufTy).Contents (Elt F) → (⟨S800000, .i32⟩ : BufTy).Contents (Elt F)),
    ternary main_v27 main_v29 main_v1 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v30 main_v31 (broadcastInDim S800000x1 ![0] bcast_S800000_S800000x1_0 : (⟨S800000, .i32⟩ : BufTy).Contents (Elt F) → (⟨S800000x1, .i32⟩ : BufTy).Contents (Elt F)),
    binary main_v7 main_v31 main_v32 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_5 (constantI S_ 32 0#32),
    unary main_c_5 main_v33 (broadcastInDim S800000 ![] bcast_S_S800000 : (⟨S_, .i32⟩ : BufTy).Contents (Elt F) → (⟨S800000, .i32⟩ : BufTy).Contents (Elt F)),
    binary main_v3 main_v33 main_v34 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v35 (broadcastInDim S800000 ![] bcast_S_S800000 : (⟨S_, .i32⟩ : BufTy).Contents (Elt F) → (⟨S800000, .i32⟩ : BufTy).Contents (Elt F)),
    binary main_v3 main_v35 main_v36 (addi : (⟨S800000, .i32⟩ : BufTy).Contents (Elt F) → (⟨S800000, .i32⟩ : BufTy).Contents (Elt F) → (⟨S800000, .i32⟩ : BufTy).Contents (Elt F)),
    ternary main_v34 main_v36 main_v3 main_v37 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v37 main_v38 (broadcastInDim S800000x1 ![0] bcast_S800000_S800000x1_0 : (⟨S800000, .i32⟩ : BufTy).Contents (Elt F) → (⟨S800000x1, .i32⟩ : BufTy).Contents (Elt F)),
    binary main_v7 main_v38 main_v39 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

/-- Each of them touches TensorCore references only. -/
theorem opsSel1_sub : (opsSel1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- Operations 49 to 60 of @main. -/
abbrev opsMsg1 : List (HloOp τ sig (Elt F)) :=
  [ nary ![main_v32, main_v39, main_v25] main_v40 (fun u => concatenate S800000x129 1 [⟨S800000x64, u 0⟩, ⟨S800000x64, u 1⟩, ⟨S800000x1, u 2⟩] concatenates_S800000x64_S800000x64_S800000x1_S800000x129_d1),
    binary main_v40 main_arg7 main_v41 ((fun l r => Host.dotGeneral dot_S800000x129_S129x64_S800000x64_1_0_0_1_n_n none l r) : (⟨S800000x129, .f32⟩ : BufTy).Contents (Elt F) → (⟨S129x64, .f32⟩ : BufTy).Contents (Elt F) → (⟨S800000x64, .f32⟩ : BufTy).Contents (Elt F)),
    unary main_arg8 main_v42 (broadcastInDim S1x64 ![1] bcast_S64_S1x64_1 : (⟨S64, .f32⟩ : BufTy).Contents (Elt F) → (⟨S1x64, .f32⟩ : BufTy).Contents (Elt F)),
    unary main_v42 main_v43 (broadcastInDim S800000x64 ![0, 1] bcast_S1x64_S800000x64_0_1 : (⟨S1x64, .f32⟩ : BufTy).Contents (Elt F) → (⟨S800000x64, .f32⟩ : BufTy).Contents (Elt F)),
    binary main_v41 main_v43 main_v44 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x64, .f32⟩) main_call0_v0) (broadcastInDim S800000x64 ![] bcast_S_S800000x64),
    TRef.binary (TRef.of (T := ⟨S800000x64, .f32⟩) main_v44) (TRef.of (T := ⟨S800000x64, .f32⟩) main_call0_v0) (TRef.of (T := ⟨S800000x64, .f32⟩) main_v45) maximumf,
    nullary main_cst_7 (constant S_ .f32 0x00000000#32),
    unary main_cst_7 main_v46 (broadcastInDim S50000x64 ![] bcast_S_S50000x64 : (⟨S_, .f32⟩ : BufTy).Contents (Elt F) → (⟨S50000x64, .f32⟩ : BufTy).Contents (Elt F)),
    unary main_v3 main_v47 (broadcastInDim S800000x1 ![0] bcast_S800000_S800000x1_0 : (⟨S800000, .i32⟩ : BufTy).Contents (Elt F) → (⟨S800000x1, .i32⟩ : BufTy).Contents (Elt F)),
    ternary main_v46 main_v47 main_v45 main_v48 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- Each of them touches TensorCore references only. -/
theorem opsMsg1_sub : (opsMsg1 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub ..⟩

/-- Operations 61 to 70 of @main. -/
abbrev opsUpd1 : List (HloOp τ sig (Elt F)) :=
  [ binary main_v7 main_v48 main_v49 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    binary main_v7 main_arg6 main_v50 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v49 main_arg9 main_v51 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg10 main_v52 (broadcastInDim S1x64 ![1] bcast_S64_S1x64_1 : (⟨S64, .f32⟩ : BufTy).Contents (Elt F) → (⟨S1x64, .f32⟩ : BufTy).Contents (Elt F)),
    unary main_v52 main_v53 (broadcastInDim S50000x64 ![0, 1] bcast_S1x64_S50000x64_0_1 : (⟨S1x64, .f32⟩ : BufTy).Contents (Elt F) → (⟨S50000x64, .f32⟩ : BufTy).Contents (Elt F)),
    binary main_v51 main_v53 main_v54 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v54) (TRef.of (T := ⟨S50000x64, .f32⟩) main_call1_v0) (TRef.of (T := ⟨S50000x64, .f32⟩) main_v55) maximumf,
    binary main_v50 main_v55 main_v56 (addf : (⟨S50000x64, .f32⟩ : BufTy).Contents (Elt F) → (⟨S50000x64, .f32⟩ : BufTy).Contents (Elt F) → (⟨S50000x64, .f32⟩ : BufTy).Contents (Elt F)) ]

/-- Each of them touches TensorCore references only. -/
theorem opsUpd1_sub : (opsUpd1 : List (HloOp τ sig (Elt F))).Forall fun op => op.bufs ⊆ tcRefs τ sig :=
  ⟨binary_bufs_sub .., binary_bufs_sub .., binary_bufs_sub .., unary_bufs_sub .., unary_bufs_sub .., binary_bufs_sub .., nullary_bufs_sub .., unary_bufs_sub .., binary_bufs_sub .., binary_bufs_sub ..⟩

/-- Operations 71 to 111 of @main. -/
abbrev opsSel2 : List (HloOp τ sig (Elt F)) :=
  [ nullary main_c_8 (constantI S_ 32 0#32),
    unary main_c_8 main_v57 (broadcastInDim S800000 ![] bcast_S_S800000 : (⟨S_, .i32⟩ : BufTy).Contents (Elt F) → (⟨S800000, .i32⟩ : BufTy).Contents (Elt F)),
    binary main_v1 main_v57 main_v58 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v59 (broadcastInDim S800000 ![] bcast_S_S800000 : (⟨S_, .i32⟩ : BufTy).Contents (Elt F) → (⟨S800000, .i32⟩ : BufTy).Contents (Elt F)),
    binary main_v1 main_v59 main_v60 (addi : (⟨S800000, .i32⟩ : BufTy).Contents (Elt F) → (⟨S800000, .i32⟩ : BufTy).Contents (Elt F) → (⟨S800000, .i32⟩ : BufTy).Contents (Elt F)),
    ternary main_v58 main_v60 main_v1 main_v61 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v61 main_v62 (broadcastInDim S800000x1 ![0] bcast_S800000_S800000x1_0 : (⟨S800000, .i32⟩ : BufTy).Contents (Elt F) → (⟨S800000x1, .i32⟩ : BufTy).Contents (Elt F)),
    binary main_arg0 main_v62 main_v63 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    nullary main_c_10 (constantI S_ 32 0#32),
    unary main_c_10 main_v64 (broadcastInDim S800000 ![] bcast_S_S800000 : (⟨S_, .i32⟩ : BufTy).Contents (Elt F) → (⟨S800000, .i32⟩ : BufTy).Contents (Elt F)),
    binary main_v3 main_v64 main_v65 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v66 (broadcastInDim S800000 ![] bcast_S_S800000 : (⟨S_, .i32⟩ : BufTy).Contents (Elt F) → (⟨S800000, .i32⟩ : BufTy).Contents (Elt F)),
    binary main_v3 main_v66 main_v67 (addi : (⟨S800000, .i32⟩ : BufTy).Contents (Elt F) → (⟨S800000, .i32⟩ : BufTy).Contents (Elt F) → (⟨S800000, .i32⟩ : BufTy).Contents (Elt F)),
    ternary main_v65 main_v67 main_v3 main_v68 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v68 main_v69 (broadcastInDim S800000x1 ![0] bcast_S800000_S800000x1_0 : (⟨S800000, .i32⟩ : BufTy).Contents (Elt F) → (⟨S800000x1, .i32⟩ : BufTy).Contents (Elt F)),
    binary main_arg0 main_v69 main_v70 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    binary main_v63 main_v70 main_v71 (subf : (⟨S800000x3, .f32⟩ : BufTy).Contents (Elt F) → (⟨S800000x3, .f32⟩ : BufTy).Contents (Elt F) → (⟨S800000x3, .f32⟩ : BufTy).Contents (Elt F)),
    binary main_v71 main_v71 main_v72 (mulf : (⟨S800000x3, .f32⟩ : BufTy).Contents (Elt F) → (⟨S800000x3, .f32⟩ : BufTy).Contents (Elt F) → (⟨S800000x3, .f32⟩ : BufTy).Contents (Elt F)),
    nullary main_cst_12 (constant S_ .f32 0x00000000#32),
    binary main_v72 main_cst_12 main_v73 ((fun x v => Host.reduceAdd x v reducesTo_S800000x3_S800000_d1 h_S_) : (⟨S800000x3, .f32⟩ : BufTy).Contents (Elt F) → (⟨S_, .f32⟩ : BufTy).Contents (Elt F) → (⟨S800000, .f32⟩ : BufTy).Contents (Elt F)),
    unary main_v73 main_v74 (broadcastInDim S800000x1 ![0] bcast_S800000_S800000x1_0 : (⟨S800000, .f32⟩ : BufTy).Contents (Elt F) → (⟨S800000x1, .f32⟩ : BufTy).Contents (Elt F)),
    nullary main_c_13 (constantI S_ 32 0#32),
    unary main_c_13 main_v75 (broadcastInDim S800000 ![] bcast_S_S800000 : (⟨S_, .i32⟩ : BufTy).Contents (Elt F) → (⟨S800000, .i32⟩ : BufTy).Contents (Elt F)),
    binary main_v1 main_v75 main_v76 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v77 (broadcastInDim S800000 ![] bcast_S_S800000 : (⟨S_, .i32⟩ : BufTy).Contents (Elt F) → (⟨S800000, .i32⟩ : BufTy).Contents (Elt F)),
    binary main_v1 main_v77 main_v78 (addi : (⟨S800000, .i32⟩ : BufTy).Contents (Elt F) → (⟨S800000, .i32⟩ : BufTy).Contents (Elt F) → (⟨S800000, .i32⟩ : BufTy).Contents (Elt F)),
    ternary main_v76 main_v78 main_v1 main_v79 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v79 main_v80 (broadcastInDim S800000x1 ![0] bcast_S800000_S800000x1_0 : (⟨S800000, .i32⟩ : BufTy).Contents (Elt F) → (⟨S800000x1, .i32⟩ : BufTy).Contents (Elt F)),
    binary main_v56 main_v80 main_v81 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_15 (constantI S_ 32 0#32),
    unary main_c_15 main_v82 (broadcastInDim S800000 ![] bcast_S_S800000 : (⟨S_, .i32⟩ : BufTy).Contents (Elt F) → (⟨S800000, .i32⟩ : BufTy).Contents (Elt F)),
    binary main_v3 main_v82 main_v83 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v84 (broadcastInDim S800000 ![] bcast_S_S800000 : (⟨S_, .i32⟩ : BufTy).Contents (Elt F) → (⟨S800000, .i32⟩ : BufTy).Contents (Elt F)),
    binary main_v3 main_v84 main_v85 (addi : (⟨S800000, .i32⟩ : BufTy).Contents (Elt F) → (⟨S800000, .i32⟩ : BufTy).Contents (Elt F) → (⟨S800000, .i32⟩ : BufTy).Contents (Elt F)),
    ternary main_v83 main_v85 main_v3 main_v86 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v86 main_v87 (broadcastInDim S800000x1 ![0] bcast_S800000_S800000x1_0 : (⟨S800000, .i32⟩ : BufTy).Contents (Elt F) → (⟨S800000x1, .i32⟩ : BufTy).Contents (Elt F)),
    binary main_v56 main_v87 main_v88 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

/-- Each of them touches TensorCore references only. -/
theorem opsSel2_sub : (opsSel2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- Operations 112 to 123 of @main. -/
abbrev opsMsg2 : List (HloOp τ sig (Elt F)) :=
  [ nary ![main_v81, main_v88, main_v74] main_v89 (fun u => concatenate S800000x129 1 [⟨S800000x64, u 0⟩, ⟨S800000x64, u 1⟩, ⟨S800000x1, u 2⟩] concatenates_S800000x64_S800000x64_S800000x1_S800000x129_d1),
    binary main_v89 main_arg12 main_v90 ((fun l r => Host.dotGeneral dot_S800000x129_S129x64_S800000x64_1_0_0_1_n_n none l r) : (⟨S800000x129, .f32⟩ : BufTy).Contents (Elt F) → (⟨S129x64, .f32⟩ : BufTy).Contents (Elt F) → (⟨S800000x64, .f32⟩ : BufTy).Contents (Elt F)),
    unary main_arg13 main_v91 (broadcastInDim S1x64 ![1] bcast_S64_S1x64_1 : (⟨S64, .f32⟩ : BufTy).Contents (Elt F) → (⟨S1x64, .f32⟩ : BufTy).Contents (Elt F)),
    unary main_v91 main_v92 (broadcastInDim S800000x64 ![0, 1] bcast_S1x64_S800000x64_0_1 : (⟨S1x64, .f32⟩ : BufTy).Contents (Elt F) → (⟨S800000x64, .f32⟩ : BufTy).Contents (Elt F)),
    binary main_v90 main_v92 main_v93 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S800000x64, .f32⟩) main_call2_v0) (broadcastInDim S800000x64 ![] bcast_S_S800000x64),
    TRef.binary (TRef.of (T := ⟨S800000x64, .f32⟩) main_v93) (TRef.of (T := ⟨S800000x64, .f32⟩) main_call2_v0) (TRef.of (T := ⟨S800000x64, .f32⟩) main_v94) maximumf,
    nullary main_cst_17 (constant S_ .f32 0x00000000#32),
    unary main_cst_17 main_v95 (broadcastInDim S50000x64 ![] bcast_S_S50000x64 : (⟨S_, .f32⟩ : BufTy).Contents (Elt F) → (⟨S50000x64, .f32⟩ : BufTy).Contents (Elt F)),
    unary main_v3 main_v96 (broadcastInDim S800000x1 ![0] bcast_S800000_S800000x1_0 : (⟨S800000, .i32⟩ : BufTy).Contents (Elt F) → (⟨S800000x1, .i32⟩ : BufTy).Contents (Elt F)),
    ternary main_v95 main_v96 main_v94 main_v97 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- Each of them touches TensorCore references only. -/
theorem opsMsg2_sub : (opsMsg2 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub ..⟩

/-- Operations 124 to 133 of @main. -/
abbrev opsUpd2 : List (HloOp τ sig (Elt F)) :=
  [ binary main_v56 main_v97 main_v98 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    binary main_v56 main_arg11 main_v99 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v98 main_arg14 main_v100 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg15 main_v101 (broadcastInDim S1x64 ![1] bcast_S64_S1x64_1 : (⟨S64, .f32⟩ : BufTy).Contents (Elt F) → (⟨S1x64, .f32⟩ : BufTy).Contents (Elt F)),
    unary main_v101 main_v102 (broadcastInDim S50000x64 ![0, 1] bcast_S1x64_S50000x64_0_1 : (⟨S1x64, .f32⟩ : BufTy).Contents (Elt F) → (⟨S50000x64, .f32⟩ : BufTy).Contents (Elt F)),
    binary main_v100 main_v102 main_v103 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v103) (TRef.of (T := ⟨S50000x64, .f32⟩) main_call3_v0) (TRef.of (T := ⟨S50000x64, .f32⟩) main_v104) maximumf,
    binary main_v99 main_v104 main_v105 (addf : (⟨S50000x64, .f32⟩ : BufTy).Contents (Elt F) → (⟨S50000x64, .f32⟩ : BufTy).Contents (Elt F) → (⟨S50000x64, .f32⟩ : BufTy).Contents (Elt F)) ]

/-- Each of them touches TensorCore references only. -/
theorem opsUpd2_sub : (opsUpd2 : List (HloOp τ sig (Elt F))).Forall fun op => op.bufs ⊆ tcRefs τ sig :=
  ⟨binary_bufs_sub .., binary_bufs_sub .., binary_bufs_sub .., unary_bufs_sub .., unary_bufs_sub .., binary_bufs_sub .., nullary_bufs_sub .., unary_bufs_sub .., binary_bufs_sub .., binary_bufs_sub ..⟩

end Cert.ReferenceIdeal.Stretch

end
-- ==== Proof.RefFns.lean ====
/-
  The host operations of the reference program around its dense maps, as functions of arrays over the extended
  reals: the two index vectors cut out of the edge list, the row selection (an index below zero is moved up by
  the number of nodes, then the row at the index is read, the index clamped into the array), the squared
  distance of two selections, and the scatter-sum of messages into nodes.
-/
import proofs.«403838_j86191403696812_1_alg».proof.Proof.Gen.ReferenceIdeal
import proofs.«403838_j86191403696812_1_alg».proof.Proof.Spec

noncomputable section

namespace Cert.ReferenceIdeal.Fns

open Idealize.ShloMosaic Idealize.ShloMosaic.TcCoe Idealize.SL.Sem
open Cert.ReferenceIdeal Cert.ReferenceIdeal.Facts₀ Cert.ReferenceIdeal.Facts

/-- Row 0 of the edge list: the source node of each edge. -/
def rowOf (ei : IVec S2x800000 32) : IVec S800000 32 :=
  shapeCast S800000 (extractStridedSlice S1x800000 ![0, 0] ei slices_S2x800000_S1x800000_0_0) shapeCasts_S1x800000_S800000

/-- Row 1 of the edge list: the target node of each edge. -/
def colOf (ei : IVec S2x800000 32) : IVec S800000 32 :=
  shapeCast S800000 (extractStridedSlice S1x800000 ![1, 0] ei slices_S2x800000_S1x800000_1_0) shapeCasts_S1x800000_S800000

/-- An index vector with its negative entries moved up by 50000, as a column. -/
def wrapIdx (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- Rows of the positions selected by an index vector. -/
def take3 (x : FVec Ideal S50000x3 .f32) (idx : IVec S800000 32) : FVec Ideal S800000x3 .f32 :=
  Host.gather gather_S50000x3_S800000x1_S800000x3_1_0_n_n_0_1_13 x (wrapIdx idx)

/-- Rows of the embeddings selected by an index vector. -/
def take64 (x : FVec Ideal S50000x64 .f32) (idx : IVec S800000 32) : FVec Ideal S800000x64 .f32 :=
  Host.gather gather_S50000x64_S800000x1_S800000x64_1_0_n_n_0_1_164 x (wrapIdx idx)

/-- The squared distance of two selections of positions, as a column. -/
def dist (a b : FVec Ideal S800000x3 .f32) : FVec Ideal S800000x1 .f32 :=
  broadcastInDim S800000x1 ![0] bcast_S800000_S800000x1_0
    (Host.reduceAdd (mulf (subf a b) (subf a b)) (constant S_ .f32 0x00000000#32) reducesTo_S800000x3_S800000_d1 h_S_)

/-- The messages summed into their target nodes, from zero. -/
def scat (col : IVec S800000 32) (msg : FVec Ideal S800000x64 .f32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 col) msg

/-- The reference program's host operations, as the network takes them. -/
def H : Cert.Net.HostFns := ⟨take3, take64, dist, scat⟩

end Cert.ReferenceIdeal.Fns

end
-- ==== Proof.RefDense.lean ====
/-
  The reference program's three dense maps are the network's: a product with a matrix whose rows are laid side
  by side (the source rows, the target rows and the distance column; the node rows and the summed messages) is
  the sum of the products with the matching row blocks of the weight matrix, and a bias broadcast down the rows
  is the bias read as one row.
-/
import proofs.«403838_j86191403696812_1_alg».proof.Proof.Gen.ReferenceIdeal
import proofs.«403838_j86191403696812_1_alg».proof.Proof.Spec
import Idealize.ShloMosaic.Lib.Pipeline.Value
import Idealize.ShloMosaic.Lib.ValueLayout
import Idealize.ShloMosaic.Lib.StableHlo.Predicate
import Idealize.ShloMosaic.PureOps.Ideal.Laws

noncomputable section

namespace Cert.ReferenceIdeal.Dense

open Idealize.ShloMosaic Idealize.ShloMosaic.TcCoe Idealize.SL.Sem Idealize.ShloMosaic.ValueIdx
open Cert.ReferenceIdeal Cert.ReferenceIdeal.Facts₀ Cert.ReferenceIdeal.Facts Cert.Net

/-! ## The node features times the embedding weights, read at an entry -/

/-- The product's left operand is read in the output's row. -/
theorem lhsInit_0 (i : S50000x64.Idx) (q : dot_S50000x32_S32x64_S50000x64_1_0_0_1_n_n.contr.Idx) :
    (dot_S50000x32_S32x64_S50000x64_1_0_0_1_n_n.lhsIdx i q 0).val = (i 0).val := by
  unfold DotDims.lhsIdx
  rw [dif_neg (show ¬(0 : Fin S50000x32.rank) ∈ dot_S50000x32_S32x64_S50000x64_1_0_0_1_n_n.lhsBatch by decide),
    dif_pos (show (0 : Fin S50000x32.rank) ∈ dot_S50000x32_S32x64_S50000x64_1_0_0_1_n_n.lhsNonContracting by decide)]
  rfl

/-- The product's left operand is read in the column the sum runs over. -/
theorem lhsInit_1 (i : S50000x64.Idx) (q : dot_S50000x32_S32x64_S50000x64_1_0_0_1_n_n.contr.Idx) :
    (dot_S50000x32_S32x64_S50000x64_1_0_0_1_n_n.lhsIdx i q 1).val = (q ⟨0, by decide⟩).val :=
  dot_S50000x32_S32x64_S50000x64_1_0_0_1_n_n.lhsIdx_val_of_single rfl i q

/-- The product's right operand is read in the row the sum runs over. -/
theorem rhsInit_0 (i : S50000x64.Idx) (q : dot_S50000x32_S32x64_S50000x64_1_0_0_1_n_n.contr.Idx) :
    (dot_S50000x32_S32x64_S50000x64_1_0_0_1_n_n.rhsIdx i q 0).val = (q ⟨0, by decide⟩).val :=
  dot_S50000x32_S32x64_S50000x64_1_0_0_1_n_n.rhsIdx_val_of_single rfl i q

/-- The product's right operand is read in the output's column. -/
theorem rhsInit_1 (i : S50000x64.Idx) (q : dot_S50000x32_S32x64_S50000x64_1_0_0_1_n_n.contr.Idx) :
    (dot_S50000x32_S32x64_S50000x64_1_0_0_1_n_n.rhsIdx i q 1).val = (i 1).val := by
  unfold DotDims.rhsIdx
  rw [dif_neg (show ¬(1 : Fin S32x64.rank) ∈ dot_S50000x32_S32x64_S50000x64_1_0_0_1_n_n.rhsBatch by decide),
    dif_pos (show (1 : Fin S32x64.rank) ∈ dot_S50000x32_S32x64_S50000x64_1_0_0_1_n_n.rhsNonContracting by decide)]
  rfl

/-- Entry (p, q) of h · W is the sum over k of h[p, k] · W[k, q]. -/
theorem dotInit_apply (h : FVec Ideal S50000x32 .f32) (w : FVec Ideal S32x64 .f32) (p : Fin 50000) (q : Fin 64) :
    Host.dotGeneral dot_S50000x32_S32x64_S50000x64_1_0_0_1_n_n none h w (ix2 p q)
      = ∑ k : Fin 32, h (ix2 p k) * w (ix2 k q) := by
  simp only [Host.dotGeneral]
  rw [Ideal.dotGeneral_apply,
    ← Equiv.sum_comp (ValueIdx.contrEquiv1 dot_S50000x32_S32x64_S50000x64_1_0_0_1_n_n 32 rfl rfl).symm]
  refine Finset.sum_congr rfl fun k _ => ?_
  have hk := ValueIdx.contrEquiv1_symm_val dot_S50000x32_S32x64_S50000x64_1_0_0_1_n_n 32 rfl rfl k
  have el : dot_S50000x32_S32x64_S50000x64_1_0_0_1_n_n.lhsIdx (ix2 p q)
      ((ValueIdx.contrEquiv1 dot_S50000x32_S32x64_S50000x64_1_0_0_1_n_n 32 rfl rfl).symm k) = ix2 p k :=
    funext fun a => Fin.ext (by
      match a with
      | ⟨0, _⟩ => exact lhsInit_0 _ _
      | ⟨1, _⟩ => exact (lhsInit_1 _ _).trans hk)
  have er : dot_S50000x32_S32x64_S50000x64_1_0_0_1_n_n.rhsIdx (ix2 p q)
      ((ValueIdx.contrEquiv1 dot_S50000x32_S32x64_S50000x64_1_0_0_1_n_n 32 rfl rfl).symm k) = ix2 k q :=
    funext fun a => Fin.ext (by
      match a with
      | ⟨0, _⟩ => exact (rhsInit_0 _ _).trans hk
      | ⟨1, _⟩ => exact rhsInit_1 _ _)
  rw [el, er]

/-! ## A bias vector broadcast down the rows -/

/-- A vector of 64 laid along the columns of a 50000 × 64 array reads, at (p, q), the vector at q. -/
theorem bias_apply (b : FVec Ideal S64 .f32) (p : Fin 50000) (q : Fin 64) :
    broadcastInDim S50000x64 ![0, 1] bcast_S1x64_S50000x64_0_1 (broadcastInDim S1x64 ![1] bcast_S64_S1x64_1 b) (ix2 p q)
      = b (ix1 q) := by
  have e : (ix2 p q : S50000x64.Idx) = StableHlo.Predicate.ij p q := by
    funext a
    match a with
    | ⟨0, _⟩ => rfl
    | ⟨1, _⟩ => rfl
  rw [e, StableHlo.Predicate.bcast_cols]
  congr 1
  funext a
  match a with
  | ⟨0, _⟩ => rfl

/-- h · W + b with b broadcast down the rows is the network's embedding. -/
theorem refInit (h : FVec Ideal S50000x32 .f32) (w : FVec Ideal S32x64 .f32) (b : FVec Ideal S64 .f32) :
    addf (Host.dotGeneral dot_S50000x32_S32x64_S50000x64_1_0_0_1_n_n none h w)
        (broadcastInDim S50000x64 ![0, 1] bcast_S1x64_S50000x64_0_1 (broadcastInDim S1x64 ![1] bcast_S64_S1x64_1 b))
      = initEmbed (n := 50000) h w (asRow b) := by
  funext i
  obtain ⟨p, q, rfl⟩ : ∃ (p : Fin 50000) (q : Fin 64), i = ix2 p q := ⟨i 0, i 1, eq_ix2 i⟩
  rw [addf_apply, dotInit_apply, bias_apply]
  rfl

/-! ## The node rows times the residual weights, read at an entry -/

/-- The product's left operand is read in the output's row. -/
theorem lhsRes_0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide),
    dif_pos (show (0 : Fin S50000x64.rank) ∈ dot_S50000x64_S64x64_S50000x64_1_0_0_1_n_n.lhsNonContracting by decide)]
  rfl

/-- The product's left operand is read in the column the sum runs over. -/
theorem lhsRes_1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q

/-- The product's right operand is read in the row the sum runs over. -/
theorem rhsRes_0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q

/-- The product's right operand is read in the output's column. -/
theorem rhsRes_1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide),
    dif_pos (show (1 : Fin S64x64.rank) ∈ dot_S50000x64_S64x64_S50000x64_1_0_0_1_n_n.rhsNonContracting by decide)]
  rfl

/-- Entry (p, q) of e · R is the sum over k of e[p, k] · R[k, q]. -/
theorem dotRes_apply (e : FVec Ideal S50000x64 .f32) (rp : FVec Ideal S64x64 .f32) (p : Fin 50000) (q : Fin 64) :
    Host.dotGeneral dot_S50000x64_S64x64_S50000x64_1_0_0_1_n_n none e rp (ix2 p q)
      = ∑ k : Fin 64, e (ix2 p k) * rp (ix2 k q) := by
  simp only [Host.dotGeneral]
  rw [Ideal.dotGeneral_apply,
    ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx (ix2 p q)
      ((ValueIdx.contrEquiv1 dot_S50000x64_S64x64_S50000x64_1_0_0_1_n_n 64 rfl rfl).symm k) = ix2 p k :=
    funext fun a => Fin.ext (by
      match a with
      | ⟨0, _⟩ => exact lhsRes_0 _ _
      | ⟨1, _⟩ => exact (lhsRes_1 _ _).trans hk)
  have er : dot_S50000x64_S64x64_S50000x64_1_0_0_1_n_n.rhsIdx (ix2 p q)
      ((ValueIdx.contrEquiv1 dot_S50000x64_S64x64_S50000x64_1_0_0_1_n_n 64 rfl rfl).symm k) = ix2 k q :=
    funext fun a => Fin.ext (by
      match a with
      | ⟨0, _⟩ => exact (rhsRes_0 _ _).trans hk
      | ⟨1, _⟩ => exact rhsRes_1 _ _)
  rw [el, er]

/-! ## A 128-column array times the update weights, read at an entry -/

/-- The product's left operand is read in the output's row. -/
theorem lhsUpd_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide),
    dif_pos (show (0 : Fin S50000x128.rank) ∈ dot_S50000x128_S128x64_S50000x64_1_0_0_1_n_n.lhsNonContracting by decide)]
  rfl

/-- The product's left operand is read in the column the sum runs over. -/
theorem lhsUpd_1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q

/-- The product's right operand is read in the row the sum runs over. -/
theorem rhsUpd_0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q

/-- The product's right operand is read in the output's column. -/
theorem rhsUpd_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide),
    dif_pos (show (1 : Fin S128x64.rank) ∈ dot_S50000x128_S128x64_S50000x64_1_0_0_1_n_n.rhsNonContracting by decide)]
  rfl

/-- Entry (p, q) of x · U is the sum over k of x[p, k] · U[k, q]. -/
theorem dotUpd_apply (x : FVec Ideal S50000x128 .f32) (uw : FVec Ideal S128x64 .f32) (p : Fin 50000) (q : Fin 64) :
    Host.dotGeneral dot_S50000x128_S128x64_S50000x64_1_0_0_1_n_n none x uw (ix2 p q)
      = ∑ k : Fin 128, x (ix2 p k) * uw (ix2 k q) := by
  simp only [Host.dotGeneral]
  rw [Ideal.dotGeneral_apply,
    ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx (ix2 p q)
      ((ValueIdx.contrEquiv1 dot_S50000x128_S128x64_S50000x64_1_0_0_1_n_n 128 rfl rfl).symm k) = ix2 p k :=
    funext fun a => Fin.ext (by
      match a with
      | ⟨0, _⟩ => exact lhsUpd_0 _ _
      | ⟨1, _⟩ => exact (lhsUpd_1 _ _).trans hk)
  have er : dot_S50000x128_S128x64_S50000x64_1_0_0_1_n_n.rhsIdx (ix2 p q)
      ((ValueIdx.contrEquiv1 dot_S50000x128_S128x64_S50000x64_1_0_0_1_n_n 128 rfl rfl).symm k) = ix2 k q :=
    funext fun a => Fin.ext (by
      match a with
      | ⟨0, _⟩ => exact (rhsUpd_0 _ _).trans hk
      | ⟨1, _⟩ => exact rhsUpd_1 _ _)
  rw [el, er]

/-! ## The node rows and the summed messages laid side by side -/

/-- Columns 0–63 of [e | a] are e. -/
theorem cat_left (e a : FVec Ideal S50000x64 .f32) (p : Fin 50000) (k : Fin 64) (hk : k.val < 128) :
    concatenate S50000x128 1 [⟨S50000x64, e⟩, ⟨S50000x64, a⟩] concatenates_S50000x64_S50000x64_S50000x128_d1
        (ix2 p (⟨k.val, hk⟩ : Fin 128)) = e (ix2 p k) := by
  refine concatenate_pair_apply_left (1 : Fin S50000x128.rank) e a _ _ rfl (ix2 p k) ?_
  intro b
  match b with
  | ⟨0, _⟩ => rfl
  | ⟨1, _⟩ => rfl

/-- Columns 64–127 of [e | a] are a. -/
theorem cat_right (e a : FVec Ideal S50000x64 .f32) (p : Fin 50000) (k : Fin 64) (hk : 64 + k.val < 128) :
    concatenate S50000x128 1 [⟨S50000x64, e⟩, ⟨S50000x64, a⟩] concatenates_S50000x64_S50000x64_S50000x128_d1
        (ix2 p (⟨64 + k.val, hk⟩ : Fin 128)) = a (ix2 p k) := by
  refine concatenate_pair_apply_right (1 : Fin S50000x128.rank) e a _ _ rfl rfl (ix2 p k) ?_ ?_
  · intro b hb
    match b, hb with
    | ⟨0, _⟩, _ => rfl
    | ⟨1, _⟩, hb => exact absurd rfl hb
  · show k.val + 64 = 64 + k.val
    exact Nat.add_comm _ _

/-! ## Row blocks of the update weights -/

/-- Row k of the first 64 rows is row k. -/
theorem rows0_apply (uw : FVec Ideal S128x64 .f32) (h0 : 0 + 64 ≤ 128) (k : Fin 64) (q : Fin 64) (hk : k.val < 128) :
    rowsFrom 64 0 h0 uw (ix2 k q) = uw (ix2 (⟨k.val, hk⟩ : Fin 128) q) := by
  unfold rowsFrom
  congr 1
  funext a
  match a with
  | ⟨0, _⟩ => exact Fin.ext (Nat.zero_add _)
  | ⟨1, _⟩ => rfl

/-- Row k of the 64 rows from row 64 on is row 64 + k. -/
theorem rows64_apply (uw : FVec Ideal S128x64 .f32) (h0 : 64 + 64 ≤ 128) (k : Fin 64) (q : Fin 64) (hk : 64 + k.val < 128) :
    rowsFrom 64 64 h0 uw (ix2 k q) = uw (ix2 (⟨64 + k.val, hk⟩ : Fin 128) q) := rfl

/-- Entry (p, q) of [e | a] · U is e[p] times the first 64 rows of U plus a[p] times the next 64. -/
theorem dotCat_apply (e a : FVec Ideal S50000x64 .f32) (uw : FVec Ideal S128x64 .f32) (p : Fin 50000) (q : Fin 64) :
    Host.dotGeneral dot_S50000x128_S128x64_S50000x64_1_0_0_1_n_n none
        (concatenate S50000x128 1 [⟨S50000x64, e⟩, ⟨S50000x64, a⟩] concatenates_S50000x64_S50000x64_S50000x128_d1) uw (ix2 p q)
      = (∑ k : Fin 64, e (ix2 p k) * rowsFrom 64 0 (by decide) uw (ix2 k q))
        + (∑ k : Fin 64, a (ix2 p k) * rowsFrom 64 64 (by decide) uw (ix2 k q)) := by
  rw [dotUpd_apply, sum_128]
  congr 1
  · refine Finset.sum_congr rfl fun k _ => ?_
    rw [cat_left, rows0_apply]
  · refine Finset.sum_congr rfl fun k _ => ?_
    rw [cat_right, rows64_apply]

/-! ## The zero the rectifier compares with -/

/-- The scalar 0 broadcast over the array is 0 at every entry. -/
theorem zero_apply (i : S50000x64.Idx) :
    broadcastInDim S50000x64 ![] bcast_S_S50000x64 (constant (F := Ideal) S_ .f32 0x00000000#32) i = 0 := by
  rw [StableHlo.Predicate.bcast_scalar _ h_S_, constant_apply, Ideal.ofBits_zero_f32]

/-- e · R + relu ([e | a] · U + b) is the network's update. -/
theorem refUpdate (e a : FVec Ideal S50000x64 .f32) (rp : FVec Ideal S64x64 .f32)
    (uw : FVec Ideal S128x64 .f32) (ub : FVec Ideal S64 .f32) :
    addf (Host.dotGeneral dot_S50000x64_S64x64_S50000x64_1_0_0_1_n_n none e rp)
        (maximumf
          (addf (Host.dotGeneral dot_S50000x128_S128x64_S50000x64_1_0_0_1_n_n none
              (concatenate S50000x128 1 [⟨S50000x64, e⟩, ⟨S50000x64, a⟩] concatenates_S50000x64_S50000x64_S50000x128_d1) uw)
            (broadcastInDim S50000x64 ![0, 1] bcast_S1x64_S50000x64_0_1 (broadcastInDim S1x64 ![1] bcast_S64_S1x64_1 ub)))
          (broadcastInDim S50000x64 ![] bcast_S_S50000x64 (constant S_ .f32 0x00000000#32)))
      = update (n := 50000) e a rp (rowsFrom 64 0 (by decide) uw) (rowsFrom 64 64 (by decide) uw) (asRow ub) := by
  funext i
  obtain ⟨p, q, rfl⟩ : ∃ (p : Fin 50000) (q : Fin 64), i = ix2 p q := ⟨i 0, i 1, eq_ix2 i⟩
  rw [addf_apply, maximumf_apply, addf_apply, dotRes_apply, dotCat_apply, bias_apply, zero_apply]
  rfl

end Cert.ReferenceIdeal.Dense

end
-- ==== Proof.RefMessage.lean ====
/-
  The reference program's message map is the network's: the product of the matrix whose rows are a source row, a
  target row and the distance laid side by side with the 129-row weight matrix is the sum of the products with
  rows 0–63, rows 64–127 and row 128 of that matrix; the bias broadcast down the rows is the bias read as one row.
-/
import proofs.«403838_j86191403696812_1_alg».proof.Proof.Gen.ReferenceIdeal
import proofs.«403838_j86191403696812_1_alg».proof.Proof.Spec
import Idealize.ShloMosaic.Lib.Pipeline.Value
import Idealize.ShloMosaic.Lib.ValueLayout
import Idealize.ShloMosaic.Lib.StableHlo.Predicate
import Idealize.ShloMosaic.PureOps.Ideal.Laws

noncomputable section

namespace Cert.ReferenceIdeal.DenseMsg

open Idealize.ShloMosaic Idealize.ShloMosaic.TcCoe Idealize.SL.Sem Idealize.ShloMosaic.ValueIdx
open Cert.ReferenceIdeal Cert.ReferenceIdeal.Facts₀ Cert.ReferenceIdeal.Facts Cert.Net

/-- The message map read at row p, column q. -/
theorem message_at {n : Nat} (hi hj : Mat n 64) (dist : Mat n 1) (ws wd : Mat 64 64) (wt mb : Mat 1 64)
    (p : Fin n) (q : Fin 64) :
    message hi hj dist ws wd wt mb (ix2 p q)
      = max (((∑ k : Fin 64, hi (ix2 p k) * ws (ix2 k q)) + (∑ k : Fin 64, hj (ix2 p k) * wd (ix2 k q))
          + dist (ix2 p (0 : Fin 1)) * wt (ix2 (0 : Fin 1) q)) + mb (ix2 (0 : Fin 1) q)) 0 := rfl

/-- The first 64 rows of the weight matrix, read at (k, q). -/
theorem rows_lo (mw : Mat 129 64) (k q : Fin 64) :
    rowsFrom 64 0 (by decide) mw (ix2 k q) = mw (ix2 (⟨k.val, by omega⟩ : Fin 129) q) := by
  unfold rowsFrom
  exact congrArg mw (funext fun a => match a with
    | ⟨0, _⟩ => Fin.ext (Nat.zero_add _)
    | ⟨1, _⟩ => rfl)

/-- Rows 64–127 of the weight matrix, read at (k, q). -/
theorem rows_mid (mw : Mat 129 64) (k q : Fin 64) :
    rowsFrom 64 64 (by decide) mw (ix2 k q) = mw (ix2 (⟨64 + k.val, by omega⟩ : Fin 129) q) := by
  unfold rowsFrom
  exact congrArg mw (funext fun a => match a with
    | ⟨0, _⟩ => rfl
    | ⟨1, _⟩ => rfl)

/-- Row 128 of the weight matrix, read at (0, q). -/
theorem rows_last (mw : Mat 129 64) (q : Fin 64) :
    rowsFrom 1 128 (by decide) mw (ix2 (0 : Fin 1) q) = mw (ix2 (⟨128, by omega⟩ : Fin 129) q) := by
  unfold rowsFrom
  exact congrArg mw (funext fun a => match a with
    | ⟨0, _⟩ => rfl
    | ⟨1, _⟩ => rfl)

/-- The bias as a one-row matrix, read at (0, q). -/
theorem asRow_at (mb : Row 64) (q : Fin 64) : asRow mb (ix2 (0 : Fin 1) q) = mb (ix1 q) := rfl

/-- The zero scalar spread over the whole array is 0 at every index. -/
theorem zero_at (j : S800000x64.Idx) :
    broadcastInDim S800000x64 ![] bcast_S_S800000x64 (constant (F := Ideal) S_ .f32 0x00000000#32) j = 0 := by
  rw [StableHlo.Predicate.bcast_scalar bcast_S_S800000x64 h_S_, constant_apply, Ideal.ofBits_zero_f32]

/-- The bias vector laid along the columns and repeated down the rows reads, at (p, q), its entry q. -/
theorem bias_at (mb : FVec Ideal S64 .f32) (p : Fin 800000) (q : Fin 64) :
    broadcastInDim S800000x64 ![0, 1] bcast_S1x64_S800000x64_0_1 (broadcastInDim S1x64 ![1] bcast_S64_S1x64_1 mb) (ix2 p q)
      = mb (ix1 q) := by
  have e : (ix2 p q : S800000x64.Idx) = StableHlo.Predicate.ij p q := funext fun a => match a with
    | ⟨0, _⟩ => rfl
    | ⟨1, _⟩ => rfl
  rw [e, StableHlo.Predicate.bcast_cols bcast_S64_S1x64_1 bcast_S1x64_S800000x64_0_1 mb p q]
  exact congrArg mb (funext fun a => match a with
    | ⟨0, _⟩ => rfl)

/-- First axis of the left operand's index: the output row. -/
theorem dot_lhs_row (i : S800000x64.Idx) (c : dot_S800000x129_S129x64_S800000x64_1_0_0_1_n_n.contr.Idx) :
    (dot_S800000x129_S129x64_S800000x64_1_0_0_1_n_n.lhsIdx i c 0).val = (i 0).val := by
  unfold DotDims.lhsIdx
  rw [dif_neg (show ¬(0 : Fin S800000x129.rank) ∈ dot_S800000x129_S129x64_S800000x64_1_0_0_1_n_n.lhsBatch by decide),
    dif_pos (show (0 : Fin S800000x129.rank) ∈ dot_S800000x129_S129x64_S800000x64_1_0_0_1_n_n.lhsNonContracting by decide)]
  rfl

/-- Second axis of the left operand's index: the contraction coordinate. -/
theorem dot_lhs_col (i : S800000x64.Idx) (c : dot_S800000x129_S129x64_S800000x64_1_0_0_1_n_n.contr.Idx) :
    (dot_S800000x129_S129x64_S800000x64_1_0_0_1_n_n.lhsIdx i c 1).val = (c ⟨0, by decide⟩).val :=
  dot_S800000x129_S129x64_S800000x64_1_0_0_1_n_n.lhsIdx_val_of_single rfl i c

/-- First axis of the right operand's index: the contraction coordinate. -/
theorem dot_rhs_row (i : S800000x64.Idx) (c : dot_S800000x129_S129x64_S800000x64_1_0_0_1_n_n.contr.Idx) :
    (dot_S800000x129_S129x64_S800000x64_1_0_0_1_n_n.rhsIdx i c 0).val = (c ⟨0, by decide⟩).val :=
  dot_S800000x129_S129x64_S800000x64_1_0_0_1_n_n.rhsIdx_val_of_single rfl i c

/-- Second axis of the right operand's index: the output column. -/
theorem dot_rhs_col (i : S800000x64.Idx) (c : dot_S800000x129_S129x64_S800000x64_1_0_0_1_n_n.contr.Idx) :
    (dot_S800000x129_S129x64_S800000x64_1_0_0_1_n_n.rhsIdx i c 1).val = (i 1).val := by
  unfold DotDims.rhsIdx
  rw [dif_neg (show ¬(1 : Fin S129x64.rank) ∈ dot_S800000x129_S129x64_S800000x64_1_0_0_1_n_n.rhsBatch by decide),
    dif_pos (show (1 : Fin S129x64.rank) ∈ dot_S800000x129_S129x64_S800000x64_1_0_0_1_n_n.rhsNonContracting by decide)]
  rfl

/-- The product of an 800000 × 129 array with the 129 × 64 weights, read at (p, q): the sum over the 129 columns. -/
theorem dot_at (x : FVec Ideal S800000x129 .f32) (mw : FVec Ideal S129x64 .f32) (p : Fin 800000) (q : Fin 64) :
    Host.dotGeneral dot_S800000x129_S129x64_S800000x64_1_0_0_1_n_n none x mw (ix2 p q)
      = ∑ k : Fin 129, x (ix2 p k) * mw (ix2 k q) := by
  simp only [Host.dotGeneral]
  rw [Ideal.dotGeneral_apply,
    ← Equiv.sum_comp (ValueIdx.contrEquiv1 dot_S800000x129_S129x64_S800000x64_1_0_0_1_n_n 129 rfl rfl).symm]
  refine Finset.sum_congr rfl fun k _ => ?_
  have hk := ValueIdx.contrEquiv1_symm_val dot_S800000x129_S129x64_S800000x64_1_0_0_1_n_n 129 rfl rfl k
  have el : dot_S800000x129_S129x64_S800000x64_1_0_0_1_n_n.lhsIdx (ix2 p q)
      ((ValueIdx.contrEquiv1 dot_S800000x129_S129x64_S800000x64_1_0_0_1_n_n 129 rfl rfl).symm k) = ix2 p k :=
    funext fun a => Fin.ext (by
      match a with
      | ⟨0, _⟩ => exact dot_lhs_row _ _
      | ⟨1, _⟩ => exact (dot_lhs_col _ _).trans hk)
  have er : dot_S800000x129_S129x64_S800000x64_1_0_0_1_n_n.rhsIdx (ix2 p q)
      ((ValueIdx.contrEquiv1 dot_S800000x129_S129x64_S800000x64_1_0_0_1_n_n 129 rfl rfl).symm k) = ix2 k q :=
    funext fun a => Fin.ext (by
      match a with
      | ⟨0, _⟩ => exact (dot_rhs_row _ _).trans hk
      | ⟨1, _⟩ => exact dot_rhs_col _ _)
  rw [el, er]

/-- Columns 0–63 of the three arrays laid side by side are the first array's. -/
theorem cat_lo (hi hj : FVec Ideal S800000x64 .f32) (dist : FVec Ideal S800000x1 .f32) (p : Fin 800000) (k : Fin 64) :
    concatenate S800000x129 1 [⟨S800000x64, hi⟩, ⟨S800000x64, hj⟩, ⟨S800000x1, dist⟩]
        concatenates_S800000x64_S800000x64_S800000x1_S800000x129_d1 (ix2 p (⟨k.val, by omega⟩ : Fin 129))
      = hi (ix2 p k) :=
  concatenate_apply_piece (t := S800000x129) 1 [⟨S800000x64, hi⟩, ⟨S800000x64, hj⟩, ⟨S800000x1, dist⟩]
    concatenates_S800000x64_S800000x64_S800000x1_S800000x129_d1 (ix2 p (⟨k.val, by omega⟩ : Fin 129))
    0 (by show (0 : Nat) < 3; omega) S800000x64 hi rfl rfl 0 rfl (ix2 p k)
    (fun b hb => match b with
      | ⟨0, _⟩ => rfl
      | ⟨1, _⟩ => absurd rfl hb)
    (Nat.zero_add _)

/-- Columns 64–127 are the second array's. -/
theorem cat_mid (hi hj : FVec Ideal S800000x64 .f32) (dist : FVec Ideal S800000x1 .f32) (p : Fin 800000) (k : Fin 64) :
    concatenate S800000x129 1 [⟨S800000x64, hi⟩, ⟨S800000x64, hj⟩, ⟨S800000x1, dist⟩]
        concatenates_S800000x64_S800000x64_S800000x1_S800000x129_d1 (ix2 p (⟨64 + k.val, by omega⟩ : Fin 129))
      = hj (ix2 p k) :=
  concatenate_apply_piece (t := S800000x129) 1 [⟨S800000x64, hi⟩, ⟨S800000x64, hj⟩, ⟨S800000x1, dist⟩]
    concatenates_S800000x64_S800000x64_S800000x1_S800000x129_d1 (ix2 p (⟨64 + k.val, by omega⟩ : Fin 129))
    1 (by show (1 : Nat) < 3; omega) S800000x64 hj rfl rfl 64 rfl (ix2 p k)
    (fun b hb => match b with
      | ⟨0, _⟩ => rfl
      | ⟨1, _⟩ => absurd rfl hb)
    rfl

/-- Column 128 is the third array's one column. -/
theorem cat_last (hi hj : FVec Ideal S800000x64 .f32) (dist : FVec Ideal S800000x1 .f32) (p : Fin 800000) :
    concatenate S800000x129 1 [⟨S800000x64, hi⟩, ⟨S800000x64, hj⟩, ⟨S800000x1, dist⟩]
        concatenates_S800000x64_S800000x64_S800000x1_S800000x129_d1 (ix2 p (⟨128, by omega⟩ : Fin 129))
      = dist (ix2 p (0 : Fin 1)) :=
  concatenate_apply_piece (t := S800000x129) 1 [⟨S800000x64, hi⟩, ⟨S800000x64, hj⟩, ⟨S800000x1, dist⟩]
    concatenates_S800000x64_S800000x64_S800000x1_S800000x129_d1 (ix2 p (⟨128, by omega⟩ : Fin 129))
    2 (by show (2 : Nat) < 3; omega) S800000x1 dist rfl rfl 128 rfl (ix2 p (0 : Fin 1))
    (fun b hb => match b with
      | ⟨0, _⟩ => rfl
      | ⟨1, _⟩ => absurd rfl hb)
    rfl

/-- relu ([hi | hj | dist] · W + b) is the network's message. -/
theorem refMessage (hi hj : FVec Ideal S800000x64 .f32) (dist : FVec Ideal S800000x1 .f32)
    (mw : FVec Ideal S129x64 .f32) (mb : FVec Ideal S64 .f32) :
    maximumf
        (addf (Host.dotGeneral dot_S800000x129_S129x64_S800000x64_1_0_0_1_n_n none
            (concatenate S800000x129 1 [⟨S800000x64, hi⟩, ⟨S800000x64, hj⟩, ⟨S800000x1, dist⟩]
              concatenates_S800000x64_S800000x64_S800000x1_S800000x129_d1) mw)
          (broadcastInDim S800000x64 ![0, 1] bcast_S1x64_S800000x64_0_1 (broadcastInDim S1x64 ![1] bcast_S64_S1x64_1 mb)))
        (broadcastInDim S800000x64 ![] bcast_S_S800000x64 (constant S_ .f32 0x00000000#32))
      = message (n := 800000) hi hj dist (rowsFrom 64 0 (by decide) mw) (rowsFrom 64 64 (by decide) mw)
          (rowsFrom 1 128 (by decide) mw) (asRow mb) := by
  funext i
  obtain ⟨p, q, rfl⟩ : ∃ (p : Fin 800000) (q : Fin 64), i = ix2 p q := ⟨i 0, i 1, eq_ix2 i⟩
  rw [maximumf_apply, addf_apply, zero_at, bias_at, dot_at, Cert.Net.sum_129, message_at, rows_last, asRow_at,
    cat_last]
  have h1 : ∀ k : Fin 64, k ∈ Finset.univ →
      concatenate S800000x129 1 [⟨S800000x64, hi⟩, ⟨S800000x64, hj⟩, ⟨S800000x1, dist⟩]
          concatenates_S800000x64_S800000x64_S800000x1_S800000x129_d1 (ix2 p (⟨k.val, by omega⟩ : Fin 129))
        * mw (ix2 (⟨k.val, by omega⟩ : Fin 129) q)
      = hi (ix2 p k) * rowsFrom 64 0 (by decide) mw (ix2 k q) := fun k _ => by rw [cat_lo, rows_lo]
  have h2 : ∀ k : Fin 64, k ∈ Finset.univ →
      concatenate S800000x129 1 [⟨S800000x64, hi⟩, ⟨S800000x64, hj⟩, ⟨S800000x1, dist⟩]
          concatenates_S800000x64_S800000x64_S800000x1_S800000x129_d1 (ix2 p (⟨64 + k.val, by omega⟩ : Fin 129))
        * mw (ix2 (⟨64 + k.val, by omega⟩ : Fin 129) q)
      = hj (ix2 p k) * rowsFrom 64 64 (by decide) mw (ix2 k q) := fun k _ => by rw [cat_mid, rows_mid]
  rw [Finset.sum_congr rfl h1, Finset.sum_congr rfl h2]

end Cert.ReferenceIdeal.DenseMsg

end
-- ==== Proof.RefValue.lean ====
/-
  What the reference program's three stretches of host operations compute, from any contents of the buffers: the
  first the embedding and the two index vectors, each of the other two one message-passing layer of the network; and
  so the result buffer, after all three from the launch contents, holds the network of the arguments.
-/
import proofs.«403838_j86191403696812_1_alg».proof.Proof.RefOps
import proofs.«403838_j86191403696812_1_alg».proof.Proof.RefOpsFine
import proofs.«403838_j86191403696812_1_alg».proof.Proof.RefFns
import proofs.«403838_j86191403696812_1_alg».proof.Proof.RefDense
import proofs.«403838_j86191403696812_1_alg».proof.Proof.RefMessage
import Idealize.ShloMosaic.Lib.Pipeline.Frame

set_option maxRecDepth 16384

noncomputable section

namespace Cert.ReferenceIdeal.StretchValue

open Cert.ReferenceIdeal Cert.ReferenceIdeal.Gen Cert.ReferenceIdeal.Stretch Cert.Net
open Idealize.ShloMosaic Idealize.ShloMosaic.TcCoe Idealize.SL.Sem Idealize.ShloMosaic.StableHlo

variable (W : Valuation τ sig (Elt Ideal))

/-- The first stretch leaves the embedding h · W + b. -/
theorem init_emb : after opsInit W (Proc.devRef .tc main_v7) = initEmbed (W (Proc.devRef .tc main_arg1)) (W (Proc.devRef .tc main_arg4)) (asRow (W (Proc.devRef .tc main_arg5))) := by
  after_results_simp
  exact Dense.refInit _ _ _

/-- The first stretch leaves row 0 of the edge list. -/
theorem init_row : after opsInit W (Proc.devRef .tc main_v1) = Fns.rowOf (W (Proc.devRef .tc main_arg2)) := by
  after_results_simp
  rfl

/-- The first stretch leaves row 1 of the edge list. -/
theorem init_col : after opsInit W (Proc.devRef .tc main_v3) = Fns.colOf (W (Proc.devRef .tc main_arg2)) := by
  after_results_simp
  rfl

/-- A buffer that none of the listed operations writes keeps its contents: every operation writes one buffer, and it
    is another one. -/
local macro "keeps " ops:ident : tactic => `(tactic| (
  refine StableHlo.after_of_forall_not_mem (b := _) _ _ (List.forall_iff_forall_mem.mp ?_)
  simp only [$ops:ident, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

/-- The first stretch writes none of these. -/
theorem init_keep (b : Ref sig .tc) (hb : b ∈ [main_arg0, main_arg6, main_arg7, main_arg8, main_arg9, main_arg10, main_arg11, main_arg12, main_arg13, main_arg14, main_arg15]) :
    after opsInit W (Proc.devRef .tc b) = W (Proc.devRef .tc b) := by
  simp only [List.mem_cons, List.not_mem_nil, or_false] at hb
  rcases hb with rfl | rfl | rfl | rfl | rfl | rfl | rfl | rfl | rfl | rfl | rfl
  all_goals keeps opsInit

/-! ## Layer 1, in three stretches: the selections and the distance; the message and its scatter-sum; the update -/

/-- The selection stretch leaves the embeddings of the edges' source nodes. -/
theorem sel1_src : after opsSel1 W (Proc.devRef .tc main_v32) = Fns.take64 (W (Proc.devRef .tc main_v7)) (W (Proc.devRef .tc main_v1)) := by
  after_results_simp
  rfl

/-- The selection stretch leaves the embeddings of the edges' target nodes. -/
theorem sel1_tgt : after opsSel1 W (Proc.devRef .tc main_v39) = Fns.take64 (W (Proc.devRef .tc main_v7)) (W (Proc.devRef .tc main_v3)) := by
  after_results_simp
  rfl

/-- The selection stretch leaves the squared distance of each edge's two positions. -/
theorem sel1_dist : after opsSel1 W (Proc.devRef .tc main_v25)
    = Fns.dist (Fns.take3 (W (Proc.devRef .tc main_arg0)) (W (Proc.devRef .tc main_v1))) (Fns.take3 (W (Proc.devRef .tc main_arg0)) (W (Proc.devRef .tc main_v3))) := by
  after_results_simp
  rfl

/-- The selection stretch writes none of these. -/
theorem sel1_keep (b : Ref sig .tc) (hb : b ∈ [main_v7, main_v3, main_arg6, main_arg7, main_arg8, main_arg9, main_arg10]) :
    after opsSel1 W (Proc.devRef .tc b) = W (Proc.devRef .tc b) := by
  simp only [List.mem_cons, List.not_mem_nil, or_false] at hb
  rcases hb with rfl | rfl | rfl | rfl | rfl | rfl | rfl
  all_goals keeps opsSel1

/-- The message stretch leaves the messages summed into their target nodes. -/
theorem msg1_out : after opsMsg1 W (Proc.devRef .tc main_v48)
    = Fns.scat (W (Proc.devRef .tc main_v3)) (message (n := 800000) (W (Proc.devRef .tc main_v32)) (W (Proc.devRef .tc main_v39)) (W (Proc.devRef .tc main_v25))
        (rowsFrom 64 0 (by decide) (W (Proc.devRef .tc main_arg7))) (rowsFrom 64 64 (by decide) (W (Proc.devRef .tc main_arg7))) (rowsFrom 1 128 (by decide) (W (Proc.devRef .tc main_arg7)))
        (asRow (W (Proc.devRef .tc main_arg8)))) := by
  rw [← DenseMsg.refMessage]
  after_results_simp
  simp only [TRef.ofBuf, TRef.toBuf, cast_cast, cast_eq]
  rfl

/-- The message stretch writes none of these. -/
theorem msg1_keep (b : Ref sig .tc) (hb : b ∈ [main_v7, main_arg6, main_arg9, main_arg10]) :
    after opsMsg1 W (Proc.devRef .tc b) = W (Proc.devRef .tc b) := by
  simp only [List.mem_cons, List.not_mem_nil, or_false] at hb
  rcases hb with rfl | rfl | rfl | rfl
  all_goals keeps opsMsg1

/-- The update stretch leaves the new embedding. -/
theorem upd1_out : after opsUpd1 W (Proc.devRef .tc main_v56)
    = update (n := 50000) (W (Proc.devRef .tc main_v7)) (W (Proc.devRef .tc main_v48)) (W (Proc.devRef .tc main_arg6))
        (rowsFrom 64 0 (by decide) (W (Proc.devRef .tc main_arg9))) (rowsFrom 64 64 (by decide) (W (Proc.devRef .tc main_arg9))) (asRow (W (Proc.devRef .tc main_arg10))) := by
  rw [← Dense.refUpdate]
  after_results_simp
  simp only [TRef.ofBuf, TRef.toBuf, cast_cast, cast_eq]

/-- Layer 1's operations are its three stretches in order. -/
theorem layer1_split : (opsLayer1 : List (HloOp τ sig (Elt Ideal))) = opsSel1 ++ opsMsg1 ++ opsUpd1 := rfl

/-- The second stretch is one layer of the network. -/
theorem layer1_out : after opsLayer1 W (Proc.devRef .tc main_v56)
    = layer Fns.H (W (Proc.devRef .tc main_v7)) (W (Proc.devRef .tc main_arg0)) (W (Proc.devRef .tc main_v1)) (W (Proc.devRef .tc main_v3))
        (W (Proc.devRef .tc main_arg6)) (W (Proc.devRef .tc main_arg7)) (W (Proc.devRef .tc main_arg8)) (W (Proc.devRef .tc main_arg9)) (W (Proc.devRef .tc main_arg10)) := by
  rw [layer1_split, StableHlo.after_append, StableHlo.after_append, upd1_out, msg1_out,
    msg1_keep _ main_v7 (by decide), msg1_keep _ main_arg6 (by decide), msg1_keep _ main_arg9 (by decide), msg1_keep _ main_arg10 (by decide),
    sel1_src, sel1_tgt, sel1_dist,
    sel1_keep _ main_v7 (by decide), sel1_keep _ main_v3 (by decide), sel1_keep _ main_arg6 (by decide), sel1_keep _ main_arg7 (by decide),
    sel1_keep _ main_arg8 (by decide), sel1_keep _ main_arg9 (by decide), sel1_keep _ main_arg10 (by decide)]
  rfl

/-- The second stretch writes none of these. -/
theorem layer1_keep (b : Ref sig .tc) (hb : b ∈ [main_arg0, main_v1, main_v3, main_arg11, main_arg12, main_arg13, main_arg14, main_arg15]) :
    after opsLayer1 W (Proc.devRef .tc b) = W (Proc.devRef .tc b) := by
  simp only [List.mem_cons, List.not_mem_nil, or_false] at hb
  rcases hb with rfl | rfl | rfl | rfl | rfl | rfl | rfl | rfl
  all_goals keeps opsLayer1

/-! ## Layer 2, in three stretches: the selections and the distance; the message and its scatter-sum; the update -/

/-- The selection stretch leaves the embeddings of the edges' source nodes. -/
theorem sel2_src : after opsSel2 W (Proc.devRef .tc main_v81) = Fns.take64 (W (Proc.devRef .tc main_v56)) (W (Proc.devRef .tc main_v1)) := by
  after_results_simp
  rfl

/-- The selection stretch leaves the embeddings of the edges' target nodes. -/
theorem sel2_tgt : after opsSel2 W (Proc.devRef .tc main_v88) = Fns.take64 (W (Proc.devRef .tc main_v56)) (W (Proc.devRef .tc main_v3)) := by
  after_results_simp
  rfl

/-- The selection stretch leaves the squared distance of each edge's two positions. -/
theorem sel2_dist : after opsSel2 W (Proc.devRef .tc main_v74)
    = Fns.dist (Fns.take3 (W (Proc.devRef .tc main_arg0)) (W (Proc.devRef .tc main_v1))) (Fns.take3 (W (Proc.devRef .tc main_arg0)) (W (Proc.devRef .tc main_v3))) := by
  after_results_simp
  rfl

/-- The selection stretch writes none of these. -/
theorem sel2_keep (b : Ref sig .tc) (hb : b ∈ [main_v56, main_v3, main_arg11, main_arg12, main_arg13, main_arg14, main_arg15]) :
    after opsSel2 W (Proc.devRef .tc b) = W (Proc.devRef .tc b) := by
  simp only [List.mem_cons, List.not_mem_nil, or_false] at hb
  rcases hb with rfl | rfl | rfl | rfl | rfl | rfl | rfl
  all_goals keeps opsSel2

/-- The message stretch leaves the messages summed into their target nodes. -/
theorem msg2_out : after opsMsg2 W (Proc.devRef .tc main_v97)
    = Fns.scat (W (Proc.devRef .tc main_v3)) (message (n := 800000) (W (Proc.devRef .tc main_v81)) (W (Proc.devRef .tc main_v88)) (W (Proc.devRef .tc main_v74))
        (rowsFrom 64 0 (by decide) (W (Proc.devRef .tc main_arg12))) (rowsFrom 64 64 (by decide) (W (Proc.devRef .tc main_arg12))) (rowsFrom 1 128 (by decide) (W (Proc.devRef .tc main_arg12)))
        (asRow (W (Proc.devRef .tc main_arg13)))) := by
  rw [← DenseMsg.refMessage]
  after_results_simp
  simp only [TRef.ofBuf, TRef.toBuf, cast_cast, cast_eq]
  rfl

/-- The message stretch writes none of these. -/
theorem msg2_keep (b : Ref sig .tc) (hb : b ∈ [main_v56, main_arg11, main_arg14, main_arg15]) :
    after opsMsg2 W (Proc.devRef .tc b) = W (Proc.devRef .tc b) := by
  simp only [List.mem_cons, List.not_mem_nil, or_false] at hb
  rcases hb with rfl | rfl | rfl | rfl
  all_goals keeps opsMsg2

/-- The update stretch leaves the new embedding. -/
theorem upd2_out : after opsUpd2 W (Proc.devRef .tc main_v105)
    = update (n := 50000) (W (Proc.devRef .tc main_v56)) (W (Proc.devRef .tc main_v97)) (W (Proc.devRef .tc main_arg11))
        (rowsFrom 64 0 (by decide) (W (Proc.devRef .tc main_arg14))) (rowsFrom 64 64 (by decide) (W (Proc.devRef .tc main_arg14))) (asRow (W (Proc.devRef .tc main_arg15))) := by
  rw [← Dense.refUpdate]
  after_results_simp
  simp only [TRef.ofBuf, TRef.toBuf, cast_cast, cast_eq]

/-- Layer 2's operations are its three stretches in order. -/
theorem layer2_split : (opsLayer2 : List (HloOp τ sig (Elt Ideal))) = opsSel2 ++ opsMsg2 ++ opsUpd2 := rfl

/-- The third stretch is one layer of the network. -/
theorem layer2_out : after opsLayer2 W (Proc.devRef .tc main_v105)
    = layer Fns.H (W (Proc.devRef .tc main_v56)) (W (Proc.devRef .tc main_arg0)) (W (Proc.devRef .tc main_v1)) (W (Proc.devRef .tc main_v3))
        (W (Proc.devRef .tc main_arg11)) (W (Proc.devRef .tc main_arg12)) (W (Proc.devRef .tc main_arg13)) (W (Proc.devRef .tc main_arg14)) (W (Proc.devRef .tc main_arg15)) := by
  rw [layer2_split, StableHlo.after_append, StableHlo.after_append, upd2_out, msg2_out,
    msg2_keep _ main_v56 (by decide), msg2_keep _ main_arg11 (by decide), msg2_keep _ main_arg14 (by decide), msg2_keep _ main_arg15 (by decide),
    sel2_src, sel2_tgt, sel2_dist,
    sel2_keep _ main_v56 (by decide), sel2_keep _ main_v3 (by decide), sel2_keep _ main_arg11 (by decide), sel2_keep _ main_arg12 (by decide),
    sel2_keep _ main_arg13 (by decide), sel2_keep _ main_arg14 (by decide), sel2_keep _ main_arg15 (by decide)]
  rfl

/-- After the three stretches from the launch contents the result buffer holds the network of the arguments. -/
theorem result (m : (ℓ : Loc nD τ sig) → Buf (Elt Ideal) ℓ) (c : Dev nD) :
    after (opsInit ++ opsLayer1 ++ opsLayer2) (launchContents m c) (Proc.devRef .tc main_v105)
      = net Fns.H (m ((c.tc : Thread nD τ).loc main_arg0)) (m ((c.tc : Thread nD τ).loc main_arg1))
          (Fns.rowOf (m ((c.tc : Thread nD τ).loc main_arg2))) (Fns.colOf (m ((c.tc : Thread nD τ).loc main_arg2)))
          (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  rw [StableHlo.after_append, StableHlo.after_append, layer2_out,
    layer1_out, layer1_keep _ main_arg0 (by simp), layer1_keep _ main_v1 (by simp), layer1_keep _ main_v3 (by simp),
    layer1_keep _ main_arg11 (by simp), layer1_keep _ main_arg12 (by simp), layer1_keep _ main_arg13 (by simp), layer1_keep _ main_arg14 (by simp), layer1_keep _ main_arg15 (by simp),
    init_emb, init_row, init_col, init_keep _ main_arg0 (by simp),
    init_keep _ main_arg6 (by simp), init_keep _ main_arg7 (by simp), init_keep _ main_arg8 (by simp), init_keep _ main_arg9 (by simp), init_keep _ main_arg10 (by simp), init_keep _ main_arg11 (by simp), init_keep _ main_arg12 (by simp), init_keep _ main_arg13 (by simp), init_keep _ main_arg14 (by simp), init_keep _ main_arg15 (by simp)]
  rfl

end Cert.ReferenceIdeal.StretchValue

end
-- ==== Proof.TakeInRange.lean ====
/-
  On an index vector whose entries all lie in [-50000, 50000) the two programs select the same rows: after a
  negative entry is moved up by 50000 every entry lies in [0, 49999], so the kernel's range test passes on every
  edge and its selection is the plain one. The squared distance and the scatter-sum are the same host
  operations in both programs.
-/
import proofs.«403838_j86191403696812_1_alg».proof.Proof.KernelFns
import proofs.«403838_j86191403696812_1_alg».proof.Proof.RefFns
import Idealize.ShloMosaic.Lib.Pipeline.Value
import Idealize.ShloMosaic.Lib.ReduceAll
import Idealize.ShloMosaic.Lib.StableHlo.Predicate

noncomputable section

namespace Cert.Net

open Idealize.ShloMosaic Idealize.ShloMosaic.ValueIdx

/-! ## One index word -/

/-- A node index with a negative value moved up by the number of nodes. -/
def moved (r : BitVec 32) : BitVec 32 :=
  Scalar.select (IntOp.cmpi .slt r 0#32) (IntOp.addi r 50000#32) r

theorem toInt_zero32 : (0#32 : BitVec 32).toInt = 0 := by decide
theorem toInt_49999 : (49999#32 : BitVec 32).toInt = 49999 := by decide

/-- A word in [-50000, 50000), moved, lies in [0, 49999]: below zero it gains 50000 without wrapping, otherwise it
    stays. -/
theorem moved_toInt (r : BitVec 32) (h1 : -50000 ≤ r.toInt) (h2 : r.toInt < 50000) :
    0 ≤ (moved r).toInt ∧ (moved r).toInt ≤ 49999 := by
  unfold moved
  by_cases hneg : r.toInt < 0
  · have c : IntOp.cmpi .slt r 0#32 = 1#1 := by
      simp only [IntOp.cmpi, BitVec.slt, StableHlo.Predicate.ofBool_eq_one_iff, decide_eq_true_eq, toInt_zero32]
      exact hneg
    rw [c, select_one]
    unfold IntOp.addi
    rw [BitVec.toInt_eq_toNat_cond] at h1 h2 hneg ⊢
    rw [BitVec.toNat_add]
    have h5 : (50000#32 : BitVec 32).toNat = 50000 := by decide
    rw [h5]
    have hlt := r.isLt
    split at h1 <;> split <;> omega
  · have c : IntOp.cmpi .slt r 0#32 = 0#1 := by
      simp only [IntOp.cmpi, BitVec.slt, toInt_zero32, decide_eq_false hneg]
      rfl
    rw [c, select_zero]
    omega

/-- So both halves of the range test hold of it. -/
theorem moved_inRange (r : BitVec 32) (h1 : -50000 ≤ r.toInt) (h2 : r.toInt < 50000) :
    IntOp.andi (IntOp.cmpi .sge (moved r) 0#32) (IntOp.cmpi .sle (moved r) 49999#32) = 1#1 := by
  obtain ⟨k1, k2⟩ := moved_toInt r h1 h2
  have a : IntOp.cmpi .sge (moved r) 0#32 = 1#1 := by
    simp only [IntOp.cmpi, BitVec.sle, StableHlo.Predicate.ofBool_eq_one_iff, decide_eq_true_eq, toInt_zero32]
    exact k1
  have b : IntOp.cmpi .sle (moved r) 49999#32 = 1#1 := by
    simp only [IntOp.cmpi, BitVec.sle, StableHlo.Predicate.ofBool_eq_one_iff, decide_eq_true_eq, toInt_49999]
    exact k2
  rw [a, b]
  rfl

/-- The one-bit "and", folded from 1 over entries that are all 1, is 1. -/
theorem foldl_andi_one {ι : Type} (x : ι → BitVec 1) (l : List ι) (h : ∀ i, x i = 1#1) :
    l.foldl (fun r i => IntOp.andi r (x i)) 1#1 = 1#1 := by
  induction l with
  | nil => rfl
  | cons a l ih =>
    rw [List.foldl_cons, h a]
    exact ih

/-! ## The arrays -/

/-- A broadcast read at an index is its operand at some index. -/
theorem bcast_exists {α : Type} {s t : Shape} (dims : Fin s.rank → Fin t.rank) (hb : s.BroadcastsInDim t dims)
    (x : s.Idx → α) (j : t.Idx) : ∃ k : s.Idx, broadcastInDim t dims hb x j = x k := ⟨_, rfl⟩

/-- The moved index column reads, at each of its entries, the moved word of some entry of the index vector. -/
theorem wrapIdx_apply (idx : Ids 800000) (i : (⟨2, ![800000, 1]⟩ : Shape).Idx) :
    ∃ k : (⟨1, ![800000]⟩ : Shape).Idx, Cert.KernelIdeal.Fns.wrapIdx idx i = moved (idx k) := ⟨_, rfl⟩

/-- On an in-range index vector the kernel's range test passes on every edge. -/
theorem inRange_wrap (idx : Ids 800000) (h : InRange idx) (j : (⟨1, ![800000]⟩ : Shape).Idx) :
    Cert.KernelIdeal.Fns.inRange (Cert.KernelIdeal.Fns.wrapIdx idx) j = 1#1 := by
  unfold Cert.KernelIdeal.Fns.inRange
  rw [Host.reduce_eq_foldl]
  apply foldl_andi_one
  intro i
  show IntOp.andi (IntOp.cmpi .sge (Cert.KernelIdeal.Fns.wrapIdx idx i) 0#32)
    (IntOp.cmpi .sle (Cert.KernelIdeal.Fns.wrapIdx idx i) 49999#32) = 1#1
  obtain ⟨k, hk⟩ := wrapIdx_apply idx i
  obtain ⟨e, rfl⟩ : ∃ e : Fin 800000, k = ix1 e := ⟨k 0, eq_ix1 k⟩
  rw [hk]
  exact moved_inRange _ (h e).1 (h e).2

/-- So the mask, the range test laid along the rows of any array over the edges, is 1 everywhere. -/
theorem mask_one {t : Shape} (dims : Fin (⟨1, ![800000]⟩ : Shape).rank → Fin t.rank)
    (hb : (⟨1, ![800000]⟩ : Shape).BroadcastsInDim t dims) (idx : Ids 800000) (h : InRange idx) (j : t.Idx) :
    broadcastInDim t dims hb (Cert.KernelIdeal.Fns.inRange (Cert.KernelIdeal.Fns.wrapIdx idx)) j = 1#1 := by
  obtain ⟨k, hk⟩ := bcast_exists dims hb (Cert.KernelIdeal.Fns.inRange (Cert.KernelIdeal.Fns.wrapIdx idx)) j
  rw [hk]
  exact inRange_wrap idx h k

/-- Both programs move an index vector the same way. -/
theorem wrapIdx_eq (idx : Ids 800000) : Cert.KernelIdeal.Fns.wrapIdx idx = Cert.ReferenceIdeal.Fns.wrapIdx idx := rfl

/-- Both programs select rows of the positions under the same dimension numbers. -/
theorem gather3_eq : Cert.KernelIdeal.gather_S50000x3_S800000x1_S800000x3_1_0_n_n_0_1_13
    = Cert.ReferenceIdeal.gather_S50000x3_S800000x1_S800000x3_1_0_n_n_0_1_13 := rfl

/-- Both programs select rows of the embeddings under the same dimension numbers. -/
theorem gather64_eq : Cert.KernelIdeal.gather_S50000x64_S800000x1_S800000x64_1_0_n_n_0_1_164
    = Cert.ReferenceIdeal.gather_S50000x64_S800000x1_S800000x64_1_0_n_n_0_1_164 := rfl

/-- Both programs scatter under the same dimension numbers. -/
theorem scatter_eq : Cert.KernelIdeal.scatter_S50000x64_S800000x1_S800000x64_1_0_0_1
    = Cert.ReferenceIdeal.scatter_S50000x64_S800000x1_S800000x64_1_0_0_1 := rfl

/-- The two programs cut the same source-node vector out of the edge list. -/
theorem rowOf_eq (ei : IVec (⟨2, ![2, 800000]⟩ : Shape) 32) :
    Cert.KernelIdeal.Fns.rowOf ei = Cert.ReferenceIdeal.Fns.rowOf ei := rfl

/-- The two programs cut the same target-node vector out of the edge list. -/
theorem colOf_eq (ei : IVec (⟨2, ![2, 800000]⟩ : Shape) 32) :
    Cert.KernelIdeal.Fns.colOf ei = Cert.ReferenceIdeal.Fns.colOf ei := rfl

/-- Positions: the kernel's selection is the reference's on an in-range index vector. -/
theorem take3_eq (idx : Ids 800000) (h : InRange idx) (x : Mat 50000 3) :
    Cert.KernelIdeal.Fns.H.take3 x idx = Cert.ReferenceIdeal.Fns.H.take3 x idx := by
  funext j
  simp only [Cert.KernelIdeal.Fns.H, Cert.ReferenceIdeal.Fns.H]
  unfold Cert.KernelIdeal.Fns.take3 Cert.ReferenceIdeal.Fns.take3
  rw [select_apply, mask_one _ _ idx h j, select_one, gather3_eq, wrapIdx_eq]

/-- Embeddings: the kernel's selection is the reference's on an in-range index vector. -/
theorem take64_eq (idx : Ids 800000) (h : InRange idx) (x : Mat 50000 64) :
    Cert.KernelIdeal.Fns.H.take64 x idx = Cert.ReferenceIdeal.Fns.H.take64 x idx := by
  funext j
  simp only [Cert.KernelIdeal.Fns.H, Cert.ReferenceIdeal.Fns.H]
  unfold Cert.KernelIdeal.Fns.take64 Cert.ReferenceIdeal.Fns.take64
  rw [select_apply, mask_one _ _ idx h j, select_one, gather64_eq, wrapIdx_eq]

/-- The same squared distance. -/
theorem dist_eq : Cert.KernelIdeal.Fns.H.dist = Cert.ReferenceIdeal.Fns.H.dist := by
  show Cert.KernelIdeal.Fns.dist = Cert.ReferenceIdeal.Fns.dist
  funext a b
  rfl

/-- The same scatter-sum. -/
theorem scat_eq : Cert.KernelIdeal.Fns.H.scat = Cert.ReferenceIdeal.Fns.H.scat := by
  show Cert.KernelIdeal.Fns.scat = Cert.ReferenceIdeal.Fns.scat
  funext col msg
  unfold Cert.KernelIdeal.Fns.scat Cert.ReferenceIdeal.Fns.scat
  rw [scatter_eq]

end Cert.Net

end
-- ==== Proof.PreRange.lean ====
/-
  What the precondition says of the edge list: its last conjunct is that every entry e of the 2 × 800000 index
  array satisfies -50000 ≤ e < 50000 as a signed number. Both index vectors cut out of it are therefore in range.
-/
import proofs.«403838_j86191403696812_1_alg».proof.Pre_finite_inputs
import proofs.«403838_j86191403696812_1_alg».proof.Proof.Gen.Pre_finite_inputs
import proofs.«403838_j86191403696812_1_alg».proof.Proof.KernelFns
import Idealize.ShloMosaic.Lib.Pipeline.Value
import Idealize.ShloMosaic.Lib.ReduceAll
import Idealize.ShloMosaic.Lib.StableHlo.Predicate
import Idealize.ShloMosaic.Lib.ValueLayout

noncomputable section

namespace Cert.Net

open Idealize.ShloMosaic Idealize.ShloMosaic.ValueIdx

namespace PreRange

/-- The two bounds as signed numbers: the 32-bit word 4294917296 is 2³² - 50000, read signed -50000. -/
theorem lower_word : (4294917296#32 : BitVec 32).toInt = -50000 := by decide
/-- The upper bound, read signed, is 50000. -/
theorem upper_word : (50000#32 : BitVec 32).toInt = 50000 := by decide

/-- The precondition is a conjunction of conditions, each the conjunction over all entries of one array; the last
    one ranges over the edge list and is, entry by entry, the conjunction of two signed comparisons against constants
    spread over the whole array. The whole being 1, the last condition is 1; a conjunction over all entries that is 1
    is 1 at every entry; and at an entry both comparisons are 1, which says the entry lies in [-50000, 50000). -/
theorem entries_of_pre
    (x0 : FVec Ideal (⟨2, ![50000, 3]⟩ : Shape) .f32) (x1 : FVec Ideal (⟨2, ![50000, 32]⟩ : Shape) .f32)
    (x2 : IVec (⟨2, ![2, 800000]⟩ : Shape) 32) (x3 : IVec (⟨1, ![50000]⟩ : Shape) 32)
    (x4 : FVec Ideal (⟨2, ![32, 64]⟩ : Shape) .f32) (x5 : FVec Ideal (⟨1, ![64]⟩ : Shape) .f32)
    (x6 : FVec Ideal (⟨2, ![64, 64]⟩ : Shape) .f32) (x7 : FVec Ideal (⟨2, ![129, 64]⟩ : Shape) .f32)
    (x8 : FVec Ideal (⟨1, ![64]⟩ : Shape) .f32) (x9 : FVec Ideal (⟨2, ![128, 64]⟩ : Shape) .f32)
    (x10 : FVec Ideal (⟨1, ![64]⟩ : Shape) .f32) (x11 : FVec Ideal (⟨2, ![64, 64]⟩ : Shape) .f32)
    (x12 : FVec Ideal (⟨2, ![129, 64]⟩ : Shape) .f32) (x13 : FVec Ideal (⟨1, ![64]⟩ : Shape) .f32)
    (x14 : FVec Ideal (⟨2, ![128, 64]⟩ : Shape) .f32) (x15 : FVec Ideal (⟨1, ![64]⟩ : Shape) .f32)
    (h : Cert.Pre_finite_inputs.fn (F := Ideal) x0 x1 x2 x3 x4 x5 x6 x7 x8 x9 x10 x11 x12 x13 x14 x15 = fun _ => 1#1)
    (i : (⟨2, ![2, 800000]⟩ : Shape).Idx) :
    -50000 ≤ (x2 i).toInt ∧ (x2 i).toInt < 50000 := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  -- the last conjunct: the conjunction over the edge list
  have hB := (IntOp.andi_eq_one.1 h0).2
  -- the result of that conjunction has one index only
  haveI : Subsingleton Cert.Pre_finite_inputs.S_.Idx := ⟨fun a b => funext fun d => d.elim0⟩
  have hi := Host.reduce_andi_all _ _ _ _ _ hB i
  obtain ⟨hge, hlt⟩ := IntOp.andi_eq_one.1 hi
  -- a constant spread over the array reads, at entry i, the constant
  have hge' : (4294917296#32 : BitVec 32).toInt ≤ (x2 i).toInt := IntOp.cmpi_sge.1 hge
  have hlt' : (x2 i).toInt < (50000#32 : BitVec 32).toInt := IntOp.cmpi_slt.1 hlt
  rw [lower_word] at hge'
  rw [upper_word] at hlt'
  exact ⟨hge', hlt'⟩

/-- Entry e of the first index vector is entry (0, e) of the edge list: the vector is row 0 of the list, cut out as
    a 1 × 800000 array and then read as a vector, and the two reads keep the position along the row. -/
theorem rowOf_apply (x2 : IVec (⟨2, ![2, 800000]⟩ : Shape) 32) (e : Fin 800000) :
    Cert.KernelIdeal.Fns.rowOf x2 (ix1 e) = x2 (ix2 (0 : Fin 2) e) := by
  unfold Cert.KernelIdeal.Fns.rowOf
  rw [shapeCast_1a_a_apply]
  exact slice2_axis0_apply 0 x2 _ (0 : Fin 1) e (0 : Fin 2) rfl

/-- Entry e of the second index vector is entry (1, e) of the edge list. -/
theorem colOf_apply (x2 : IVec (⟨2, ![2, 800000]⟩ : Shape) 32) (e : Fin 800000) :
    Cert.KernelIdeal.Fns.colOf x2 (ix1 e) = x2 (ix2 (1 : Fin 2) e) := by
  unfold Cert.KernelIdeal.Fns.colOf
  rw [shapeCast_1a_a_apply]
  exact slice2_axis0_apply 1 x2 _ (0 : Fin 1) e (1 : Fin 2) rfl

end PreRange

/-- From the printed precondition evaluated to all ones: both index vectors of the edge list are in range. -/
theorem inRange_of_pre
    (x0 : FVec Ideal (⟨2, ![50000, 3]⟩ : Shape) .f32) (x1 : FVec Ideal (⟨2, ![50000, 32]⟩ : Shape) .f32)
    (x2 : IVec (⟨2, ![2, 800000]⟩ : Shape) 32) (x3 : IVec (⟨1, ![50000]⟩ : Shape) 32)
    (x4 : FVec Ideal (⟨2, ![32, 64]⟩ : Shape) .f32) (x5 : FVec Ideal (⟨1, ![64]⟩ : Shape) .f32)
    (x6 : FVec Ideal (⟨2, ![64, 64]⟩ : Shape) .f32) (x7 : FVec Ideal (⟨2, ![129, 64]⟩ : Shape) .f32)
    (x8 : FVec Ideal (⟨1, ![64]⟩ : Shape) .f32) (x9 : FVec Ideal (⟨2, ![128, 64]⟩ : Shape) .f32)
    (x10 : FVec Ideal (⟨1, ![64]⟩ : Shape) .f32) (x11 : FVec Ideal (⟨2, ![64, 64]⟩ : Shape) .f32)
    (x12 : FVec Ideal (⟨2, ![129, 64]⟩ : Shape) .f32) (x13 : FVec Ideal (⟨1, ![64]⟩ : Shape) .f32)
    (x14 : FVec Ideal (⟨2, ![128, 64]⟩ : Shape) .f32) (x15 : FVec Ideal (⟨1, ![64]⟩ : Shape) .f32)
    (h : Cert.Pre_finite_inputs.fn (F := Ideal) x0 x1 x2 x3 x4 x5 x6 x7 x8 x9 x10 x11 x12 x13 x14 x15 = fun _ => 1#1) :
    InRange (Cert.KernelIdeal.Fns.rowOf x2) ∧ InRange (Cert.KernelIdeal.Fns.colOf x2) := by
  have hall := PreRange.entries_of_pre x0 x1 x2 x3 x4 x5 x6 x7 x8 x9 x10 x11 x12 x13 x14 x15 h
  refine ⟨fun e => ?_, fun e => ?_⟩
  · rw [PreRange.rowOf_apply]; exact hall _
  · rw [PreRange.colOf_apply]; exact hall _

end Cert.Net

end
-- ==== Proof.lean ====
/-
  The certificate of a two-layer message-passing network over 50000 nodes and 800000 edges.

  Both programs compute, over the extended reals, the same function of their arrays: an affine embedding of the node
  features, then twice: for every edge the message relu (e[r] · W_s + e[c] · W_d + |x[r] - x[c]|² · w_t + b), the messages
  summed into their target nodes, and the update e · R + relu (e · U_s + a · U_a + b'). The kernel's program computes the
  three dense maps in five calls, block by block; the reference computes them with whole-array products over the
  concatenated operands, equal by splitting the sum over the concatenated axis. Around the dense maps both programs
  select rows by the two index vectors of the edge list. The kernel's selection fills a row whose index lies outside
  the array with a fixed pattern where the reference's clamps the index: under the precondition, which bounds every
  entry of the edge list to [-50000, 50000), no index is outside (a negative one counts from the back in both programs),
  and the two selections are the same. Only commutativity and associativity of the sum are used: finiteness of the
  float arrays is not.

  The three frames: the kernel's two programs run, nothing faulting, with the arguments unchanged (generated for each
  call and the host operations between them); the reference is a straight line of host operations, none of which
  writes an argument. The idealization changed nothing that carries a side condition.
-/
import proofs.«403838_j86191403696812_1_alg».proof.Defs
import proofs.«403838_j86191403696812_1_alg».proof.Proof.Gen.Kernel
import proofs.«403838_j86191403696812_1_alg».proof.Proof.Gen.Kernel.Frame
import proofs.«403838_j86191403696812_1_alg».proof.Proof.Gen.KernelIdeal
import proofs.«403838_j86191403696812_1_alg».proof.Proof.Gen.KernelIdeal.Frame
import proofs.«403838_j86191403696812_1_alg».proof.Proof.Gen.ReferenceIdeal
import proofs.«403838_j86191403696812_1_alg».proof.Proof.Gen.Pre_finite_inputs
import proofs.«403838_j86191403696812_1_alg».proof.Proof.KernelRun
import proofs.«403838_j86191403696812_1_alg».proof.Proof.KernelValue
import proofs.«403838_j86191403696812_1_alg».proof.Proof.RefRun
import proofs.«403838_j86191403696812_1_alg».proof.Proof.RefValue
import proofs.«403838_j86191403696812_1_alg».proof.Proof.TakeInRange
import proofs.«403838_j86191403696812_1_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem

/-- Under the precondition the network over the kernel's host operations is the network over the reference's: the two
    index vectors are in range, so the two row selections agree on them; the distance and the scatter-sum are the
    same operations. -/
theorem net_eq (x0 : FVec Ideal (⟨2, ![50000, 3]⟩ : Shape) .f32) (x1 : FVec Ideal (⟨2, ![50000, 32]⟩ : Shape) .f32)
    (x2 : IVec (⟨2, ![2, 800000]⟩ : Shape) 32) (x3 : IVec (⟨1, ![50000]⟩ : Shape) 32)
    (x4 : FVec Ideal (⟨2, ![32, 64]⟩ : Shape) .f32) (x5 : FVec Ideal (⟨1, ![64]⟩ : Shape) .f32)
    (x6 : FVec Ideal (⟨2, ![64, 64]⟩ : Shape) .f32) (x7 : FVec Ideal (⟨2, ![129, 64]⟩ : Shape) .f32)
    (x8 : FVec Ideal (⟨1, ![64]⟩ : Shape) .f32) (x9 : FVec Ideal (⟨2, ![128, 64]⟩ : Shape) .f32)
    (x10 : FVec Ideal (⟨1, ![64]⟩ : Shape) .f32) (x11 : FVec Ideal (⟨2, ![64, 64]⟩ : Shape) .f32)
    (x12 : FVec Ideal (⟨2, ![129, 64]⟩ : Shape) .f32) (x13 : FVec Ideal (⟨1, ![64]⟩ : Shape) .f32)
    (x14 : FVec Ideal (⟨2, ![128, 64]⟩ : Shape) .f32) (x15 : FVec Ideal (⟨1, ![64]⟩ : Shape) .f32)
    (h : Cert.Pre_finite_inputs.fn (F := Ideal) x0 x1 x2 x3 x4 x5 x6 x7 x8 x9 x10 x11 x12 x13 x14 x15 = fun _ => 1#1) :
    Cert.Net.net Cert.KernelIdeal.Fns.H x0 x1 (Cert.KernelIdeal.Fns.rowOf x2) (Cert.KernelIdeal.Fns.colOf x2) x4 x5 x6 x7 x8 x9 x10 x11 x12 x13 x14 x15
      = Cert.Net.net Cert.ReferenceIdeal.Fns.H x0 x1 (Cert.ReferenceIdeal.Fns.rowOf x2) (Cert.ReferenceIdeal.Fns.colOf x2) x4 x5 x6 x7 x8 x9 x10 x11 x12 x13 x14 x15 := by
  obtain ⟨hr, hc⟩ := Cert.Net.inRange_of_pre x0 x1 x2 x3 x4 x5 x6 x7 x8 x9 x10 x11 x12 x13 x14 x15 h
  rw [← Cert.Net.rowOf_eq, ← Cert.Net.colOf_eq]
  exact Cert.Net.net_congr _ _ _ _ (Cert.Net.take3_eq _ hr) (Cert.Net.take3_eq _ hc) (Cert.Net.take64_eq _ hr)
    (Cert.Net.take64_eq _ hc) Cert.Net.dist_eq Cert.Net.scat_eq _ _ _ _ _ _ _ _ _ _ _ _ _ _

theorem frame_kernel : Cert.frame_Kernel := fun m ρ _ => Cert.Kernel.Gen.frame m ρ

theorem frame_kernel_ideal : Cert.frame_KernelIdeal := fun m ρ _ => Cert.KernelIdeal.Gen.frame m ρ

/-- The reference runs, and no operation of it writes an argument. -/
theorem frame_reference : Cert.frame_ReferenceIdeal := fun m ρ _ =>
  (θ_run Cert.ReferenceIdeal.defs _ _).mono (fun _ h c =>
    ⟨(h c Cert.ReferenceIdeal.main_arg0).trans (Cert.ReferenceIdeal.Stretch.kept m c Cert.ReferenceIdeal.main_arg0 (by simp)),
     (h c Cert.ReferenceIdeal.main_arg1).trans (Cert.ReferenceIdeal.Stretch.kept m c Cert.ReferenceIdeal.main_arg1 (by simp)),
     (h c Cert.ReferenceIdeal.main_arg2).trans (Cert.ReferenceIdeal.Stretch.kept m c Cert.ReferenceIdeal.main_arg2 (by simp)),
     (h c Cert.ReferenceIdeal.main_arg3).trans (Cert.ReferenceIdeal.Stretch.kept m c Cert.ReferenceIdeal.main_arg3 (by simp)),
     (h c Cert.ReferenceIdeal.main_arg4).trans (Cert.ReferenceIdeal.Stretch.kept m c Cert.ReferenceIdeal.main_arg4 (by simp)),
     (h c Cert.ReferenceIdeal.main_arg5).trans (Cert.ReferenceIdeal.Stretch.kept m c Cert.ReferenceIdeal.main_arg5 (by simp)),
     (h c Cert.ReferenceIdeal.main_arg6).trans (Cert.ReferenceIdeal.Stretch.kept m c Cert.ReferenceIdeal.main_arg6 (by simp)),
     (h c Cert.ReferenceIdeal.main_arg7).trans (Cert.ReferenceIdeal.Stretch.kept m c Cert.ReferenceIdeal.main_arg7 (by simp)),
     (h c Cert.ReferenceIdeal.main_arg8).trans (Cert.ReferenceIdeal.Stretch.kept m c Cert.ReferenceIdeal.main_arg8 (by simp)),
     (h c Cert.ReferenceIdeal.main_arg9).trans (Cert.ReferenceIdeal.Stretch.kept m c Cert.ReferenceIdeal.main_arg9 (by simp)),
     (h c Cert.ReferenceIdeal.main_arg10).trans (Cert.ReferenceIdeal.Stretch.kept m c Cert.ReferenceIdeal.main_arg10 (by simp)),
     (h c Cert.ReferenceIdeal.main_arg11).trans (Cert.ReferenceIdeal.Stretch.kept m c Cert.ReferenceIdeal.main_arg11 (by simp)),
     (h c Cert.ReferenceIdeal.main_arg12).trans (Cert.ReferenceIdeal.Stretch.kept m c Cert.ReferenceIdeal.main_arg12 (by simp)),
     (h c Cert.ReferenceIdeal.main_arg13).trans (Cert.ReferenceIdeal.Stretch.kept m c Cert.ReferenceIdeal.main_arg13 (by simp)),
     (h c Cert.ReferenceIdeal.main_arg14).trans (Cert.ReferenceIdeal.Stretch.kept m c Cert.ReferenceIdeal.main_arg14 (by simp)),
     (h c Cert.ReferenceIdeal.main_arg15).trans (Cert.ReferenceIdeal.Stretch.kept m c Cert.ReferenceIdeal.main_arg15 (by simp))⟩)
    (Cert.ReferenceIdeal.Stretch.run (F := Ideal) m ρ)

theorem preserves : Cert.preserves_Kernel_KernelIdeal := trivial

/-- From memories agreeing on the arguments both programs end with the network of the arguments in the result. -/
theorem algebraic : Cert.algebraic_KernelIdeal_ReferenceIdeal := by
  intro m ρ m' ρ' hpre hagree
  refine ⟨fun c => Cert.Net.net Cert.KernelIdeal.Fns.H (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (Cert.KernelIdeal.Fns.rowOf (m ((c.tc : Thread Cert.KernelIdeal.nD Cert.KernelIdeal.τ).loc Cert.KernelIdeal.main_arg2))) (Cert.KernelIdeal.Fns.colOf (m ((c.tc : Thread Cert.KernelIdeal.nD Cert.KernelIdeal.τ).loc Cert.KernelIdeal.main_arg2))) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run Cert.KernelIdeal.defs _ _).mono (fun _ h c => ?_) (Cert.KernelIdeal.Gen.run_result (F := Ideal) m ρ)
    exact ⟨(h c).1.trans (Cert.KernelIdeal.Whole.result m ρ c), (h c).2⟩
  · refine (θ_run Cert.ReferenceIdeal.defs _ _).mono (fun _ h c => ?_) (Cert.ReferenceIdeal.Stretch.run (F := Ideal) m' ρ')
    refine ⟨?_, (h c Cert.ReferenceIdeal.main_arg0).trans (Cert.ReferenceIdeal.Stretch.kept m' c Cert.ReferenceIdeal.main_arg0 (by simp)),
      (h c Cert.ReferenceIdeal.main_arg1).trans (Cert.ReferenceIdeal.Stretch.kept m' c Cert.ReferenceIdeal.main_arg1 (by simp)),
      (h c Cert.ReferenceIdeal.main_arg2).trans (Cert.ReferenceIdeal.Stretch.kept m' c Cert.ReferenceIdeal.main_arg2 (by simp)),
      (h c Cert.ReferenceIdeal.main_arg3).trans (Cert.ReferenceIdeal.Stretch.kept m' c Cert.ReferenceIdeal.main_arg3 (by simp)),
      (h c Cert.ReferenceIdeal.main_arg4).trans (Cert.ReferenceIdeal.Stretch.kept m' c Cert.ReferenceIdeal.main_arg4 (by simp)),
      (h c Cert.ReferenceIdeal.main_arg5).trans (Cert.ReferenceIdeal.Stretch.kept m' c Cert.ReferenceIdeal.main_arg5 (by simp)),
      (h c Cert.ReferenceIdeal.main_arg6).trans (Cert.ReferenceIdeal.Stretch.kept m' c Cert.ReferenceIdeal.main_arg6 (by simp)),
      (h c Cert.ReferenceIdeal.main_arg7).trans (Cert.ReferenceIdeal.Stretch.kept m' c Cert.ReferenceIdeal.main_arg7 (by simp)),
      (h c Cert.ReferenceIdeal.main_arg8).trans (Cert.ReferenceIdeal.Stretch.kept m' c Cert.ReferenceIdeal.main_arg8 (by simp)),
      (h c Cert.ReferenceIdeal.main_arg9).trans (Cert.ReferenceIdeal.Stretch.kept m' c Cert.ReferenceIdeal.main_arg9 (by simp)),
      (h c Cert.ReferenceIdeal.main_arg10).trans (Cert.ReferenceIdeal.Stretch.kept m' c Cert.ReferenceIdeal.main_arg10 (by simp)),
      (h c Cert.ReferenceIdeal.main_arg11).trans (Cert.ReferenceIdeal.Stretch.kept m' c Cert.ReferenceIdeal.main_arg11 (by simp)),
      (h c Cert.ReferenceIdeal.main_arg12).trans (Cert.ReferenceIdeal.Stretch.kept m' c Cert.ReferenceIdeal.main_arg12 (by simp)),
      (h c Cert.ReferenceIdeal.main_arg13).trans (Cert.ReferenceIdeal.Stretch.kept m' c Cert.ReferenceIdeal.main_arg13 (by simp)),
      (h c Cert.ReferenceIdeal.main_arg14).trans (Cert.ReferenceIdeal.Stretch.kept m' c Cert.ReferenceIdeal.main_arg14 (by simp)),
      (h c Cert.ReferenceIdeal.main_arg15).trans (Cert.ReferenceIdeal.Stretch.kept m' c Cert.ReferenceIdeal.main_arg15 (by simp))⟩
    rw [h c Cert.ReferenceIdeal.main_v105, Cert.ReferenceIdeal.StretchValue.result m' c,
      (hagree c).1, (hagree c).2.1, (hagree c).2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
    exact (net_eq _ _ _ _ _ _ _ _ _ _ _ _ _ _ _ _ (hpre c)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
